-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v33)) (v1 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_v31) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_v66) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S384x128 : Shape := ⟨2, ![384, 128]⟩
abbrev S384 : Shape := ⟨1, ![384]⟩
abbrev S_ : Shape := ⟨0, ![]⟩

class Facts : Prop where
  bcast_S_S384x128 : S_.BroadcastsInDim S384x128 (![] : Fin 0 → Fin S384x128.rank)
  reducesTo_S384x128_S_d0_1 : S384x128.ReducesTo [0, 1] S_
  h_S_ : 0 < S_.numel

variable [Facts]

def fn {F : FTy → Type} [FloatOps F] (main_arg0 : FVec F S384x128 .f32) (main_arg1 : IVec S384 32) : IVec S_ 1 :=
  let main_v0 : FVec F S384x128 .f32 := Host.absf main_arg0
  let main_cst : FVec F S_ .f32 := constant S_ .f32 0x7F800000#32
  let main_v1 : FVec F S384x128 .f32 := broadcastInDim S384x128 ![] bcast_S_S384x128 main_cst
  let main_v2 : IVec S384x128 1 := cmpf .olt main_v0 main_v1
  let main_c : IVec S_ 1 := constantI S_ 1 1#1
  let main_v3 : IVec S_ 1 := (fun x v => Host.reduce IntOp.andi x v reducesTo_S384x128_S_d0_1 h_S_) main_v2 main_c
  main_v3
-- ==== Kernel.lean ====
abbrev S384x128 : Shape := ⟨2, ![384, 128]⟩
abbrev S384 : Shape := ⟨1, ![384]⟩
abbrev S1x384 : Shape := ⟨2, ![1, 384]⟩
abbrev S384x384 : Shape := ⟨2, ![384, 384]⟩
abbrev S128x384 : Shape := ⟨2, ![128, 384]⟩
abbrev S384x1 : Shape := ⟨2, ![384, 1]⟩
abbrev S16x128 : Shape := ⟨2, ![16, 128]⟩
abbrev S64x384 : Shape := ⟨2, ![64, 384]⟩
abbrev S8x128 : Shape := ⟨2, ![8, 128]⟩
abbrev S1x1 : Shape := ⟨2, ![1, 1]⟩
abbrev S1 : Shape := ⟨1, ![1]⟩
abbrev S1x2 : Shape := ⟨2, ![1, 2]⟩
abbrev S1x126 : Shape := ⟨2, ![1, 126]⟩
abbrev S1x128 : Shape := ⟨2, ![1, 128]⟩
abbrev S7x128 : Shape := ⟨2, ![7, 128]⟩
abbrev S2 : Shape := ⟨1, ![2]⟩
abbrev S_ : Shape := ⟨0, ![]⟩

abbrev nBuf : Space → Nat
  | .hbm => 41
  | .vmem => 7
  | .smem => 1
  | _ => 0

abbrev bufTy : (tb : Table) → Fin (tcTables nBuf tb) → BufTy
  | .hbm, ⟨0, _⟩ => ⟨S384x128, .f32⟩
  | .hbm, ⟨1, _⟩ => ⟨S1x384, .i32⟩
  | .hbm, ⟨2, _⟩ => ⟨S384x384, .f32⟩
  | .hbm, ⟨3, _⟩ => ⟨S16x128, .f32⟩
  | .hbm, ⟨4, _⟩ => ⟨S1x2, .f32⟩
  | .hbm, ⟨5, _⟩ => ⟨S2, .f32⟩
  | .hbm, ⟨6, _⟩ => ⟨S1x2, .f32⟩
  | .hbm, ⟨7, _⟩ => ⟨S2, .f32⟩
  | .hbm, ⟨8, _⟩ => ⟨S1, .f32⟩
  | .hbm, ⟨9, _⟩ => ⟨S_, .f32⟩
  | .hbm, ⟨10, _⟩ => ⟨S1, .f32⟩
  | .hbm, ⟨11, _⟩ => ⟨S_, .f32⟩
  | .hbm, ⟨12, _⟩ => ⟨S_, .f32⟩
  | .hbm, ⟨13, _⟩ => ⟨S1, .f32⟩
  | .hbm, ⟨14, _⟩ => ⟨S_, .f32⟩
  | .hbm, ⟨15, _⟩ => ⟨S1, .f32⟩
  | .hbm, ⟨16, _⟩ => ⟨S_, .f32⟩
  | .hbm, ⟨17, _⟩ => ⟨S_, .f32⟩
  | .hbm, ⟨18, _⟩ => ⟨S384x1, .i32⟩
  | .hbm, ⟨19, _⟩ => ⟨S1x384, .i32⟩
  | .hbm, ⟨20, _⟩ => ⟨S384x384, .i32⟩
  | .hbm, ⟨21, _⟩ => ⟨S384x384, .i32⟩
  | .hbm, ⟨22, _⟩ => ⟨S384x384, .i1⟩
  | .hbm, ⟨23, _⟩ => ⟨S384x384, .f32⟩
  | .hbm, ⟨24, _⟩ => ⟨S_, .f32⟩
  | .hbm, ⟨25, _⟩ => ⟨S384, .f32⟩
  | .hbm, ⟨26, _⟩ => ⟨S_, .f32⟩
  | .hbm, ⟨27, _⟩ => ⟨S384, .f32⟩
  | .hbm, ⟨28, _⟩ => ⟨S384, .f32⟩
  | .hbm, ⟨29, _⟩ => ⟨S_, .f32⟩
  | .hbm, ⟨30, _⟩ => ⟨S384, .f32⟩
  | .hbm, ⟨31, _⟩ => ⟨S384, .f32⟩
  | .hbm, ⟨32, _⟩ => ⟨S384, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .local _ .vmem, ⟨0, _⟩ => ⟨S384x128, .f32⟩
  | .local _ .vmem, ⟨1, _⟩ => ⟨S384x384, .f32⟩
  | .local _ .vmem, ⟨2, _⟩ => ⟨S64x384, .f32⟩
  | .local _ .vmem, ⟨3, _⟩ => ⟨S64x384, .f32⟩
  | .local _ .vmem, ⟨4, _⟩ => ⟨S1x384, .i32⟩
  | .local _ .vmem, ⟨5, _⟩ => ⟨S8x128, .f32⟩
  | .local _ .vmem, ⟨6, _⟩ => ⟨S8x128, .f32⟩
  | .local _ .smem, ⟨0, _⟩ => ⟨S384, .i32⟩
  | _, _ => ⟨S384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_v19 : Ref sig .tc := ⟨.hbm, 20, rfl⟩
abbrev main_v20 : Ref sig .tc := ⟨.hbm, 21, rfl⟩
abbrev main_v21 : Ref sig .tc := ⟨.hbm, 22, rfl⟩
abbrev main_v22 : Ref sig .tc := ⟨.hbm, 23, rfl⟩
abbrev main_cst : Ref sig .tc := ⟨.hbm, 24, rfl⟩
abbrev main_v23 : Ref sig .tc := ⟨.hbm, 25, rfl⟩
abbrev main_cst_0 : Ref sig .tc := ⟨.hbm, 26, rfl⟩
abbrev main_v24 : Ref sig .tc := ⟨.hbm, 27, rfl⟩
abbrev main_v25 : Ref sig .tc := ⟨.hbm, 28, rfl⟩
abbrev main_cst_1 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_cst_2 : Ref sig .tc := ⟨.hbm, 33, rfl⟩
abbrev main_v29 : Ref sig .tc := ⟨.hbm, 34, rfl⟩
abbrev main_cst_3 : Ref sig .tc := ⟨.hbm, 35, rfl⟩
abbrev main_v30 : Ref sig .tc := ⟨.hbm, 36, rfl⟩
abbrev main_v31 : Ref sig .tc := ⟨.hbm, 37, rfl⟩
abbrev main_cst_4 : Ref sig .tc := ⟨.hbm, 38, rfl⟩
abbrev main_v32 : Ref sig .tc := ⟨.hbm, 39, rfl⟩
abbrev main_v33 : Ref sig .tc := ⟨.hbm, 40, rfl⟩
abbrev main_arg1 : Ref sig .tc := ⟨.smem, 0, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg1_0 : Ref sig .tc := ⟨.vmem, 4, rfl⟩
abbrev cc1_stg2_0 : Ref sig .tc := ⟨.vmem, 5, rfl⟩
abbrev cc1_stg2_1 : Ref sig .tc := ⟨.vmem, 6, rfl⟩
abbrev cc0_sem0_0 : DmaSem sig := 0
abbrev cc0_sem1_0 : DmaSem sig := 1
abbrev cc1_sem0_0 : DmaSem sig := 2
abbrev cc1_sem0_1 : DmaSem sig := 3
abbrev cc1_sem1_0 : DmaSem sig := 4
abbrev cc1_sem2_0 : DmaSem sig := 5
abbrev cc1_sem2_1 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S384x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S384x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨2, ![2, 3], ![false, false]⟩

abbrev pre1 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

@[reducible] def k1_t1_loop : Scf.Loop 32 :=
  let c0_i32_3 : BitVec 32 := 0#32
  let c64_i32_4 : BitVec 32 := 64#32
  let v15 : BitVec 32 := Scalar.addi c0_i32_3 c64_i32_4
  let c1_i32 : BitVec 32 := 1#32
  ⟨c0_i32_3, v15, c1_i32⟩
def k1_off1 (i : grid1.Coords) (k1_t1 : Fin k1_t1_loop.trips) : Fin 1 → Nat :=
  let arg0 : BitVec 32 := BitVec.ofNat 32 (i 0).val
  let c3_i32 : BitVec 32 := 3#32
  let v10 : BitVec 32 := Scalar.muli arg0 c3_i32
  let arg1 : BitVec 32 := BitVec.ofNat 32 (i 1).val
  let v11 : BitVec 32 := Scalar.addi v10 arg1
  let c64_i32 : BitVec 32 := 64#32
  let v12 : BitVec 32 := Scalar.muli v11 c64_i32
  let c0_i32_3 : BitVec 32 := 0#32
  let c1_i32 : BitVec 32 := 1#32
  let arg6 : BitVec 32 := Scf.iv c0_i32_3 c1_i32 k1_t1
  let v26 : BitVec 32 := Scalar.addi v12 arg6
  let v27 : Index := Scalar.indexCast v26
  ![v27.toNat]
def k1_off2 (k1_t1 : Fin k1_t1_loop.trips) : Fin 2 → Nat :=
  let c0_i32_3 : BitVec 32 := 0#32
  let c1_i32 : BitVec 32 := 1#32
  let arg6 : BitVec 32 := Scf.iv c0_i32_3 c1_i32 k1_t1
  let v29 : Index := Scalar.indexCast arg6
  let c0_12 : Index := 0#32
  ![v29.toNat, 0]
def cc1_transform_0 (i : grid1.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S64x384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1x384 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S8x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  shapeCasts_S384_S1x384 : S384.ShapeCasts S1x384
  inb_S384x128_S384x128_0_0 : ∀ a, (![0, 0] : Fin 2 → Nat) a + S384x128.size a ≤ S384x128.size a
  h_S384x128 : 0 < S384x128.numel
  transposes_S384x128_p1_0_S128x384 : S384x128.Transposes [1, 0] S128x384
  reduces_S384x128_S384 : S384x128.Reduces [1] S384
  shapeCasts_S384_S384x1 : S384.ShapeCasts S384x1
  shapeCasts_S384x1_S1x384 : S384x1.ShapeCasts S1x384
  broadcasts_S384x1_S384x384 : S384x1.Broadcasts S384x384
  broadcasts_S1x384_S384x384 : S1x384.Broadcasts S384x384
  inb_S384x384_S384x384_0_0 : ∀ a, (![0, 0] : Fin 2 → Nat) a + S384x384.size a ≤ S384x384.size a
  h_S384x384 : 0 < S384x384.numel
  inb_S8x128_S8x128_0_0 : ∀ a, (![0, 0] : Fin 2 → Nat) a + S8x128.size a ≤ S8x128.size a
  h_S8x128 : 0 < S8x128.numel
  iota_S384x1_d0_w32 : S384x1.Iotas .tc 32 [0]
  inb_S1x384_S1x384_0_0 : ∀ a, (![0, 0] : Fin 2 → Nat) a + S1x384.size a ≤ S1x384.size a
  h_S1x384 : 0 < S1x384.numel
  shapeCasts_S1x384_S1x384 : S1x384.ShapeCasts S1x384
  shapeCasts_S1x384_S384x1 : S1x384.ShapeCasts S384x1
  numel1_S1 : S1.numel = 1
  shapeCasts_S1x384_S384 : S1x384.ShapeCasts S384
  natLt_1_32 : 1 < 32
  reduces_S384x384_S384 : S384x384.Reduces [1] S384
  reduces_S384x1_S1 : S384x1.Reduces [0] S1
  shapeCasts_S1_S1x1 : S1.ShapeCasts S1x1
  concatenates_S1x1_S1x1_S1x2_d1 : Shape.Concatenates [S1x1, S1x1] S1x2 1
  concatenates_S1x2_S1x126_S1x128_d1 : Shape.Concatenates [S1x2, S1x126] S1x128 1
  concatenates_S1x128_S7x128_S8x128_d0 : Shape.Concatenates [S1x128, S7x128] S8x128 0
  shapeCasts_S8x128_S8x128 : S8x128.ShapeCasts S8x128
  slices_S16x128_S1x2_0_0 : S16x128.Slices ![0, 0] S1x2
  shapeCasts_S1x2_S2 : S1x2.ShapeCasts S2
  slices_S16x128_S1x2_8_0 : S16x128.Slices ![8, 0] S1x2
  slices_S2_S1_0 : S2.Slices ![0] S1
  shapeCasts_S1_S_ : S1.ShapeCasts S_
  slices_S2_S1_1 : S2.Slices ![1] S1
  bcast_S384_S384x1_0 : S384.BroadcastsInDim S384x1 (![0] : Fin 1 → Fin S384x1.rank)
  bcast_S384_S1x384_1 : S384.BroadcastsInDim S1x384 (![1] : Fin 1 → Fin S1x384.rank)
  bcast_S384x1_S384x384_0_1 : S384x1.BroadcastsInDim S384x384 (![0, 1] : Fin 2 → Fin S384x384.rank)
  bcast_S1x384_S384x384_0_1 : S1x384.BroadcastsInDim S384x384 (![0, 1] : Fin 2 → Fin S384x384.rank)
  reducesTo_S384x384_S384_d1 : S384x384.ReducesTo [1] S384
  h_S_ : 0 < S_.numel
  bcast_S_S384 : S_.BroadcastsInDim S384 (![] : Fin 0 → Fin S384.rank)
  reducesTo_S384_S_d0 : S384.ReducesTo [0] S_
  dot_S384x128_S128x384_S384x384_1_0_0_1_n_n_wf : DotDims.WF S384x128 S128x384 S384x384 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S384x128.size a ≤ S384x128.size a
  hwx0_0 : ∀ i : grid0.Coords, EltTy.bits .f32 = 32 ∨ (Rect.block (s := S384x128) S384x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S384x384.size a ≤ S384x384.size a
  hwx0_1 : ∀ i : grid0.Coords, EltTy.bits .f32 = 32 ∨ (Rect.block (s := S384x384) S384x384.size (cc0_transform_1 i) (hinb0_1 i)).WholeWords (EltTy.packing .f32)
  hrank1 : 0 < grid1.rank
  k1_t1_ok : k1_t1_loop.OK
  k1_off1_inb : ∀ (i : grid1.Coords) (k1_t1 : Fin k1_t1_loop.trips), ∀ a, (k1_off1 i k1_t1) a + S1.size a ≤ S384.size a
  k1_off2_inb : ∀ k1_t1 : Fin k1_t1_loop.trips, ∀ a, (k1_off2 k1_t1) a + S1x384.size a ≤ S64x384.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S64x384.size a ≤ S384x384.size a
  hwx1_0 : ∀ i : grid1.Coords, EltTy.bits .f32 = 32 ∨ (Rect.block (s := S384x384) S64x384.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x384.size a ≤ S1x384.size a
  hwx1_1 : ∀ i : grid1.Coords, EltTy.bits .i32 = 32 ∨ (Rect.block (s := S1x384) S1x384.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x128.size a ≤ S16x128.size a
  hwx1_2 : ∀ i : grid1.Coords, EltTy.bits .f32 = 32 ∨ (Rect.block (s := S16x128) S8x128.size (cc1_transform_2 i) (hinb1_2 i)).WholeWords (EltTy.packing .f32)

variable [Facts₀]

def dot_S384x128_S128x384_S384x384_1_0_0_1_n_n : DotDims S384x128 S128x384 S384x384 where
  lhsContracting := [1]
  rhsContracting := [0]
  lhsNonContracting := [0]
  rhsNonContracting := [1]
  lhsBatch := []
  rhsBatch := []
  wf := dot_S384x128_S128x384_S384x384_1_0_0_1_n_n_wf

abbrev win0_0 : Pipeline.Window sig grid0 :=
  Pipeline.Window.ofSpec (Memref.whole main_arg0) S384x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S384x384.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev spec1_0 : Pipeline.WinSpec sig grid1.rank :=
  Pipeline.WinSpec.ofSpec (Memref.whole main_v1) S64x384.size reads1_0 false false 2 stage1_0 sem1_0 nbuf1_0 hstage1_0

abbrev spec1_1 : Pipeline.WinSpec sig grid1.rank :=
  Pipeline.WinSpec.ofSpec (Memref.whole main_v0) S1x384.size reads1_1 false true 1 stage1_1 sem1_1 nbuf1_1 hstage1_1

abbrev spec1_2 : Pipeline.WinSpec sig grid1.rank :=
  Pipeline.WinSpec.ofSpec (Memref.whole main_v2) S8x128.size reads1_2 true false 2 stage1_2 sem1_2 nbuf1_2 hstage1_2

abbrev spec1 : Fin 3 → Pipeline.WinSpec sig grid1.rank := fun | 0 => spec1_0 | 1 => spec1_1 | 2 => spec1_2 | ⟨_ + 3, h⟩ => absurd h (Nat.not_lt.2 (Nat.le_add_left _ _))
theorem hcount1 : ∀ w, grid1.bufCount (spec1 w).reads (spec1 w).sync = (spec1 w).nbuf := fun | 0 => nbuf1_0 | 1 => nbuf1_1 | 2 => nbuf1_2 | ⟨_ + 3, h⟩ => absurd h (Nat.not_lt.2 (Nat.le_add_left _ _))
abbrev ix1 (pf : pre1.Contents (Elt F)) : (w : Fin 3) → grid1.Coords → Fin (spec1 w).shape.rank → Nat := fun | 0 => cc1_transform_0 | 1 => cc1_transform_1 | 2 => cc1_transform_2 | ⟨_ + 3, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 | 1 => hreads1_1 | 2 => hreads1_2 | ⟨_ + 3, h⟩ => absurd h (Nat.not_lt.2 (Nat.le_add_left _ _))
def ok1 (_ : pre1.Contents (Elt F)) : Prop :=
  True
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun _ _ => fun | 0 => hinb1_0 | 1 => hinb1_1 | 2 => hinb1_2 | ⟨_ + 3, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun _ _ => fun | 0 => hwx1_0 | 1 => hwx1_1 | 2 => hwx1_2 | ⟨_ + 3, h⟩ => absurd h (Nat.not_lt.2 (Nat.le_add_left _ _))

class Facts : Prop extends Facts₀ where
  harr1 : ∀ w, (spec1 w).arr.IsWhole

variable [Facts]
-- ==== ReferenceIdeal.lean ====
abbrev S384x128 : Shape := ⟨2, ![384, 128]⟩
abbrev S384 : Shape := ⟨1, ![384]⟩
abbrev S_ : Shape := ⟨0, ![]⟩
abbrev S384x1 : Shape := ⟨2, ![384, 1]⟩
abbrev S1x384 : Shape := ⟨2, ![1, 384]⟩
abbrev S384x384 : Shape := ⟨2, ![384, 384]⟩
abbrev S128x384 : Shape := ⟨2, ![128, 384]⟩
abbrev S384x384x1 : Shape := ⟨3, ![384, 384, 1]⟩
abbrev S384x1x384 : Shape := ⟨3, ![384, 1, 384]⟩
abbrev S384x384x384 : Shape := ⟨3, ![384, 384, 384]⟩
abbrev S1x384x384 : Shape := ⟨3, ![1, 384, 384]⟩

abbrev nBuf : Space → Nat
  | .hbm => 95
  | .vmem => 0
  | .smem => 0
  | _ => 0

abbrev bufTy : (tb : Table) → Fin (tcTables nBuf tb) → BufTy
  | .hbm, ⟨0, _⟩ => ⟨S384x128, .f32⟩
  | .hbm, ⟨1, _⟩ => ⟨S384, .i32⟩
  | .hbm, ⟨2, _⟩ => ⟨S384x128, .f32⟩
  | .hbm, ⟨3, _⟩ => ⟨S_, .f32⟩
  | .hbm, ⟨4, _⟩ => ⟨S384, .f32⟩
  | .hbm, ⟨5, _⟩ => ⟨S384x1, .f32⟩
  | .hbm, ⟨6, _⟩ => ⟨S1x384, .f32⟩
  | .hbm, ⟨7, _⟩ => ⟨S384x384, .f32⟩
  | .hbm, ⟨8, _⟩ => ⟨S384x384, .f32⟩
  | .hbm, ⟨9, _⟩ => ⟨S384x384, .f32⟩
  | .hbm, ⟨10, _⟩ => ⟨S128x384, .f32⟩
  | .hbm, ⟨11, _⟩ => ⟨S384x384, .f32⟩
  | .hbm, ⟨12, _⟩ => ⟨S_, .f32⟩
  | .hbm, ⟨13, _⟩ => ⟨S384x384, .f32⟩
  | .hbm, ⟨14, _⟩ => ⟨S384x384, .f32⟩
  | .hbm, ⟨15, _⟩ => ⟨S384x384, .f32⟩
  | .hbm, ⟨16, _⟩ => ⟨S_, .f32⟩
  | .hbm, ⟨17, _⟩ => ⟨S384x384, .f32⟩
  | .hbm, ⟨18, _⟩ => ⟨S384x384, .f32⟩
  | .hbm, ⟨19, _⟩ => ⟨S_, .f32⟩
  | .hbm, ⟨20, _⟩ => ⟨S384x384, .f32⟩
  | .hbm, ⟨21, _⟩ => ⟨S384x384, .i1⟩
  | .hbm, ⟨22, _⟩ => ⟨S_, .f32⟩
  | .hbm, ⟨23, _⟩ => ⟨S384x384, .f32⟩
  | .hbm, ⟨24, _⟩ => ⟨S384x384, .i1⟩
  | .hbm, ⟨25, _⟩ => ⟨S_, .f32⟩
  | .hbm, ⟨26, _⟩ => ⟨S_, .f32⟩
  | .hbm, ⟨27, _⟩ => ⟨S384x384, .f32⟩
  | .hbm, ⟨28, _⟩ => ⟨S384x384, .f32⟩
  | .hbm, ⟨29, _⟩ => ⟨S384x384, .f32⟩
  | .hbm, ⟨30, _⟩ => ⟨S_, .f32⟩
  | .hbm, ⟨31, _⟩ => ⟨S_, .f32⟩
  | .hbm, ⟨32, _⟩ => ⟨S384x384, .f32⟩
  | .hbm, ⟨33, _⟩ => ⟨S384x384, .f32⟩
  | .hbm, ⟨34, _⟩ => ⟨S384x384, .i32⟩
  | .hbm, ⟨35, _⟩ => ⟨S384x384, .i32⟩
  | .hbm, ⟨36, _⟩ => ⟨S_, .i32⟩
  | .hbm, ⟨37, _⟩ => ⟨S384x384, .i32⟩
  | .hbm, ⟨38, _⟩ => ⟨S384x384, .i32⟩
  | .hbm, ⟨39, _⟩ => ⟨S384x384, .i1⟩
  | .hbm, ⟨40, _⟩ => ⟨S384x384, .i1⟩
  | .hbm, ⟨41, _⟩ => ⟨S384x384x1, .i1⟩
  | .hbm, ⟨42, _⟩ => ⟨S384x1x384, .i1⟩
  | .hbm, ⟨43, _⟩ => ⟨S384x384x384, .i1⟩
  | .hbm, ⟨44, _⟩ => ⟨S384x384x384, .i1⟩
  | .hbm, ⟨45, _⟩ => ⟨S384x384x384, .i1⟩
  | .hbm, ⟨46, _⟩ => ⟨S1x384x384, .i1⟩
  | .hbm, ⟨47, _⟩ => ⟨S384x384x384, .i1⟩
  | .hbm, ⟨48, _⟩ => ⟨S384x384x384, .i1⟩
  | .hbm, ⟨49, _⟩ => ⟨S1x384, .i32⟩
  | .hbm, ⟨50, _⟩ => ⟨S384x1, .i32⟩
  | .hbm, ⟨51, _⟩ => ⟨S384x384, .i32⟩
  | .hbm, ⟨52, _⟩ => ⟨S384x384, .i32⟩
  | .hbm, ⟨53, _⟩ => ⟨S384x384, .i1⟩
  | .hbm, ⟨54, _⟩ => ⟨S384x1x384, .i1⟩
  | .hbm, ⟨55, _⟩ => ⟨S384x1x384, .i1⟩
  | .hbm, ⟨56, _⟩ => ⟨S384x384x1, .i1⟩
  | .hbm, ⟨57, _⟩ => ⟨S384x384x384, .i1⟩
  | .hbm, ⟨58, _⟩ => ⟨S384x384x384, .i1⟩
  | .hbm, ⟨59, _⟩ => ⟨S384x384x384, .i1⟩
  | .hbm, ⟨60, _⟩ => ⟨S384x384x384, .i1⟩
  | .hbm, ⟨61, _⟩ => ⟨S384x384x1, .f32⟩
  | .hbm, ⟨62, _⟩ => ⟨S384x1x384, .f32⟩
  | .hbm, ⟨63, _⟩ => ⟨S384x384x384, .f32⟩
  | .hbm, ⟨64, _⟩ => ⟨S384x384x384, .f32⟩
  | .hbm, ⟨65, _⟩ => ⟨S384x384x384, .f32⟩
  | .hbm, ⟨66, _⟩ => ⟨S_, .f32⟩
  | .hbm, ⟨67, _⟩ => ⟨S384x384x384, .f32⟩
  | .hbm, ⟨68, _⟩ => ⟨S384x384x384, .f32⟩
  | .hbm, ⟨69, _⟩ => ⟨S_, .f32⟩
  | .hbm, ⟨70, _⟩ => ⟨S_, .f32⟩
  | .hbm, ⟨71, _⟩ => ⟨S384x384x384, .f32⟩
  | .hbm, ⟨72, _⟩ => ⟨S384x384x384, .f32⟩
  | .hbm, ⟨73, _⟩ => ⟨S_, .f32⟩
  | .hbm, ⟨74, _⟩ => ⟨S384x384x384, .f32⟩
  | .hbm, ⟨75, _⟩ => ⟨S384x384x384, .f32⟩
  | .hbm, ⟨76, _⟩ => ⟨S_, .f32⟩
  | .hbm, ⟨77, _⟩ => ⟨S384x384x384, .f32⟩
  | .hbm, ⟨78, _⟩ => ⟨S384x384x384, .i1⟩
  | .hbm, ⟨79, _⟩ => ⟨S384x384x384, .i32⟩
  | .hbm, ⟨80, _⟩ => ⟨S_, .i32⟩
  | .hbm, ⟨81, _⟩ => ⟨S_, .i32⟩
  | .hbm, ⟨82, _⟩ => ⟨S_, .f32⟩
  | .hbm, ⟨83, _⟩ => ⟨S384x384x384, .i32⟩
  | .hbm, ⟨84, _⟩ => ⟨S_, .i32⟩
  | .hbm, ⟨85, _⟩ => ⟨S_, .i32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | _, _ => ⟨S384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_call0_v0 : Ref sig .tc := ⟨.hbm, 26, rfl⟩
abbrev main_call0_v1 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_call1_v0 : Ref sig .tc := ⟨.hbm, 31, rfl⟩
abbrev main_call1_v1 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_6 : Ref sig .tc := ⟨.hbm, 66, rfl⟩
abbrev main_v52 : Ref sig .tc := ⟨.hbm, 67, rfl⟩
abbrev main_v53 : Ref sig .tc := ⟨.hbm, 68, rfl⟩
abbrev main_cst_7 : Ref sig .tc := ⟨.hbm, 69, rfl⟩
abbrev main_call2_v0 : Ref sig .tc := ⟨.hbm, 70, rfl⟩
abbrev main_call2_v1 : Ref sig .tc := ⟨.hbm, 71, rfl⟩
abbrev main_v54 : Ref sig .tc := ⟨.hbm, 72, rfl⟩
abbrev main_cst_8 : Ref sig .tc := ⟨.hbm, 73, rfl⟩
abbrev main_v55 : Ref sig .tc := ⟨.hbm, 74, rfl⟩
abbrev main_v56 : Ref sig .tc := ⟨.hbm, 75, rfl⟩
abbrev main_cst_9 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_c_10 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_c_11 : Ref sig .tc := ⟨.hbm, 84, rfl⟩
abbrev main_v63 : Ref sig .tc := ⟨.hbm, 85, rfl⟩
abbrev main_v64 : Ref sig .tc := ⟨.hbm, 86, rfl⟩
abbrev main_cst_12 : Ref sig .tc := ⟨.hbm, 87, rfl⟩
abbrev main_v65 : Ref sig .tc := ⟨.hbm, 88, rfl⟩
abbrev main_v66 : Ref sig .tc := ⟨.hbm, 89, rfl⟩
abbrev main_cst_13 : Ref sig .tc := ⟨.hbm, 90, rfl⟩
abbrev main_v67 : Ref sig .tc := ⟨.hbm, 91, rfl⟩
abbrev main_cst_14 : Ref sig .tc := ⟨.hbm, 92, rfl⟩
abbrev main_v68 : Ref sig .tc := ⟨.hbm, 93, rfl⟩
abbrev main_v69 : Ref sig .tc := ⟨.hbm, 94, rfl⟩

abbrev nD : Nat := 1
abbrev τ : Topo := Topo.v7x

variable {F : FTy → Type} [FloatOps F]

class Facts₀ : Prop where
  reducesTo_S384x128_S384_d1 : S384x128.ReducesTo [1] S384
  h_S_ : 0 < S_.numel
  bcast_S384_S384x1_0 : S384.BroadcastsInDim S384x1 (![0] : Fin 1 → Fin S384x1.rank)
  bcast_S384_S1x384_1 : S384.BroadcastsInDim S1x384 (![1] : Fin 1 → Fin S1x384.rank)
  bcast_S384x1_S384x384_0_1 : S384x1.BroadcastsInDim S384x384 (![0, 1] : Fin 2 → Fin S384x384.rank)
  bcast_S1x384_S384x384_0_1 : S1x384.BroadcastsInDim S384x384 (![0, 1] : Fin 2 → Fin S384x384.rank)
  transposes_S384x128_S128x384_1_0 : S384x128.Transposes [1, 0] S128x384
  bcast_S_S384x384 : S_.BroadcastsInDim S384x384 (![] : Fin 0 → Fin S384x384.rank)
  bcast_S384x384_S384x384x1_0_1 : S384x384.BroadcastsInDim S384x384x1 (![0, 1] : Fin 2 → Fin S384x384x1.rank)
  bcast_S384x384_S384x1x384_0_2 : S384x384.BroadcastsInDim S384x1x384 (![0, 2] : Fin 2 → Fin S384x1x384.rank)
  bcast_S384x384x1_S384x384x384_0_1_2 : S384x384x1.BroadcastsInDim S384x384x384 (![0, 1, 2] : Fin 3 → Fin S384x384x384.rank)
  bcast_S384x1x384_S384x384x384_0_1_2 : S384x1x384.BroadcastsInDim S384x384x384 (![0, 1, 2] : Fin 3 → Fin S384x384x384.rank)
  bcast_S384x384_S1x384x384_1_2 : S384x384.BroadcastsInDim S1x384x384 (![1, 2] : Fin 2 → Fin S1x384x384.rank)
  bcast_S1x384x384_S384x384x384_0_1_2 : S1x384x384.BroadcastsInDim S384x384x384 (![0, 1, 2] : Fin 3 → Fin S384x384x384.rank)
  bcast_S_S384x384x384 : S_.BroadcastsInDim S384x384x384 (![] : Fin 0 → Fin S384x384x384.rank)
  natLt_1_32 : 1 < 32
  reducesTo_S384x384x384_S_d0_1_2 : S384x384x384.ReducesTo [0, 1, 2] S_
  dot_S384x128_S128x384_S384x384_1_0_0_1_n_n_wf : DotDims.WF S384x128 S128x384 S384x384 [1] [0] [0] [1] [] []

variable [Facts₀]

def dot_S384x128_S128x384_S384x384_1_0_0_1_n_n : DotDims S384x128 S128x384 S384x384 where
  lhsContracting := [1]
  rhsContracting := [0]
  lhsNonContracting := [0]
  rhsNonContracting := [1]
  lhsBatch := []
  rhsBatch := []
  wf := dot_S384x128_S128x384_S384x384_1_0_0_1_n_n_wf

class Facts : Prop extends Facts₀ where

variable [Facts]
-- ==== Proof.Region0.lean ====
/-
  The first kernel call (pairwise distances) on one grid point: what its body leaves in the output window's
  staging buffer, as one whole-block store of the body's arithmetic applied to the loaded input block, and the
  body's triple: from the input buffer at read contents and the output buffer at anything, the body runs to the
  end, faults nowhere, and leaves the input as it was and the output at that value.
-/
import proofs.«410585_j13030930776533_3_alg».proof.Proof.Gen.KernelIdeal.Launch
import proofs.«410585_j13030930776533_3_alg».proof.Proof.Gen.KernelIdeal.Skeleton
import proofs.«410585_j13030930776533_3_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- Both offsets of a whole-block rectangle of rank two are zero. -/
theorem offsets_zero2 : (![0, 0] : Fin 2 → ℕ) = fun _ => 0 := funext fun a => by fin_cases a <;> rfl

/-- The whole input block and the whole output block as rectangles. -/
abbrev rIn0 : Rect S384x128 := Rect.unit (s := S384x128) ![0, 0] S384x128.size inb_S384x128_S384x128_0_0
abbrev rOut0 : Rect S384x384 := Rect.unit (s := S384x384) ![0, 0] S384x384.size inb_S384x384_S384x384_0_0

/-- The output buffer after the body, from the input block: one store of the distance arithmetic over the whole block. -/
def out0_1 (x0 : Vec F S384x128 .f32) : Vec F S384x384 .f32 :=
  View.canon [⟨rOut0, k0_pay1 (View.ld x0 rIn0)⟩]

/-- The store covers the buffer. -/
theorem cover0_1 (p0 : Vec F S384x384 .f32) (y : S384x384.Idx) :
    ∃ pc ∈ ([⟨rOut0, p0⟩] : List (View.Piece (Elt F) S384x384 .f32)), y ∈ pc.1.set :=
  ⟨⟨rOut0, p0⟩, List.mem_singleton_self _,
    View.mem_set_unit_zero (S := S384x384) offsets_zero2 inb_S384x384_S384x384_0_0 y⟩

/-- The one store is of the whole block, and the load is of the whole input block: the buffer ends at the body's
    arithmetic of the input block. -/
theorem out0_1_eq (x0 : Vec F S384x128 .f32) : out0_1 x0 = k0_pay1 x0 := by
  unfold out0_1
  rw [View.canon_unit_zero (S := S384x384) offsets_zero2]
  simp only [View.ld_unit_zero (S := S384x128) offsets_zero2]

set_option maxHeartbeats 1000000 in
/-- The body's triple. -/
theorem sound_kernel0 (c : Dev nD) (E : Set ℕ) (i : grid0.Coords) (arg1 : Memref sig .tc .vmem S384x128 .f32) (harg1 : arg1.IsWhole)
    (arg2 : Memref sig .tc .vmem S384x384 .f32) (harg2 : arg2.IsWhole)
    (x0 : Vec F S384x128 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__cdist_kernel i arg1 harg1 arg2 harg2) K := by
  simp only [cc0__cdist_kernel_eq_skeleton]; unfold cc0__cdist_kernel_skel
  unfold owns
  -- the input buffer holds some contents reading as the block; the output buffer holds anything
  iintro ⟨⟨%fIn, %hfIn, HIn⟩, ⟨%dOut, %fOut, -, HOut⟩, Hk⟩
  subst hfIn
  -- the load of the input block, the unused load of the output block, the whole-block store, the return
  sl_exec
  sl_step
  iapply Hk
  isplitl [HIn]
  -- the input buffer is untouched
  · iexists fIn
    isplitr
    · ipureintro; rfl
    · iexact HIn
  -- the output buffer holds one covering write over its old contents, which reads as that write's payload:
  -- the arithmetic of the loaded block, the load being the read through the whole-block rectangle
  · iexists _
    isplitr
    rotate_left
    · iexact HOut
    · ipureintro
      rw [View.read_writes_eq_canon _ _ _ (cover0_1 _), View.readAt_eq_ld]
      rfl

end Cert.KernelIdeal.Hand

end
-- ==== Proof.Dat0.lean ====
/-
  The first kernel call as a pipeline over its one grid point, at the contents `V` the core's buffers hold when
  the call is entered: the input window's block read off the embeddings' array, the proof data (after the body the
  input's staging buffer holds its block and the output's the distance arithmetic of that block; the invariant is
  the untouched rest), and the body obligation at the point.
-/
import proofs.«410585_j13030930776533_3_alg».proof.Proof.Region0
import proofs.«410585_j13030930776533_3_alg».proof.Proof.Gen.KernelIdeal.Launch
import proofs.«410585_j13030930776533_3_alg».proof.Proof.Gen.KernelIdeal.Points
import Idealize.ShloMosaic.Lib.Pipeline.FrameBody
import Idealize.ShloMosaic.Lib.Pipeline.Frame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- A window's block at a point, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The proof data of the first pipeline on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

/-- The input's staging buffer holds its block when the body runs: it is fetched at the point. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- The body obligation of the first pipeline: at its point the body is the distance kernel on the two staging
    buffers, the input's at its block. -/
theorem body_obligation0 (c : Dev nD) : BodyObligation (dat0 (F := F) V c) (defs₀ (F := F)) Variants.none () Set.univ := fun t => by
  rw [bigSep_W0, bigSep_W0]
  show iprop((dat0 V c).Φ t.castSucc ∗ (dat0 V c).owesAt () t.castSucc
      ∗ (∃ d, owns (c : Thread nD τ) (st0_0 t) fullShare ((dat0 V c).before 0 t d))
      ∗ (∃ d, owns (c : Thread nD τ) (st0_1 t) fullShare ((dat0 V c).before 1 t d)))
    ⊢ wp frame (wpE (defs₀ (F := F)) Variants.none c none) Set.univ (bodyAt0 t) (fun _ =>
      iprop((dat0 V c).Φ t.succ ∗ (dat0 V c).owesAt () t.succ
        ∗ owns (c : Thread nD τ) (st0_0 t) fullShare ((dat0 V c).after 0 t)
        ∗ owns (c : Thread nD τ) (st0_1 t) fullShare ((dat0 V c).after 1 t)))
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

end Cert.KernelIdeal.Hand

end
-- ==== Proof.Region1Defs.lean ====
/-
  The second kernel call (the anchor sweep) at one grid point, as pure functions of what its body reads: the
  labels table `tb`, the tile of 64 rows of the distance matrix `x0`, the labels as a row `x1`, and what the
  output buffer held `d`. Trip `k` of the loop over the tile's rows reads the anchor's label (the table's
  word at the anchor's index) and the anchor's row of distances (row `k` of the tile), and adds the anchor's
  hinge sum and count to the carried pair; after the 64 trips the pair is laid into row 0, columns 0 and 1 of an
  8×128 block of zeros and added to the buffer — zeroed first at the first point of a row of the grid.
-/
import proofs.«410585_j13030930776533_3_alg».proof.Proof.Gen.KernelIdeal.Skeleton
import Idealize.ShloMosaic.Lib.ValueIdx

noncomputable section

namespace Cert.KernelIdeal.Hand

open Idealize.ShloMosaic Idealize.SL.Sem
open Cert.KernelIdeal Cert.KernelIdeal.Gen

variable {F : FTy → Type} [FloatOps F]

/-- The loop has at most 64 trips. -/
theorem trip_lt (k : Fin k1_t1_loop.trips) : k.val < 64 := Nat.lt_of_lt_of_le k.isLt k1_t1_abs.2.1

/-- The anchor of trip `k` at grid point `i`: 192 per step of the outer axis, 64 per step of the inner, plus the trip. -/
def anchorIx (i : grid1.Coords) (k : Fin k1_t1_loop.trips) : Fin 384 :=
  ⟨192 * (i 0).val + 64 * (i 1).val + k.val, by
    have h0 : (i 0).val < 2 := (i 0).isLt
    have h1 : (i 1).val < 3 := (i 1).isLt
    have hk := trip_lt k
    omega⟩

/-- The anchor's label: the table's word at the anchor's index. -/
def wordAt (i : grid1.Coords) (tb : Vec F S384 .i32) (k : Fin k1_t1_loop.trips) : Elt F .i32 :=
  tb (ValueIdx.ix1 (anchorIx i k))

/-- The anchor's row of distances: row `k` of the tile, as a 1×384 vector. -/
def rowAt (x0 : Vec F S64x384 .f32) (k : Fin k1_t1_loop.trips) : Vec F S1x384 .f32 :=
  fun y => x0 (ValueIdx.ix2 (⟨k.val, trip_lt k⟩ : Fin 64) (y 1 : Fin 384))

/-- The carried pair (hinge sum, count) before trip `n`. -/
def accAt (i : grid1.Coords) (tb : Vec F S384 .i32) (x0 : Vec F S64x384 .f32) (x1 : Vec F S1x384 .i32) :
    ℕ → FVec F S1x1 .f32 × FVec F S1x1 .f32
  | 0 => (k1_pay5, k1_pay6)
  | n + 1 =>
    if h : n < k1_t1_loop.trips then
      (k1_pay9 i x1 ⟨n, h⟩ (accAt i tb x0 x1 n).1 (wordAt i tb ⟨n, h⟩) (rowAt x0 ⟨n, h⟩),
       k1_pay10 i x1 ⟨n, h⟩ (accAt i tb x0 x1 n).2 (wordAt i tb ⟨n, h⟩) (rowAt x0 ⟨n, h⟩))
    else accAt i tb x0 x1 n

/-- What the body leaves in the output buffer that held `d`: the loop's result laid into a block of zeros and added
    to the buffer's contents, which are zeros at the first point of a row of the grid. -/
def out1_2 (i : grid1.Coords) (tb : Vec F S384 .i32) (x0 : Vec F S64x384 .f32) (x1 : Vec F S1x384 .i32)
    (d : Vec F S8x128 .f32) : Vec F S8x128 .f32 :=
  k1_pay11 (accAt i tb x0 x1 k1_t1_loop.trips).1 (accAt i tb x0 x1 k1_t1_loop.trips).2
    (if (i 1).val = 0 then k1_pay1 else d)

end Cert.KernelIdeal.Hand

end
-- ==== Proof.Region1Body.lean ====
/-
  The body of the second kernel call at one grid point, run once: from the labels table, the tile of distances, the
  labels row and the output buffer at read contents, it runs to the end, faults nowhere, leaves the three inputs as
  they were and the output buffer at `out1_2` of them. At the first point of a row of the grid the buffer is
  first overwritten with zeros; the loop over the tile's 64 rows only loads (the anchor's label from the table,
  its row from the tile) and carries the pair of sums, which goes through the loop by its invariant: the carried
  pair before trip `n` is `accAt n`.
-/
import proofs.«410585_j13030930776533_3_alg».proof.Proof.Region1Defs
import proofs.«410585_j13030930776533_3_alg».proof.Proof.Gen.KernelIdeal.Launch
import proofs.«410585_j13030930776533_3_alg».proof.Proof.Gen.KernelIdeal.Loops
import proofs.«410585_j13030930776533_3_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

/-- The branch's condition, a scalar chain over the inner grid coordinate, says that coordinate is zero. -/
theorem cond_iff : ∀ (v : ℕ), v < 3 →
    ((Scalar.cmpi .ne (Scalar.extui (Scalar.cmpi .eq (BitVec.ofNat 32 v) 0#32)) 0#32 = 1#1) ↔ v = 0)
  | 0, _ => by decide
  | 1, _ => by decide
  | 2, _ => by decide
  | n + 3, h => absurd h (by omega)

/-- The word a trip loads from the table, through a whole memref that reads `tb`, is the anchor's label: the
    one-word rectangle sits at the anchor's index. -/
theorem word_eq (i : grid1.Coords) (arg2 : Memref sig .tc .smem S384 .i32) (harg2 : arg2.IsWhole) (tb : Vec F S384 .i32)
    (k : Fin k1_t1_loop.trips)
    (j : (Rect.unit (s := S384) (k1_off1 i k) S1.size (k1_off1_inb i k)).toLoadRect.shape.Idx) :
    View.readAt (Elt F) arg2.view (Rect.unit (s := S384) (k1_off1 i k) S1.size (k1_off1_inb i k)).toLoadRect
        (harg2.unread tb) j = wordAt i tb k := by
  rw [View.readAt_eq_ld, harg2.read_unread]
  unfold wordAt
  refine congrArg tb (funext fun a => Fin.ext ?_)
  match a with
  | ⟨0, ha⟩ =>
    have hj : (j ⟨0, ha⟩).val < 1 := (j ⟨0, ha⟩).isLt
    have e : k1_off1 i k ⟨0, ha⟩ = 192 * (i 0).val + 64 * (i 1).val + k.val := congrFun (k1_off1_eq i k) ⟨0, ha⟩
    show (k1_off1 i k) ⟨0, ha⟩ + 1 * (j ⟨0, ha⟩).val = 192 * (i 0).val + 64 * (i 1).val + k.val
    rw [e]
    omega

/-- The row a trip loads from the tile, through a whole memref that reads `x0`, is the anchor's row of distances: the
    one-row rectangle sits at row `k`, column zero. -/
theorem row_eq (arg3 : Memref sig .tc .vmem S64x384 .f32) (harg3 : arg3.IsWhole) (x0 : Vec F S64x384 .f32)
    (k : Fin k1_t1_loop.trips) :
    View.readAt (Elt F) arg3.view (Rect.unit (s := S64x384) (k1_off2 k) S1x384.size (k1_off2_inb k)).toLoadRect
        (harg3.unread x0) = rowAt x0 k := by
  rw [View.readAt_eq_ld, harg3.read_unread]
  funext y
  unfold rowAt
  refine congrArg x0 (funext fun a => Fin.ext ?_)
  match a with
  | ⟨0, ha⟩ =>
    have hy : (y ⟨0, ha⟩).val < 1 := (y ⟨0, ha⟩).isLt
    have e : k1_off2 k ⟨0, ha⟩ = k.val := congrFun (k1_off2_eq k) ⟨0, ha⟩
    show (k1_off2 k) ⟨0, ha⟩ + 1 * (y ⟨0, ha⟩).val = k.val
    rw [e]
    omega
  | ⟨1, ha⟩ =>
    have e : k1_off2 k ⟨1, ha⟩ = 0 := congrFun (k1_off2_eq k) ⟨1, ha⟩
    show (k1_off2 k) ⟨1, ha⟩ + 1 * (y ⟨1, ha⟩).val = (y ⟨1, ha⟩).val
    rw [e]
    omega

/-- One trip's yield, read off the trip's run: the two sums updated by the anchor's label and row. -/
theorem tripR_eq (𝒱 : Variants) (c : Dev nD) (bd : Option 𝒱.V) (i : grid1.Coords)
    (arg2 : Memref sig .tc .smem S384 .i32) (harg2 : arg2.IsWhole) (arg3 : Memref sig .tc .vmem S64x384 .f32) (harg3 : arg3.IsWhole)
    (arg4 : Memref sig .tc .vmem S1x384 .i32) (harg4 : arg4.IsWhole) (arg5 : Memref sig .tc .vmem S8x128 .f32) (harg5 : arg5.IsWhole)
    (v4 : Vec F S1x384 .i32) (tb : Vec F S384 .i32) (x0 : Vec F S64x384 .f32)
    (k : Fin k1_t1_loop.trips) (acc : FVec F S1x1 .f32 × FVec F S1x1 .f32) :
    tripR_k1_t1 𝒱 c bd i arg2 harg2 arg3 harg3 arg4 harg4 arg5 harg5 v4 (harg2.unread tb) (harg3.unread x0) k acc
      = (k1_pay9 i v4 k acc.1 (wordAt i tb k) (rowAt x0 k), k1_pay10 i v4 k acc.2 (wordAt i tb k) (rowAt x0 k)) := by
  unfold tripR_k1_t1 trip_k1_t1
  dsimp only
  sl_unfold_run_names
  rw [word_eq, row_eq]

/-- The loop's invariant: the carried pair before trip `n` is `accAt n`. -/
theorem st_eq (𝒱 : Variants) (c : Dev nD) (bd : Option 𝒱.V) (i : grid1.Coords)
    (arg2 : Memref sig .tc .smem S384 .i32) (harg2 : arg2.IsWhole) (arg3 : Memref sig .tc .vmem S64x384 .f32) (harg3 : arg3.IsWhole)
    (arg4 : Memref sig .tc .vmem S1x384 .i32) (harg4 : arg4.IsWhole) (arg5 : Memref sig .tc .vmem S8x128 .f32) (harg5 : arg5.IsWhole)
    (tb : Vec F S384 .i32) (x0 : Vec F S64x384 .f32) (x1 : Vec F S1x384 .i32) :
    ∀ n : ℕ, st_k1_t1 𝒱 c bd i arg2 harg2 arg3 harg3 arg4 harg4 arg5 harg5 x1 (harg2.unread tb) (harg3.unread x0)
        (k1_pay5, k1_pay6) n = accAt i tb x0 x1 n
  | 0 => rfl
  | n + 1 => by
    rw [st_k1_t1.eq_2, accAt]
    unfold st_k1_t1Step
    by_cases h : n < k1_t1_loop.trips
    · rw [dif_pos h, dif_pos h, tripR_eq, st_eq 𝒱 c bd i arg2 harg2 arg3 harg3 arg4 harg4 arg5 harg5 tb x0 x1 n]
    · rw [dif_neg h, dif_neg h, st_eq 𝒱 c bd i arg2 harg2 arg3 harg3 arg4 harg4 arg5 harg5 tb x0 x1 n]

/-- The zero offsets of a rank-two rectangle, as the constant function. -/
theorem off00 : (![0, 0] : Fin 2 → ℕ) = fun _ => 0 := by
  funext a; match a with | ⟨0, _⟩ => rfl | ⟨1, _⟩ => rfl

/-- A store over the whole of the 8×128 buffer, made last, is what the buffer then reads, whatever was stored before. -/
theorem read_whole_store {κ : Kind} {sp : Space} (v : View sig κ sp S8x128 .f32) (f : v.ty.Contents (Elt F))
    (w : S8x128.Idx → Elt F .f32) (L : List (View.Piece (Elt F) S8x128 .f32)) :
    v.read (Elt F) (v.writes (Elt F) f
        ((⟨Rect.unit (s := S8x128) ![0, 0] S8x128.size inb_S8x128_S8x128_0_0, w⟩ : View.Piece (Elt F) S8x128 .f32) :: L)) = w := by
  rw [View.read_writes_eq_canon v f _ (fun y =>
    ⟨(⟨Rect.unit (s := S8x128) ![0, 0] S8x128.size inb_S8x128_S8x128_0_0, w⟩ : View.Piece (Elt F) S8x128 .f32),
      List.mem_cons_self, View.mem_set_unit_zero (S := S8x128) off00 inb_S8x128_S8x128_0_0 y⟩)]
  exact View.canon_cons_unit_zero (S := S8x128) off00 inb_S8x128_S8x128_0_0 w L

/-- A load of the whole labels row reads the row. -/
theorem load_row (arg4 : Memref sig .tc .vmem S1x384 .i32) (harg4 : arg4.IsWhole) (x1 : Vec F S1x384 .i32) :
    View.readAt (Elt F) arg4.view (Rect.unit (s := S1x384) ![0, 0] S1x384.size inb_S1x384_S1x384_0_0).toLoadRect
      (harg4.unread x1) = x1 := by
  rw [View.readAt_eq_ld, harg4.read_unread]
  exact View.ld_unit_zero (S := S1x384) off00 inb_S1x384_S1x384_0_0 x1

/-- A load of the whole output buffer reads its contents. -/
theorem load_out (arg5 : Memref sig .tc .vmem S8x128 .f32) (harg5 : arg5.IsWhole) (d : Vec F S8x128 .f32) :
    View.readAt (Elt F) arg5.view (Rect.unit (s := S8x128) ![0, 0] S8x128.size inb_S8x128_S8x128_0_0).toLoadRect
      (harg5.unread d) = d := by
  rw [View.readAt_eq_ld, harg5.read_unread]
  exact View.ld_unit_zero (S := S8x128) off00 inb_S8x128_S8x128_0_0 d

/-- A load of the whole output buffer after one store over the whole of it reads what was stored. -/
theorem load_after_store {κ : Kind} {sp : Space} (v : View sig κ sp S8x128 .f32) (w : S8x128.Idx → Elt F .f32) :
    v.readCov [(⟨Rect.unit (s := S8x128) ![0, 0] S8x128.size inb_S8x128_S8x128_0_0, w⟩ : View.Piece (Elt F) S8x128 .f32)]
      (Rect.unit (s := S8x128) ![0, 0] S8x128.size inb_S8x128_S8x128_0_0).toLoadRect = w :=
  View.readCov_unit_zero (S := S8x128) v off00 inb_S8x128_S8x128_0_0 w

/-- What the last store leaves, from the loop's result: the buffer's final contents. -/
theorem out_eq (c : Dev nD) (i : grid1.Coords)
    (arg2 : Memref sig .tc .smem S384 .i32) (harg2 : arg2.IsWhole) (arg3 : Memref sig .tc .vmem S64x384 .f32) (harg3 : arg3.IsWhole)
    (arg4 : Memref sig .tc .vmem S1x384 .i32) (harg4 : arg4.IsWhole) (arg5 : Memref sig .tc .vmem S8x128 .f32) (harg5 : arg5.IsWhole)
    (tb : Vec F S384 .i32) (x0 : Vec F S64x384 .f32) (x1 : Vec F S1x384 .i32) (d : Vec F S8x128 .f32)
    (v4 : Vec F S1x384 .i32) (hv4 : v4 = x1) (v22 : Vec F S8x128 .f32)
    (hv22 : v22 = if (i 1).val = 0 then k1_pay1 else d) :
    k1_pay11
        (st_k1_t1 Variants.none c none i arg2 harg2 arg3 harg3 arg4 harg4 arg5 harg5 v4 (harg2.unread tb) (harg3.unread x0)
          (k1_pay5, k1_pay6) (Scf.trips k1_t1_loop.lb k1_t1_loop.ub k1_t1_loop.st)).1
        (st_k1_t1 Variants.none c none i arg2 harg2 arg3 harg3 arg4 harg4 arg5 harg5 v4 (harg2.unread tb) (harg3.unread x0)
          (k1_pay5, k1_pay6) (Scf.trips k1_t1_loop.lb k1_t1_loop.ub k1_t1_loop.st)).2
        v22 = out1_2 i tb x0 x1 d := by
  subst hv4 hv22
  rw [st_eq]
  rfl

set_option maxHeartbeats 2000000 in
/-- The body's triple. -/
theorem sound_kernel1 (c : Dev nD) (E : Set ℕ) (i : grid1.Coords)
    (arg2 : Memref sig .tc .smem S384 .i32) (harg2 : arg2.IsWhole) (arg3 : Memref sig .tc .vmem S64x384 .f32) (harg3 : arg3.IsWhole)
    (arg4 : Memref sig .tc .vmem S1x384 .i32) (harg4 : arg4.IsWhole) (arg5 : Memref sig .tc .vmem S8x128 .f32) (harg5 : arg5.IsWhole)
    (tb : Vec F S384 .i32) (x0 : Vec F S64x384 .f32) (x1 : Vec F S1x384 .i32) (d : Vec F S8x128 .f32) (K : PUnit → sProp 𝕄) :
    iprop(owns (c : Thread nD τ) arg2 fullShare tb ∗ owns (c : Thread nD τ) arg3 fullShare x0
        ∗ owns (c : Thread nD τ) arg4 fullShare x1 ∗ owns (c : Thread nD τ) arg5 fullShare d
        ∗ (iprop(owns (c : Thread nD τ) arg2 fullShare tb ∗ owns (c : Thread nD τ) arg3 fullShare x0
            ∗ owns (c : Thread nD τ) arg4 fullShare x1 ∗ owns (c : Thread nD τ) arg5 fullShare (out1_2 i tb x0 x1 d)) -∗ K ⟨⟩))
      ⊢ wp frame (wpE (defs₀ (F := F)) Variants.none c none) E (cc1__triplet_kernel i arg2 harg2 arg3 harg3 arg4 harg4 arg5 harg5) K := by
  simp only [cc1__triplet_kernel_eq_skeleton]; unfold cc1__triplet_kernel_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3
  obtain rfl := harg4.eq_unread hf4; obtain rfl := harg5.eq_unread hf5
  by_cases h : (i 1).val = 0
  · have hc : (Scalar.cmpi .ne (Scalar.extui (Scalar.cmpi .eq (BitVec.ofNat 32 (i 1).val) 0#32)) 0#32 = 1#1) :=
      (cond_iff (i 1).val (i 1).isLt).mpr h
    sl_exec (disch := first | exact hc)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    iexists _; isplitr
    rotate_left
    · iexact H5
    · ipureintro
      first | rw [read_whole_store] | fail "first point: the last store"
      first
        | refine out_eq c i arg2 harg2 arg3 harg3 arg4 harg4 arg5 harg5 tb x0 x1 d _ (load_row arg4 harg4 x1) _ ?_
        | fail "first point: the final contents"
      rw [if_pos h]
      sl_unfold_run_names
      first | exact load_after_store arg5.view k1_pay1 | (trace_state; fail "first point: the load after the reset")
  · have hc : ¬ (Scalar.cmpi .ne (Scalar.extui (Scalar.cmpi .eq (BitVec.ofNat 32 (i 1).val) 0#32)) 0#32 = 1#1) :=
      fun hh => h ((cond_iff (i 1).val (i 1).isLt).mp hh)
    sl_exec (disch := first | exact hc)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    iexists _; isplitr
    rotate_left
    · iexact H5
    · ipureintro
      first | rw [read_whole_store] | fail "later point: the last store"
      first
        | refine out_eq c i arg2 harg2 arg3 harg3 arg4 harg4 arg5 harg5 tb x0 x1 d _ (load_row arg4 harg4 x1) _ ?_
        | fail "later point: the final contents"
      rw [if_neg h]
      first | exact load_out arg5 harg5 d | (trace_state; fail "later point: the load")

end Cert.KernelIdeal.Hand

end
-- ==== Proof.Dat1.lean ====
/-
  The second kernel call as a pipeline over its six grid points (two runs of three), at the contents `V` the
  core's buffers hold when the call is entered and the labels table's contents `a1`: the input windows' blocks, the
  output window's staging buffer after each point by recursion over the points (each point adds its tile's sums
  to what the point before left, the first point of a run starting from zeros), the proof data, what each staging
  buffer holds when the body runs, and the body obligation.
-/
import proofs.«410585_j13030930776533_3_alg».proof.Proof.Region1Body
import proofs.«410585_j13030930776533_3_alg».proof.Proof.Gen.KernelIdeal.Launch
import proofs.«410585_j13030930776533_3_alg».proof.Proof.Gen.KernelIdeal.Points
import Idealize.ShloMosaic.Lib.Pipeline.FrameBody
import Idealize.ShloMosaic.Lib.Pipeline.Frame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (a1 : (pcfg1 (F := F)).Adm)

/-- A window's block at a point, read off its array as the call finds it. -/
def iblk1 (c : Dev nD) (w : Fin (cfg1 a1).W) (t : Fin (cfg1 a1).N) :
    (((cfg1 a1).win w).xblock ((cfg1 a1).grid.coords t)).Idx → Elt F ((cfg1 a1).win w).elt :=
  (((cfg1 a1).win w).blk t).view.read (Elt F) (V c (Pipeline.arrRef spec1 w))

/-- The labels table's contents. -/
abbrev tbl1 : Vec F S384 .i32 := a1.1 0

/-- At the first point of a run the body's result does not depend on what the buffer held. -/
theorem out1_2_reset {i : grid1.Coords} {tb : Vec F S384 .i32} {x0 : Vec F S64x384 .f32} {x1 : Vec F S1x384 .i32}
    {d d' : Vec F S8x128 .f32} (h : (i 1).val = 0) : out1_2 i tb x0 x1 d = out1_2 i tb x0 x1 d' := by
  unfold out1_2; rw [if_pos h, if_pos h]

/-- The output window's staging buffer after point `n`. -/
def outsAt1 (c : Dev nD) : (n : ℕ) → n < (cfg1 a1).N → Vec F S8x128 .f32
  | 0, h => out1_2 ((cfg1 a1).grid.coords ⟨0, h⟩) (tbl1 a1) (iblk1 V a1 c 0 ⟨0, h⟩) (iblk1 V a1 c 1 ⟨0, h⟩) k1_pay1
  | n + 1, h => out1_2 ((cfg1 a1).grid.coords ⟨n + 1, h⟩) (tbl1 a1) (iblk1 V a1 c 0 ⟨n + 1, h⟩) (iblk1 V a1 c 1 ⟨n + 1, h⟩)
      (outsAt1 c n (Nat.lt_of_succ_lt h))

/-- The proof data of the second pipeline on core `c`: the invariant is the untouched rest and the labels table, held whole. -/
def dat1 (c : Dev nD) : Dat τ (Elt F) Unit ℕ (UR sig nD τ) ℕ (cfg1 a1) c where
  A w := V c (Pipeline.arrRef spec1 w)
  after w t := match w with
    | ⟨0, _⟩ => iblk1 V a1 c 0 t
    | ⟨1, _⟩ => iblk1 V a1 c 1 t
    | ⟨2, _⟩ => outsAt1 V a1 c t.val t.isLt
  Φ _ := iprop(Pipeline.ΦA spec1 c ∗ Pipeline.prefHeld (Ix := Unit) (Name := ℕ) (U := UR sig nD τ) (Lvl := ℕ) pre1 c (fun _ => fullShare) a1.1)
  q _ := fullShare
  owed _ := 0

theorem A_eq1 (c : Dev nD) (w : Fin (cfg1 a1).W) : (dat1 V a1 c).A w = V c (Pipeline.arrRef spec1 w) := by
  dsimp only [dat1]
theorem after1_0 (c : Dev nD) (t : Fin (cfg1 a1).N) : (dat1 V a1 c).after 0 t = iblk1 V a1 c 0 t := by dsimp only [dat1]; rfl
theorem after1_1 (c : Dev nD) (t : Fin (cfg1 a1).N) : (dat1 V a1 c).after 1 t = iblk1 V a1 c 1 t := by dsimp only [dat1]; rfl
theorem after1_2 (c : Dev nD) (t : Fin (cfg1 a1).N) : (dat1 V a1 c).after 2 t = outsAt1 V a1 c t.val t.isLt := by dsimp only [dat1]; rfl

/-- Each input's staging buffer holds its block when the body runs, fetched at the point or not. -/
theorem before1_0 (c : Dev nD) (t : Fin (cfg1 a1).N) (d) : (dat1 V a1 c).before 0 t d = iblk1 V a1 c 0 t :=
  ((dat1 V a1 c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin (cfg1 a1).N) (d) : (dat1 V a1 c).before 1 t d = iblk1 V a1 c 1 t :=
  ((dat1 V a1 c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

/-! ## The output window: written back after the last point of each run -/

/-- The grid at any contents of the table is the compiled grid. -/
theorem coords1_eq (t : Fin (cfg1 a1).N) : (cfg1 a1).grid.coords t = grid1.coords t := rfl
/-- The grid's points by number: the step within a run is the point's number modulo three. -/
theorem step_closed : ∀ t : Fin grid1.N, ((grid1.coords t) 1).val = t.val % 3 := by decide +kernel
theorem coords1_step (t : Fin (cfg1 a1).N) : (((cfg1 a1).grid.coords t) 1).val = t.val % 3 := step_closed t

/-- The output window's block index is the run: it moves between points 2 and 3 only. -/
theorem isOut1_2 : ((cfg1 a1).win 2).isOut = true := rfl
theorem flush_closed : ∀ t : Fin grid1.N, (true && (decide (t.val + 1 = grid1.N) || decide (∃ h : t.val + 1 < grid1.N, cc1_transform_2 (grid1.coords ⟨t.val + 1, h⟩) ≠ cc1_transform_2 (grid1.coords t)))) = decide (t.val = 2 ∨ t.val = 5) := by decide +kernel
/-- The output block is written back exactly after points 2 and 5. -/
theorem flush1_2 (t : Fin (cfg1 a1).N) : ((cfg1 a1).win 2).flush t = decide (t.val = 2 ∨ t.val = 5) := by
  unfold Pipeline.Window.flush
  rw [isOut1_2]
  exact flush_closed t

/-- When the body runs, the output's staging buffer holds anything at the first point of a run, and what the point
    before left at the others. -/
theorem before1_2_reset (c : Dev nD) (t : Fin (cfg1 a1).N) (h : t.val % 3 = 0) (d) : (dat1 V a1 c).before 2 t d = d := by
  refine (dat1 V a1 c).before_out_reset 2 rfl t ?_ d
  by_cases h0 : t.val = 0
  · exact .inl h0
  · refine .inr ⟨h0, ?_⟩
    rw [flush1_2]
    have := t.isLt
    have hN : (cfg1 a1).N = 6 := N_1
    simp only [decide_eq_true_eq]
    omega
theorem before1_2_kept (c : Dev nD) (t : Fin (cfg1 a1).N) (h : t.val % 3 ≠ 0) (d) :
    (dat1 V a1 c).before 2 t d = outsAt1 V a1 c (t.val - 1) (Nat.lt_of_le_of_lt (Nat.sub_le _ _) t.isLt) := by
  have h0 : t.val ≠ 0 := fun e => h (by rw [e])
  rw [(dat1 V a1 c).before_out_kept 2 rfl t h0 (by
      rw [flush1_2]
      have := t.isLt
      have hN : (cfg1 a1).N = 6 := N_1
      simp only [decide_eq_false_iff_not]
      omega) (fun _ => rfl) (fun _ _ => rfl) d, after1_2]

/-- What the body leaves in the output buffer at point `t` is its result on what it found there. -/
theorem after1_2_eq (c : Dev nD) (t : Fin (cfg1 a1).N) (d) :
    (dat1 V a1 c).after 2 t = out1_2 ((cfg1 a1).grid.coords t) (tbl1 a1) (iblk1 V a1 c 0 t) (iblk1 V a1 c 1 t) ((dat1 V a1 c).before 2 t d) := by
  rw [after1_2]
  by_cases h : t.val % 3 = 0
  · have hc : (((cfg1 a1).grid.coords t) 1).val = 0 := (coords1_step a1 t).trans h
    obtain ⟨n, hn⟩ := t
    cases n with
    | zero => rw [outsAt1]; exact out1_2_reset hc
    | succ n => rw [outsAt1]; exact out1_2_reset hc
  · rw [before1_2_kept V a1 c t h d]
    obtain ⟨n, hn⟩ := t
    cases n with
    | zero => exact absurd rfl h
    | succ n => rw [outsAt1]; rfl

/-! ## The body obligation -/

/-- The labels table as the pipeline holds it: one buffer. -/
theorem prefHeld_eq1 (c : Dev nD) (q : Fin 1 → PosShare TreeShare) (v : pre1.Contents (Elt F)) :
    (Pipeline.prefHeld (Ix := Unit) (Name := ℕ) (U := UR sig nD τ) (Lvl := ℕ) pre1 c q v : sProp 𝕄)
      = owns (c : Thread nD τ) (Memref.whole main_arg1) (q 0) (v 0) := by
  unfold Pipeline.prefHeld
  rw [show (Finset.univ : Finset (Fin 1)) = {(0 : Fin 1)} from by decide, bigSep_singleton]
  exact (owns_whole (c : Thread nD τ) main_arg1 (q 0) (v 0)).symm

/-- The current staging memref of each window at point `t`, and the body as the pipeline calls it there. -/
abbrev st1_0 (t : Fin (cfg1 a1).N) := ((cfg1 a1).win 0).stage ((cfg1 a1).slots t 0)
abbrev st1_1 (t : Fin (cfg1 a1).N) := ((cfg1 a1).win 1).stage ((cfg1 a1).slots t 1)
abbrev st1_2 (t : Fin (cfg1 a1).N) := ((cfg1 a1).win 2).stage ((cfg1 a1).slots t 2)
abbrev bodyAt1 (t : Fin (cfg1 a1).N) : Prog (TpuEff nD τ sig (Elt F) Λ₀ .tc) PUnit :=
  cc1__triplet_kernel ((cfg1 a1).grid.coords t) (Memref.whole main_arg1) (Memref.isWhole_whole _)
    (spec1_0.stage ((cfg1 a1).slots t 0)) (hstage1_0 (((cfg1 a1).slots t 0).cast nbuf1_0))
    (spec1_1.stage ((cfg1 a1).slots t 1)) (hstage1_1 (((cfg1 a1).slots t 1).cast nbuf1_1))
    (spec1_2.stage ((cfg1 a1).slots t 2)) (hstage1_2 (((cfg1 a1).slots t 2).cast nbuf1_2))

set_option maxHeartbeats 1000000 in
/-- The body at any point: the table is in the invariant, the inputs' buffers hold their blocks, the output's what
    the point before left (or anything at the first point of a run), so the body's triple applies. -/
theorem sound_body1 (c : Dev nD) (t : Fin (cfg1 a1).N) :
    iprop((dat1 V a1 c).Φ t.castSucc ∗ (dat1 V a1 c).owesAt () t.castSucc
        ∗ (∃ d, owns (c : Thread nD τ) (st1_0 a1 t) fullShare ((dat1 V a1 c).before 0 t d))
        ∗ (∃ d, owns (c : Thread nD τ) (st1_1 a1 t) fullShare ((dat1 V a1 c).before 1 t d))
        ∗ (∃ d, owns (c : Thread nD τ) (st1_2 a1 t) fullShare ((dat1 V a1 c).before 2 t d)))
      ⊢ wp frame (wpE (defs₀ (F := F)) Variants.none c none) Set.univ (bodyAt1 a1 t) (fun _ =>
        iprop((dat1 V a1 c).Φ t.succ ∗ (dat1 V a1 c).owesAt () t.succ
          ∗ owns (c : Thread nD τ) (st1_0 a1 t) fullShare ((dat1 V a1 c).after 0 t)
          ∗ owns (c : Thread nD τ) (st1_1 a1 t) fullShare ((dat1 V a1 c).after 1 t)
          ∗ owns (c : Thread nD τ) (st1_2 a1 t) fullShare ((dat1 V a1 c).after 2 t))) := by
  simp only [before1_0, before1_1]
  rw [show (dat1 V a1 c).Φ t.succ = (dat1 V a1 c).Φ t.castSucc from rfl,
    show (dat1 V a1 c).owesAt () t.succ = (dat1 V a1 c).owesAt () t.castSucc from rfl,
    after1_0, after1_1,
    show (dat1 V a1 c).Φ t.castSucc = iprop(Pipeline.ΦA spec1 c ∗ Pipeline.prefHeld (Ix := Unit) (Name := ℕ) (U := UR sig nD τ) (Lvl := ℕ) pre1 c (fun _ => fullShare) a1.1) from rfl,
    prefHeld_eq1]
  iintro ⟨⟨HA, HT⟩, Ho, ⟨%d0, H0⟩, ⟨%d1, H1⟩, ⟨%d2, H2⟩⟩
  rw [after1_2_eq V a1 c t d2]
  iapply (sound_kernel1 c Set.univ _ _ _ _ _ _ _ _ _ (tbl1 a1) (iblk1 V a1 c 0 t) (iblk1 V a1 c 1 t) ((dat1 V a1 c).before 2 t d2) _)
  isplitl [HT]; · iexact HT
  isplitl [H0]; · iexact H0
  isplitl [H1]; · iexact H1
  isplitl [H2]; · iexact H2
  iintro ⟨HT, H0, H1, H2⟩
  isplitl [HA HT]
  · isplitl [HA]; · iexact HA
    iexact HT
  isplitl [Ho]; · iexact Ho
  isplitl [H0]; · iexact H0
  isplitl [H1]; · iexact H1
  iexact H2

/-- The library's body obligation, at every point. -/
theorem body_obligation1 (c : Dev nD) : BodyObligation (dat1 (F := F) V a1 c) (defs₀ (F := F)) Variants.none () Set.univ := fun t => by
  rw [bigSep_W1, bigSep_W1]
  exact sound_body1 V a1 c t

end Cert.KernelIdeal.Hand

end
-- ==== Proof.Run.lean ====
/-
  The whole program's run: @main as four segments — the one host operation before the calls, the two kernel calls,
  the host operations after them — over the thread state "every unscoped buffer of the core at the boundary's
  contents". The contents at each boundary are a fold from the launch memory: a host stretch's operations applied,
  a call's arrays at what its write-backs leave and every other buffer as the call found it. The second call
  is entered with the labels table at its launch contents, which its invariant holds through the grid and hands
  back. Every weakly fair execution terminates, and the final memory holds every unscoped buffer at the last
  boundary's contents.
-/
import proofs.«410585_j13030930776533_3_alg».proof.Proof.Dat0
import proofs.«410585_j13030930776533_3_alg».proof.Proof.Dat1
import proofs.«410585_j13030930776533_3_alg».proof.Proof.Gen.KernelIdeal.Launch
import proofs.«410585_j13030930776533_3_alg».proof.Proof.Gen.KernelIdeal.Regions
import Idealize.ShloMosaic.Lib.Pipeline.FrameBody
import Idealize.ShloMosaic.Lib.Pipeline.RegionsLoop
import Idealize.ShloMosaic.Lib.Pipeline.FrameSuffix

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => m (c, b)
/-- After the host operation before the calls (the first call's entry). -/
abbrev W1 : Dev nD → Valuation τ sig (Elt F) := fun c => StableHlo.after hostOps0 (W0 m c)
/-- The same read at the core's references. -/
abbrev Vin0 : (c : Dev nD) → (b : Ref sig .tc) → Buf (Elt F) ((c : Thread nD τ).loc b) := fun c b => W1 m c b
/-- After the first call: its arrays at what the pipeline leaves, every other buffer as entered. -/
def W2 (c : Dev nD) : Valuation τ sig (Elt F) :=
  Pipeline.withArrays spec0 c (W1 m c) fun w => (dat0 (Vin0 m) c).arrAt w cfg0.N
theorem W2_arr (c : Dev nD) (w : Fin cfg0.W) :
    W2 m c (Proc.devRef .tc (Pipeline.arrRef spec0 w)) = (dat0 (Vin0 m) c).arrAt w cfg0.N := by
  unfold W2; exact Pipeline.withArrays_arr spec0 (launch0 (F := F)).win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the core's references (the second call's entry). -/
abbrev Vin1 : (c : Dev nD) → (b : Ref sig .tc) → Buf (Elt F) ((c : Thread nD τ).loc b) := fun c b => W2 m c b
theorem hF0 (c : Dev nD) (w : Fin cfg0.W) : (dat0 (Vin0 m) c).arrAt w cfg0.N = Vin1 m c (Pipeline.arrRef spec0 w) :=
  (W2_arr m c w).symm
theorem hrest0 (c : Dev nD) : ∀ b, b ∉ Finset.univ.image (Pipeline.arrRef spec0) → Vin1 m c b = Vin0 m c b :=
  fun b hb => W2_of_ne m c b fun w e => hb (Finset.mem_image.mpr ⟨w, Finset.mem_univ _, e⟩)

/-- The labels table's contents when the second call is entered (one device: core 0's). -/
def adm1 : (pcfg1 (F := F)).Adm := ⟨fun k => Vin1 m (0 : Dev nD) (pre1.ref k), trivial⟩

/-- After the second call. -/
def W3 (c : Dev nD) : Valuation τ sig (Elt F) :=
  Pipeline.withArrays spec1 c (W2 m c) fun w => (dat1 (Vin1 m) (adm1 m) c).arrAt w (cfg1 (F := F) (adm1 m)).N
theorem W3_arr (c : Dev nD) (w : Fin (cfg1 (F := F) (adm1 m)).W) :
    W3 m c (Proc.devRef .tc (Pipeline.arrRef spec1 w)) = (dat1 (Vin1 m) (adm1 m) c).arrAt w (cfg1 (F := F) (adm1 m)).N := by
  unfold W3; exact Pipeline.withArrays_arr spec1 (launch1 (F := F)).win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev Vout1 : (c : Dev nD) → (b : Ref sig .tc) → Buf (Elt F) ((c : Thread nD τ).loc b) := fun c b => W3 m c b
theorem hF1 (c : Dev nD) (w : Fin (cfg1 (F := F) (adm1 m)).W) :
    (dat1 (Vin1 m) (adm1 m) c).arrAt w (cfg1 (F := F) (adm1 m)).N = Vout1 m c (Pipeline.arrRef spec1 w) :=
  (W3_arr m c w).symm
theorem hrest1 (c : Dev nD) : ∀ b, b ∉ Finset.univ.image (Pipeline.arrRef spec1) → Vout1 m c b = Vin1 m c b :=
  fun b hb => W3_of_ne m c b fun w e => hb (Finset.mem_image.mpr ⟨w, Finset.mem_univ _, e⟩)
/-- After the host operations after the calls: the end. -/
abbrev W4 : Dev nD → Valuation τ sig (Elt F) := fun c => StableHlo.after hostOps2 (W3 m c)

/-! ## The proof data family and the thread state -/

/-- The tables' admissible contents: the first call has none. -/
abbrev adm : (p : Fin 2) → (pcfgs (F := F) p).Adm
  | ⟨0, _⟩ => cfg0.toPCfg_adm
  | ⟨1, _⟩ => adm1 m
/-- Every pipeline's proof data, each at its call's entry contents. -/
def pdats : (p : Fin 2) → (c : Dev nD) → Dat τ (Elt F) Unit ℕ (UR sig nD τ) ℕ (Pipeline.pin (pcfgs (F := F)) (adm m) p) c
  | ⟨0, _⟩ => fun c => dat0 (Vin0 m) c
  | ⟨1, _⟩ => fun c => dat1 (Vin1 m) (adm1 m) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) (defs₀ (F := F)) 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m c) ∗ ∃ r, prngReg c r)

/-! ## The calls as segments -/

set_option backward.isDefEq.respectTransparency.types false in
/-- The first call: entered from every unscoped buffer at `W1`, left at `W2`. -/
def reg0 : Pipeline.RegionSeg (pcfgs (F := F)) (adm m) (pdats m) () (defs₀ (F := F)) 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (Vin0 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit := Pipeline.arrays_of_unscopedBufs (p := 0) (pcfgs (F := F)) (adm m) (pdats m) (launch0 (F := F)).win (launch0 (F := F)).arr_whole c
      ((pdats m 0 c).share_full fun _ => rfl) (Vin0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) (adm m) (Ix := Unit) (Name := ℕ) (U := UR sig nD τ) (Lvl := ℕ)
      (launch0 (F := F)).win (launch0 (F := F)).arr_whole c (pdats m) ((pdats m 0 c).share_full fun _ => rfl)
      (Vin0 m c) (Vin1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- One device: every core is core 0. -/
theorem core_eq (c : Dev nD) : c = (0 : Dev nD) := Subsingleton.elim _ _

set_option backward.isDefEq.respectTransparency.types false in
/-- The second call: entered from every unscoped buffer at `W2`, left at `W3`. At entry the labels table is split out
    of the buffers that are no array of the call, at its contents there; the invariant holds it and hands it back. -/
def reg1 : Pipeline.RegionSeg (pcfgs (F := F)) (adm m) (pdats m) () (defs₀ (F := F)) 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (body_obligation1 (Vin1 m) (adm1 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop((∃ r, prngReg c r) ∗ Pipeline.prefHeld (Ix := Unit) (Name := ℕ) (U := UR sig nD τ) (Lvl := ℕ) pre1 c (fun _ => fullShare) (adm1 m).1)
  Z c := Pipeline.unscopedRestP (Ix := Unit) (Name := ℕ) (U := UR sig nD τ) (Lvl := ℕ) pre1 spec1 c (Vin1 m c)
  hentry c := by
    obtain rfl := core_eq c
    rw [Pipeline.ownSems0_none]
    have hsplit := Pipeline.arrays_of_unscopedBufs (p := 1) (pcfgs (F := F)) (adm m) (pdats m) (launch1 (F := F)).win (launch1 (F := F)).arr_whole 0
      ((pdats m 1 0).share_full fun _ => rfl) (Vin1 m 0) fun _ => rfl
    rw [Pipeline.unscopedBufs_held, show Pipeline.unscopedRest (Ix := Unit) (Name := ℕ) (U := UR sig nD τ) (Lvl := ℕ) (Pipeline.pin (pcfgs (F := F)) (adm m) 1).spec 0 (Vin1 m 0)
        = iprop(Pipeline.prefHeld pre1 0 (fun _ => fullShare) (fun k => Vin1 m 0 (pre1.ref k)) ∗ Pipeline.unscopedRestP pre1 spec1 0 (Vin1 m 0))
        from Pipeline.unscopedRest_split preFacts1 0 (Vin1 m 0)] at hsplit
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = iprop(Pipeline.ΦA spec1 c ∗ Pipeline.prefHeld (Ix := Unit) (Name := ℕ) (U := UR sig nD τ) (Lvl := ℕ) pre1 c (fun _ => fullShare) (adm1 m).1) from rfl]
    unfold Pipeline.ΦA
    iintro ⟨Hp, Hpf, Hr⟩
    isplitl [Hr Hp]
    · isplitl [Hr]; · iexact Hr
      iexact Hp
    iexact Hpf
  hout c := by
    rw [Pipeline.ownSems0_none, show (pdats m 1 c).Φ (Fin.last _) = iprop(Pipeline.ΦA spec1 c ∗ Pipeline.prefHeld (Ix := Unit) (Name := ℕ) (U := UR sig nD τ) (Lvl := ℕ) pre1 c (fun _ => fullShare) (adm1 m).1) from rfl]
    unfold Pipeline.ΦA
    iintro ⟨⟨Hr, Hp⟩, Hpf⟩
    isplitl [Hp Hpf]
    · isplitl [Hp]; · iexact Hp
      iexact Hpf
    isplitr; · iempintro
    iexact Hr
  hexit c := by
    obtain rfl := core_eq c
    have hjoin := Pipeline.unscopedBufs_of_arrays (p := 1) (pcfgs (F := F)) (adm m) (Ix := Unit) (Name := ℕ) (U := UR sig nD τ) (Lvl := ℕ)
      (launch1 (F := F)).win (launch1 (F := F)).arr_whole 0 (pdats m) ((pdats m 1 0).share_full fun _ => rfl)
      (Vin1 m 0) (Vout1 m 0) ((pdats m 1 0).arrAt · (cfg1 (F := F) (adm1 m)).N) (hF1 m 0) (hrest1 m 0)
    rw [Pipeline.unscopedBufs_held, show Pipeline.unscopedRest (Ix := Unit) (Name := ℕ) (U := UR sig nD τ) (Lvl := ℕ) (Pipeline.pin (pcfgs (F := F)) (adm m) 1).spec 0 (Vin1 m 0)
        = iprop(Pipeline.prefHeld pre1 0 (fun _ => fullShare) (fun k => Vin1 m 0 (pre1.ref k)) ∗ Pipeline.unscopedRestP pre1 spec1 0 (Vin1 m 0))
        from Pipeline.unscopedRest_split preFacts1 0 (Vin1 m 0)] at hjoin
    iintro ⟨Ha, HO, ⟨HY, Hpf⟩, Hrest⟩
    imodintro
    isplitl [Ha Hrest Hpf]
    · iapply hjoin
      isplitl [Ha]; · iexact Ha
      isplitl [Hpf]; · iexact Hpf
      iexact Hrest
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) (adm m) (pdats m) () (defs₀ (F := F)) 𝒱₀ L lv) :=
  [ .host (hseg hostOps0 hostOps0_sub hostOps0_fresh (W0 m)),
    .region (reg0 m),
    .region (reg1 m),
    .host (hseg hostOps2 hostOps2_sub hostOps2_fresh (W3 m)) ]
/-- @main is the run of the segments. -/
theorem main_run (c : Dev nD) : main (F := F) c = Pipeline.Seg.run (segs m) := (main_chain c).trans (by chain_rfl)

set_option backward.isDefEq.respectTransparency.types false in
/-- THE RUN: from any memory with zero counters every weakly fair execution of @main terminates, nothing faulting, and
    the final memory holds every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) (adm m) (pdats m) () (cellOf_inj (adm m)) emb₁ (defs₀ (F := F)) 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) (adm m)) (cellOf_inj (adm m))) (Pipeline.launchToks (Pipeline.pin (pcfgs (F := F)) (adm m)) (cellOf_inj (adm m))))
    (hu₀ := by
      iintro Hu; imodintro
      isplitl [Hu]
      · iapply (show (ownU (initOf (Pipeline.cells (Pipeline.pin (pcfgs (F := F)) (adm m)) (cellOf_inj (adm m))) (Pipeline.launchToks (Pipeline.pin (pcfgs (F := F)) (adm m)) (cellOf_inj (adm m)))) : sProp 𝕄)
            ⊢ BI.own (emb₁ (initOf (Pipeline.cells (Pipeline.pin (pcfgs (F := F)) (adm m)) (cellOf_inj (adm m))) (Pipeline.launchToks (Pipeline.pin (pcfgs (F := F)) (adm m)) (cellOf_inj (adm m))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show iprop(StableHlo.held (c : Thread nD τ) (Pipeline.ucRefs τ sig) (W4 m c) ∗ R c)
        ⊢ iprop(Tₙ m c ∗ ∃ W, owes (c : Thread nD τ) (0 : CellTallies nD τ sig Unit) W)
      iintro ⟨Hh, ⟨Hp, HO⟩⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- The frame: the two arguments end as launched (no host operation writes one, no call may change one). -/
theorem W4_main_arg0 (c : Dev nD) : W4 m c (Proc.devRef .tc main_arg0) = m ((c : Thread nD τ).loc main_arg0) :=
  (StableHlo.after_of_writes_sub hostOps2 _ hostOps2_writes (by decide : main_arg0 ∉ hostOps2_W)).trans <|
    (W3_of_ne m c main_arg0 (by decide)).trans <| ((W2_arr m c 0).trans (((dat0 (Vin0 m) c).arrAt_in 0 rfl _).trans (A_eq0 (Vin0 m) c 0))).trans <|
      (StableHlo.after_of_writes_sub hostOps0 _ hostOps0_writes (by decide : main_arg0 ∉ hostOps0_W))
theorem W4_main_arg1 (c : Dev nD) : W4 m c (Proc.devRef .tc main_arg1) = m ((c : Thread nD τ).loc main_arg1) :=
  (StableHlo.after_of_writes_sub hostOps2 _ hostOps2_writes (by decide : main_arg1 ∉ hostOps2_W)).trans <|
    (W3_of_ne m c main_arg1 (by decide)).trans <| (W2_of_ne m c main_arg1 (by decide)).trans <|
      (StableHlo.after_of_writes_sub hostOps0 _ hostOps0_writes (by decide : main_arg1 ∉ hostOps0_W))

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W4_main_arg0 m c), (h c _ (mem_uc main_arg1 (by decide))).trans (W4_main_arg1 m c)⟩) (run_all m ρ)

end Cert.KernelIdeal.Hand

end
-- ==== Proof.KRegion0.lean ====
/-
  The first kernel call (pairwise distances) on one grid point: what its body leaves in the output window's
  staging buffer, as one whole-block store of the body's arithmetic applied to the loaded input block, and the
  body's triple: from the input buffer at read contents and the output buffer at anything, the body runs to the
  end, faults nowhere, and leaves the input as it was and the output at that value.
-/
import proofs.«410585_j13030930776533_3_alg».proof.Proof.Gen.Kernel.Launch
import proofs.«410585_j13030930776533_3_alg».proof.Proof.Gen.Kernel.Skeleton
import proofs.«410585_j13030930776533_3_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- Both offsets of a whole-block rectangle of rank two are zero. -/
theorem offsets_zero2 : (![0, 0] : Fin 2 → ℕ) = fun _ => 0 := funext fun a => by fin_cases a <;> rfl

/-- The whole input block and the whole output block as rectangles. -/
abbrev rIn0 : Rect S384x128 := Rect.unit (s := S384x128) ![0, 0] S384x128.size inb_S384x128_S384x128_0_0
abbrev rOut0 : Rect S384x384 := Rect.unit (s := S384x384) ![0, 0] S384x384.size inb_S384x384_S384x384_0_0

/-- The output buffer after the body, from the input block: one store of the distance arithmetic over the whole block. -/
def out0_1 (x0 : Vec F S384x128 .f32) : Vec F S384x384 .f32 :=
  View.canon [⟨rOut0, k0_pay1 (View.ld x0 rIn0)⟩]

/-- The store covers the buffer. -/
theorem cover0_1 (p0 : Vec F S384x384 .f32) (y : S384x384.Idx) :
    ∃ pc ∈ ([⟨rOut0, p0⟩] : List (View.Piece (Elt F) S384x384 .f32)), y ∈ pc.1.set :=
  ⟨⟨rOut0, p0⟩, List.mem_singleton_self _,
    View.mem_set_unit_zero (S := S384x384) offsets_zero2 inb_S384x384_S384x384_0_0 y⟩

/-- The one store is of the whole block, and the load is of the whole input block: the buffer ends at the body's
    arithmetic of the input block. -/
theorem out0_1_eq (x0 : Vec F S384x128 .f32) : out0_1 x0 = k0_pay1 x0 := by
  unfold out0_1
  rw [View.canon_unit_zero (S := S384x384) offsets_zero2]
  simp only [View.ld_unit_zero (S := S384x128) offsets_zero2]

set_option maxHeartbeats 1000000 in
/-- The body's triple. -/
theorem sound_kernel0 (c : Dev nD) (E : Set ℕ) (i : grid0.Coords) (arg1 : Memref sig .tc .vmem S384x128 .f32) (harg1 : arg1.IsWhole)
    (arg2 : Memref sig .tc .vmem S384x384 .f32) (harg2 : arg2.IsWhole)
    (x0 : Vec F S384x128 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__cdist_kernel i arg1 harg1 arg2 harg2) K := by
  simp only [cc0__cdist_kernel_eq_skeleton]; unfold cc0__cdist_kernel_skel
  unfold owns
  -- the input buffer holds some contents reading as the block; the output buffer holds anything
  iintro ⟨⟨%fIn, %hfIn, HIn⟩, ⟨%dOut, %fOut, -, HOut⟩, Hk⟩
  subst hfIn
  -- the load of the input block, the unused load of the output block, the whole-block store, the return
  sl_exec
  sl_step
  iapply Hk
  isplitl [HIn]
  -- the input buffer is untouched
  · iexists fIn
    isplitr
    · ipureintro; rfl
    · iexact HIn
  -- the output buffer holds one covering write over its old contents, which reads as that write's payload:
  -- the arithmetic of the loaded block, the load being the read through the whole-block rectangle
  · iexists _
    isplitr
    rotate_left
    · iexact HOut
    · ipureintro
      rw [View.read_writes_eq_canon _ _ _ (cover0_1 _), View.readAt_eq_ld]
      rfl

end Cert.Kernel.Hand

end
-- ==== Proof.KDat0.lean ====
/-
  The first kernel call as a pipeline over its one grid point, at the contents `V` the core's buffers hold when
  the call is entered: the input window's block read off the embeddings' array, the proof data (after the body the
  input's staging buffer holds its block and the output's the distance arithmetic of that block; the invariant is
  the untouched rest), and the body obligation at the point.
-/
import proofs.«410585_j13030930776533_3_alg».proof.Proof.KRegion0
import proofs.«410585_j13030930776533_3_alg».proof.Proof.Gen.Kernel.Launch
import proofs.«410585_j13030930776533_3_alg».proof.Proof.Gen.Kernel.Points
import Idealize.ShloMosaic.Lib.Pipeline.FrameBody
import Idealize.ShloMosaic.Lib.Pipeline.Frame

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- A window's block at a point, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The proof data of the first pipeline on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

/-- The input's staging buffer holds its block when the body runs: it is fetched at the point. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- The body obligation of the first pipeline: at its point the body is the distance kernel on the two staging
    buffers, the input's at its block. -/
theorem body_obligation0 (c : Dev nD) : BodyObligation (dat0 (F := F) V c) (defs₀ (F := F)) Variants.none () Set.univ := fun t => by
  rw [bigSep_W0, bigSep_W0]
  show iprop((dat0 V c).Φ t.castSucc ∗ (dat0 V c).owesAt () t.castSucc
      ∗ (∃ d, owns (c : Thread nD τ) (st0_0 t) fullShare ((dat0 V c).before 0 t d))
      ∗ (∃ d, owns (c : Thread nD τ) (st0_1 t) fullShare ((dat0 V c).before 1 t d)))
    ⊢ wp frame (wpE (defs₀ (F := F)) Variants.none c none) Set.univ (bodyAt0 t) (fun _ =>
      iprop((dat0 V c).Φ t.succ ∗ (dat0 V c).owesAt () t.succ
        ∗ owns (c : Thread nD τ) (st0_0 t) fullShare ((dat0 V c).after 0 t)
        ∗ owns (c : Thread nD τ) (st0_1 t) fullShare ((dat0 V c).after 1 t)))
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

end Cert.Kernel.Hand

end
-- ==== Proof.KRegion1Defs.lean ====
/-
  The second kernel call (the anchor sweep) at one grid point, as pure functions of what its body reads: the
  labels table `tb`, the tile of 64 rows of the distance matrix `x0`, the labels as a row `x1`, and what the
  output buffer held `d`. Trip `k` of the loop over the tile's rows reads the anchor's label (the table's
  word at the anchor's index) and the anchor's row of distances (row `k` of the tile), and adds the anchor's
  hinge sum and count to the carried pair; after the 64 trips the pair is laid into row 0, columns 0 and 1 of an
  8×128 block of zeros and added to the buffer — zeroed first at the first point of a row of the grid.
-/
import proofs.«410585_j13030930776533_3_alg».proof.Proof.Gen.Kernel.Skeleton
import Idealize.ShloMosaic.Lib.ValueIdx

noncomputable section

namespace Cert.Kernel.Hand

open Idealize.ShloMosaic Idealize.SL.Sem
open Cert.Kernel Cert.Kernel.Gen

variable {F : FTy → Type} [FloatOps F]

/-- The loop has at most 64 trips. -/
theorem trip_lt (k : Fin k1_t1_loop.trips) : k.val < 64 := Nat.lt_of_lt_of_le k.isLt k1_t1_abs.2.1

/-- The anchor of trip `k` at grid point `i`: 192 per step of the outer axis, 64 per step of the inner, plus the trip. -/
def anchorIx (i : grid1.Coords) (k : Fin k1_t1_loop.trips) : Fin 384 :=
  ⟨192 * (i 0).val + 64 * (i 1).val + k.val, by
    have h0 : (i 0).val < 2 := (i 0).isLt
    have h1 : (i 1).val < 3 := (i 1).isLt
    have hk := trip_lt k
    omega⟩

/-- The anchor's label: the table's word at the anchor's index. -/
def wordAt (i : grid1.Coords) (tb : Vec F S384 .i32) (k : Fin k1_t1_loop.trips) : Elt F .i32 :=
  tb (ValueIdx.ix1 (anchorIx i k))

/-- The anchor's row of distances: row `k` of the tile, as a 1×384 vector. -/
def rowAt (x0 : Vec F S64x384 .f32) (k : Fin k1_t1_loop.trips) : Vec F S1x384 .f32 :=
  fun y => x0 (ValueIdx.ix2 (⟨k.val, trip_lt k⟩ : Fin 64) (y 1 : Fin 384))

/-- The carried pair (hinge sum, count) before trip `n`. -/
def accAt (i : grid1.Coords) (tb : Vec F S384 .i32) (x0 : Vec F S64x384 .f32) (x1 : Vec F S1x384 .i32) :
    ℕ → FVec F S1x1 .f32 × FVec F S1x1 .f32
  | 0 => (k1_pay5, k1_pay6)
  | n + 1 =>
    if h : n < k1_t1_loop.trips then
      (k1_pay9 i x1 ⟨n, h⟩ (accAt i tb x0 x1 n).1 (wordAt i tb ⟨n, h⟩) (rowAt x0 ⟨n, h⟩),
       k1_pay10 i x1 ⟨n, h⟩ (accAt i tb x0 x1 n).2 (wordAt i tb ⟨n, h⟩) (rowAt x0 ⟨n, h⟩))
    else accAt i tb x0 x1 n

/-- What the body leaves in the output buffer that held `d`: the loop's result laid into a block of zeros and added
    to the buffer's contents, which are zeros at the first point of a row of the grid. -/
def out1_2 (i : grid1.Coords) (tb : Vec F S384 .i32) (x0 : Vec F S64x384 .f32) (x1 : Vec F S1x384 .i32)
    (d : Vec F S8x128 .f32) : Vec F S8x128 .f32 :=
  k1_pay11 (accAt i tb x0 x1 k1_t1_loop.trips).1 (accAt i tb x0 x1 k1_t1_loop.trips).2
    (if (i 1).val = 0 then k1_pay1 else d)

end Cert.Kernel.Hand

end
-- ==== Proof.KRegion1Body.lean ====
/-
  The body of the second kernel call at one grid point, run once: from the labels table, the tile of distances, the
  labels row and the output buffer at read contents, it runs to the end, faults nowhere, leaves the three inputs as
  they were and the output buffer at `out1_2` of them. At the first point of a row of the grid the buffer is
  first overwritten with zeros; the loop over the tile's 64 rows only loads (the anchor's label from the table,
  its row from the tile) and carries the pair of sums, which goes through the loop by its invariant: the carried
  pair before trip `n` is `accAt n`.
-/
import proofs.«410585_j13030930776533_3_alg».proof.Proof.KRegion1Defs
import proofs.«410585_j13030930776533_3_alg».proof.Proof.Gen.Kernel.Launch
import proofs.«410585_j13030930776533_3_alg».proof.Proof.Gen.Kernel.Loops
import proofs.«410585_j13030930776533_3_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen

variable {F : FTy → Type} [FloatOps F]

local notation "𝕄" => MT nD τ sig Unit (Elt F) ℕ (UR sig nD τ) ℕ

/-- The branch's condition, a scalar chain over the inner grid coordinate, says that coordinate is zero. -/
theorem cond_iff : ∀ (v : ℕ), v < 3 →
    ((Scalar.cmpi .ne (Scalar.extui (Scalar.cmpi .eq (BitVec.ofNat 32 v) 0#32)) 0#32 = 1#1) ↔ v = 0)
  | 0, _ => by decide
  | 1, _ => by decide
  | 2, _ => by decide
  | n + 3, h => absurd h (by omega)

/-- The word a trip loads from the table, through a whole memref that reads `tb`, is the anchor's label: the
    one-word rectangle sits at the anchor's index. -/
theorem word_eq (i : grid1.Coords) (arg2 : Memref sig .tc .smem S384 .i32) (harg2 : arg2.IsWhole) (tb : Vec F S384 .i32)
    (k : Fin k1_t1_loop.trips)
    (j : (Rect.unit (s := S384) (k1_off1 i k) S1.size (k1_off1_inb i k)).toLoadRect.shape.Idx) :
    View.readAt (Elt F) arg2.view (Rect.unit (s := S384) (k1_off1 i k) S1.size (k1_off1_inb i k)).toLoadRect
        (harg2.unread tb) j = wordAt i tb k := by
  rw [View.readAt_eq_ld, harg2.read_unread]
  unfold wordAt
  refine congrArg tb (funext fun a => Fin.ext ?_)
  match a with
  | ⟨0, ha⟩ =>
    have hj : (j ⟨0, ha⟩).val < 1 := (j ⟨0, ha⟩).isLt
    have e : k1_off1 i k ⟨0, ha⟩ = 192 * (i 0).val + 64 * (i 1).val + k.val := congrFun (k1_off1_eq i k) ⟨0, ha⟩
    show (k1_off1 i k) ⟨0, ha⟩ + 1 * (j ⟨0, ha⟩).val = 192 * (i 0).val + 64 * (i 1).val + k.val
    rw [e]
    omega

/-- The row a trip loads from the tile, through a whole memref that reads `x0`, is the anchor's row of distances: the
    one-row rectangle sits at row `k`, column zero. -/
theorem row_eq (arg3 : Memref sig .tc .vmem S64x384 .f32) (harg3 : arg3.IsWhole) (x0 : Vec F S64x384 .f32)
    (k : Fin k1_t1_loop.trips) :
    View.readAt (Elt F) arg3.view (Rect.unit (s := S64x384) (k1_off2 k) S1x384.size (k1_off2_inb k)).toLoadRect
        (harg3.unread x0) = rowAt x0 k := by
  rw [View.readAt_eq_ld, harg3.read_unread]
  funext y
  unfold rowAt
  refine congrArg x0 (funext fun a => Fin.ext ?_)
  match a with
  | ⟨0, ha⟩ =>
    have hy : (y ⟨0, ha⟩).val < 1 := (y ⟨0, ha⟩).isLt
    have e : k1_off2 k ⟨0, ha⟩ = k.val := congrFun (k1_off2_eq k) ⟨0, ha⟩
    show (k1_off2 k) ⟨0, ha⟩ + 1 * (y ⟨0, ha⟩).val = k.val
    rw [e]
    omega
  | ⟨1, ha⟩ =>
    have e : k1_off2 k ⟨1, ha⟩ = 0 := congrFun (k1_off2_eq k) ⟨1, ha⟩
    show (k1_off2 k) ⟨1, ha⟩ + 1 * (y ⟨1, ha⟩).val = (y ⟨1, ha⟩).val
    rw [e]
    omega

/-- One trip's yield, read off the trip's run: the two sums updated by the anchor's label and row. -/
theorem tripR_eq (𝒱 : Variants) (c : Dev nD) (bd : Option 𝒱.V) (i : grid1.Coords)
    (arg2 : Memref sig .tc .smem S384 .i32) (harg2 : arg2.IsWhole) (arg3 : Memref sig .tc .vmem S64x384 .f32) (harg3 : arg3.IsWhole)
    (arg4 : Memref sig .tc .vmem S1x384 .i32) (harg4 : arg4.IsWhole) (arg5 : Memref sig .tc .vmem S8x128 .f32) (harg5 : arg5.IsWhole)
    (v4 : Vec F S1x384 .i32) (tb : Vec F S384 .i32) (x0 : Vec F S64x384 .f32)
    (k : Fin k1_t1_loop.trips) (acc : FVec F S1x1 .f32 × FVec F S1x1 .f32) :
    tripR_k1_t1 𝒱 c bd i arg2 harg2 arg3 harg3 arg4 harg4 arg5 harg5 v4 (harg2.unread tb) (harg3.unread x0) k acc
      = (k1_pay9 i v4 k acc.1 (wordAt i tb k) (rowAt x0 k), k1_pay10 i v4 k acc.2 (wordAt i tb k) (rowAt x0 k)) := by
  unfold tripR_k1_t1 trip_k1_t1
  dsimp only
  sl_unfold_run_names
  rw [word_eq, row_eq]

/-- The loop's invariant: the carried pair before trip `n` is `accAt n`. -/
theorem st_eq (𝒱 : Variants) (c : Dev nD) (bd : Option 𝒱.V) (i : grid1.Coords)
    (arg2 : Memref sig .tc .smem S384 .i32) (harg2 : arg2.IsWhole) (arg3 : Memref sig .tc .vmem S64x384 .f32) (harg3 : arg3.IsWhole)
    (arg4 : Memref sig .tc .vmem S1x384 .i32) (harg4 : arg4.IsWhole) (arg5 : Memref sig .tc .vmem S8x128 .f32) (harg5 : arg5.IsWhole)
    (tb : Vec F S384 .i32) (x0 : Vec F S64x384 .f32) (x1 : Vec F S1x384 .i32) :
    ∀ n : ℕ, st_k1_t1 𝒱 c bd i arg2 harg2 arg3 harg3 arg4 harg4 arg5 harg5 x1 (harg2.unread tb) (harg3.unread x0)
        (k1_pay5, k1_pay6) n = accAt i tb x0 x1 n
  | 0 => rfl
  | n + 1 => by
    rw [st_k1_t1.eq_2, accAt]
    unfold st_k1_t1Step
    by_cases h : n < k1_t1_loop.trips
    · rw [dif_pos h, dif_pos h, tripR_eq, st_eq 𝒱 c bd i arg2 harg2 arg3 harg3 arg4 harg4 arg5 harg5 tb x0 x1 n]
    · rw [dif_neg h, dif_neg h, st_eq 𝒱 c bd i arg2 harg2 arg3 harg3 arg4 harg4 arg5 harg5 tb x0 x1 n]

/-- The zero offsets of a rank-two rectangle, as the constant function. -/
theorem off00 : (![0, 0] : Fin 2 → ℕ) = fun _ => 0 := by
  funext a; match a with | ⟨0, _⟩ => rfl | ⟨1, _⟩ => rfl

/-- A store over the whole of the 8×128 buffer, made last, is what the buffer then reads, whatever was stored before. -/
theorem read_whole_store {κ : Kind} {sp : Space} (v : View sig κ sp S8x128 .f32) (f : v.ty.Contents (Elt F))
    (w : S8x128.Idx → Elt F .f32) (L : List (View.Piece (Elt F) S8x128 .f32)) :
    v.read (Elt F) (v.writes (Elt F) f
        ((⟨Rect.unit (s := S8x128) ![0, 0] S8x128.size inb_S8x128_S8x128_0_0, w⟩ : View.Piece (Elt F) S8x128 .f32) :: L)) = w := by
  rw [View.read_writes_eq_canon v f _ (fun y =>
    ⟨(⟨Rect.unit (s := S8x128) ![0, 0] S8x128.size inb_S8x128_S8x128_0_0, w⟩ : View.Piece (Elt F) S8x128 .f32),
      List.mem_cons_self, View.mem_set_unit_zero (S := S8x128) off00 inb_S8x128_S8x128_0_0 y⟩)]
  exact View.canon_cons_unit_zero (S := S8x128) off00 inb_S8x128_S8x128_0_0 w L

/-- A load of the whole labels row reads the row. -/
theorem load_row (arg4 : Memref sig .tc .vmem S1x384 .i32) (harg4 : arg4.IsWhole) (x1 : Vec F S1x384 .i32) :
    View.readAt (Elt F) arg4.view (Rect.unit (s := S1x384) ![0, 0] S1x384.size inb_S1x384_S1x384_0_0).toLoadRect
      (harg4.unread x1) = x1 := by
  rw [View.readAt_eq_ld, harg4.read_unread]
  exact View.ld_unit_zero (S := S1x384) off00 inb_S1x384_S1x384_0_0 x1

/-- A load of the whole output buffer reads its contents. -/
theorem load_out (arg5 : Memref sig .tc .vmem S8x128 .f32) (harg5 : arg5.IsWhole) (d : Vec F S8x128 .f32) :
    View.readAt (Elt F) arg5.view (Rect.unit (s := S8x128) ![0, 0] S8x128.size inb_S8x128_S8x128_0_0).toLoadRect
      (harg5.unread d) = d := by
  rw [View.readAt_eq_ld, harg5.read_unread]
  exact View.ld_unit_zero (S := S8x128) off00 inb_S8x128_S8x128_0_0 d

/-- A load of the whole output buffer after one store over the whole of it reads what was stored. -/
theorem load_after_store {κ : Kind} {sp : Space} (v : View sig κ sp S8x128 .f32) (w : S8x128.Idx → Elt F .f32) :
    v.readCov [(⟨Rect.unit (s := S8x128) ![0, 0] S8x128.size inb_S8x128_S8x128_0_0, w⟩ : View.Piece (Elt F) S8x128 .f32)]
      (Rect.unit (s := S8x128) ![0, 0] S8x128.size inb_S8x128_S8x128_0_0).toLoadRect = w :=
  View.readCov_unit_zero (S := S8x128) v off00 inb_S8x128_S8x128_0_0 w

/-- What the last store leaves, from the loop's result: the buffer's final contents. -/
theorem out_eq (c : Dev nD) (i : grid1.Coords)
    (arg2 : Memref sig .tc .smem S384 .i32) (harg2 : arg2.IsWhole) (arg3 : Memref sig .tc .vmem S64x384 .f32) (harg3 : arg3.IsWhole)
    (arg4 : Memref sig .tc .vmem S1x384 .i32) (harg4 : arg4.IsWhole) (arg5 : Memref sig .tc .vmem S8x128 .f32) (harg5 : arg5.IsWhole)
    (tb : Vec F S384 .i32) (x0 : Vec F S64x384 .f32) (x1 : Vec F S1x384 .i32) (d : Vec F S8x128 .f32)
    (v4 : Vec F S1x384 .i32) (hv4 : v4 = x1) (v22 : Vec F S8x128 .f32)
    (hv22 : v22 = if (i 1).val = 0 then k1_pay1 else d) :
    k1_pay11
        (st_k1_t1 Variants.none c none i arg2 harg2 arg3 harg3 arg4 harg4 arg5 harg5 v4 (harg2.unread tb) (harg3.unread x0)
          (k1_pay5, k1_pay6) (Scf.trips k1_t1_loop.lb k1_t1_loop.ub k1_t1_loop.st)).1
        (st_k1_t1 Variants.none c none i arg2 harg2 arg3 harg3 arg4 harg4 arg5 harg5 v4 (harg2.unread tb) (harg3.unread x0)
          (k1_pay5, k1_pay6) (Scf.trips k1_t1_loop.lb k1_t1_loop.ub k1_t1_loop.st)).2
        v22 = out1_2 i tb x0 x1 d := by
  subst hv4 hv22
  rw [st_eq]
  rfl

set_option maxHeartbeats 2000000 in
/-- The body's triple. -/
theorem sound_kernel1 (c : Dev nD) (E : Set ℕ) (i : grid1.Coords)
    (arg2 : Memref sig .tc .smem S384 .i32) (harg2 : arg2.IsWhole) (arg3 : Memref sig .tc .vmem S64x384 .f32) (harg3 : arg3.IsWhole)
    (arg4 : Memref sig .tc .vmem S1x384 .i32) (harg4 : arg4.IsWhole) (arg5 : Memref sig .tc .vmem S8x128 .f32) (harg5 : arg5.IsWhole)
    (tb : Vec F S384 .i32) (x0 : Vec F S64x384 .f32) (x1 : Vec F S1x384 .i32) (d : Vec F S8x128 .f32) (K : PUnit → sProp 𝕄) :
    iprop(owns (c : Thread nD τ) arg2 fullShare tb ∗ owns (c : Thread nD τ) arg3 fullShare x0
        ∗ owns (c : Thread nD τ) arg4 fullShare x1 ∗ owns (c : Thread nD τ) arg5 fullShare d
        ∗ (iprop(owns (c : Thread nD τ) arg2 fullShare tb ∗ owns (c : Thread nD τ) arg3 fullShare x0
            ∗ owns (c : Thread nD τ) arg4 fullShare x1 ∗ owns (c : Thread nD τ) arg5 fullShare (out1_2 i tb x0 x1 d)) -∗ K ⟨⟩))
      ⊢ wp frame (wpE (defs₀ (F := F)) Variants.none c none) E (cc1__triplet_kernel i arg2 harg2 arg3 harg3 arg4 harg4 arg5 harg5) K := by
  simp only [cc1__triplet_kernel_eq_skeleton]; unfold cc1__triplet_kernel_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3
  obtain rfl := harg4.eq_unread hf4; obtain rfl := harg5.eq_unread hf5
  by_cases h : (i 1).val = 0
  · have hc : (Scalar.cmpi .ne (Scalar.extui (Scalar.cmpi .eq (BitVec.ofNat 32 (i 1).val) 0#32)) 0#32 = 1#1) :=
      (cond_iff (i 1).val (i 1).isLt).mpr h
    sl_exec (disch := first | exact hc)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    iexists _; isplitr
    rotate_left
    · iexact H5
    · ipureintro
      first | rw [read_whole_store] | fail "first point: the last store"
      first
        | refine out_eq c i arg2 harg2 arg3 harg3 arg4 harg4 arg5 harg5 tb x0 x1 d _ (load_row arg4 harg4 x1) _ ?_
        | fail "first point: the final contents"
      rw [if_pos h]
      sl_unfold_run_names
      first | exact load_after_store arg5.view k1_pay1 | (trace_state; fail "first point: the load after the reset")
  · have hc : ¬ (Scalar.cmpi .ne (Scalar.extui (Scalar.cmpi .eq (BitVec.ofNat 32 (i 1).val) 0#32)) 0#32 = 1#1) :=
      fun hh => h ((cond_iff (i 1).val (i 1).isLt).mp hh)
    sl_exec (disch := first | exact hc)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    iexists _; isplitr
    rotate_left
    · iexact H5
    · ipureintro
      first | rw [read_whole_store] | fail "later point: the last store"
      first
        | refine out_eq c i arg2 harg2 arg3 harg3 arg4 harg4 arg5 harg5 tb x0 x1 d _ (load_row arg4 harg4 x1) _ ?_
        | fail "later point: the final contents"
      rw [if_neg h]
      first | exact load_out arg5 harg5 d | (trace_state; fail "later point: the load")

end Cert.Kernel.Hand

end
-- ==== Proof.KDat1.lean ====
/-
  The second kernel call as a pipeline over its six grid points (two runs of three), at the contents `V` the
  core's buffers hold when the call is entered and the labels table's contents `a1`: the input windows' blocks, the
  output window's staging buffer after each point by recursion over the points (each point adds its tile's sums
  to what the point before left, the first point of a run starting from zeros), the proof data, what each staging
  buffer holds when the body runs, and the body obligation.
-/
import proofs.«410585_j13030930776533_3_alg».proof.Proof.KRegion1Body
import proofs.«410585_j13030930776533_3_alg».proof.Proof.Gen.Kernel.Launch
import proofs.«410585_j13030930776533_3_alg».proof.Proof.Gen.Kernel.Points
import Idealize.ShloMosaic.Lib.Pipeline.FrameBody
import Idealize.ShloMosaic.Lib.Pipeline.Frame

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (a1 : (pcfg1 (F := F)).Adm)

/-- A window's block at a point, read off its array as the call finds it. -/
def iblk1 (c : Dev nD) (w : Fin (cfg1 a1).W) (t : Fin (cfg1 a1).N) :
    (((cfg1 a1).win w).xblock ((cfg1 a1).grid.coords t)).Idx → Elt F ((cfg1 a1).win w).elt :=
  (((cfg1 a1).win w).blk t).view.read (Elt F) (V c (Pipeline.arrRef spec1 w))

/-- The labels table's contents. -/
abbrev tbl1 : Vec F S384 .i32 := a1.1 0

/-- At the first point of a run the body's result does not depend on what the buffer held. -/
theorem out1_2_reset {i : grid1.Coords} {tb : Vec F S384 .i32} {x0 : Vec F S64x384 .f32} {x1 : Vec F S1x384 .i32}
    {d d' : Vec F S8x128 .f32} (h : (i 1).val = 0) : out1_2 i tb x0 x1 d = out1_2 i tb x0 x1 d' := by
  unfold out1_2; rw [if_pos h, if_pos h]

/-- The output window's staging buffer after point `n`. -/
def outsAt1 (c : Dev nD) : (n : ℕ) → n < (cfg1 a1).N → Vec F S8x128 .f32
  | 0, h => out1_2 ((cfg1 a1).grid.coords ⟨0, h⟩) (tbl1 a1) (iblk1 V a1 c 0 ⟨0, h⟩) (iblk1 V a1 c 1 ⟨0, h⟩) k1_pay1
  | n + 1, h => out1_2 ((cfg1 a1).grid.coords ⟨n + 1, h⟩) (tbl1 a1) (iblk1 V a1 c 0 ⟨n + 1, h⟩) (iblk1 V a1 c 1 ⟨n + 1, h⟩)
      (outsAt1 c n (Nat.lt_of_succ_lt h))

/-- The proof data of the second pipeline on core `c`: the invariant is the untouched rest and the labels table, held whole. -/
def dat1 (c : Dev nD) : Dat τ (Elt F) Unit ℕ (UR sig nD τ) ℕ (cfg1 a1) c where
  A w := V c (Pipeline.arrRef spec1 w)
  after w t := match w with
    | ⟨0, _⟩ => iblk1 V a1 c 0 t
    | ⟨1, _⟩ => iblk1 V a1 c 1 t
    | ⟨2, _⟩ => outsAt1 V a1 c t.val t.isLt
  Φ _ := iprop(Pipeline.ΦA spec1 c ∗ Pipeline.prefHeld (Ix := Unit) (Name := ℕ) (U := UR sig nD τ) (Lvl := ℕ) pre1 c (fun _ => fullShare) a1.1)
  q _ := fullShare
  owed _ := 0

theorem A_eq1 (c : Dev nD) (w : Fin (cfg1 a1).W) : (dat1 V a1 c).A w = V c (Pipeline.arrRef spec1 w) := by
  dsimp only [dat1]
theorem after1_0 (c : Dev nD) (t : Fin (cfg1 a1).N) : (dat1 V a1 c).after 0 t = iblk1 V a1 c 0 t := by dsimp only [dat1]; rfl
theorem after1_1 (c : Dev nD) (t : Fin (cfg1 a1).N) : (dat1 V a1 c).after 1 t = iblk1 V a1 c 1 t := by dsimp only [dat1]; rfl
theorem after1_2 (c : Dev nD) (t : Fin (cfg1 a1).N) : (dat1 V a1 c).after 2 t = outsAt1 V a1 c t.val t.isLt := by dsimp only [dat1]; rfl

/-- Each input's staging buffer holds its block when the body runs, fetched at the point or not. -/
theorem before1_0 (c : Dev nD) (t : Fin (cfg1 a1).N) (d) : (dat1 V a1 c).before 0 t d = iblk1 V a1 c 0 t :=
  ((dat1 V a1 c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin (cfg1 a1).N) (d) : (dat1 V a1 c).before 1 t d = iblk1 V a1 c 1 t :=
  ((dat1 V a1 c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

/-! ## The output window: written back after the last point of each run -/

/-- The grid at any contents of the table is the compiled grid. -/
theorem coords1_eq (t : Fin (cfg1 a1).N) : (cfg1 a1).grid.coords t = grid1.coords t := rfl
/-- The grid's points by number: the step within a run is the point's number modulo three. -/
theorem step_closed : ∀ t : Fin grid1.N, ((grid1.coords t) 1).val = t.val % 3 := by decide +kernel
theorem coords1_step (t : Fin (cfg1 a1).N) : (((cfg1 a1).grid.coords t) 1).val = t.val % 3 := step_closed t

/-- The output window's block index is the run: it moves between points 2 and 3 only. -/
theorem isOut1_2 : ((cfg1 a1).win 2).isOut = true := rfl
theorem flush_closed : ∀ t : Fin grid1.N, (true && (decide (t.val + 1 = grid1.N) || decide (∃ h : t.val + 1 < grid1.N, cc1_transform_2 (grid1.coords ⟨t.val + 1, h⟩) ≠ cc1_transform_2 (grid1.coords t)))) = decide (t.val = 2 ∨ t.val = 5) := by decide +kernel
/-- The output block is written back exactly after points 2 and 5. -/
theorem flush1_2 (t : Fin (cfg1 a1).N) : ((cfg1 a1).win 2).flush t = decide (t.val = 2 ∨ t.val = 5) := by
  unfold Pipeline.Window.flush
  rw [isOut1_2]
  exact flush_closed t

/-- When the body runs, the output's staging buffer holds anything at the first point of a run, and what the point
    before left at the others. -/
theorem before1_2_reset (c : Dev nD) (t : Fin (cfg1 a1).N) (h : t.val % 3 = 0) (d) : (dat1 V a1 c).before 2 t d = d := by
  refine (dat1 V a1 c).before_out_reset 2 rfl t ?_ d
  by_cases h0 : t.val = 0
  · exact .inl h0
  · refine .inr ⟨h0, ?_⟩
    rw [flush1_2]
    have := t.isLt
    have hN : (cfg1 a1).N = 6 := N_1
    simp only [decide_eq_true_eq]
    omega
theorem before1_2_kept (c : Dev nD) (t : Fin (cfg1 a1).N) (h : t.val % 3 ≠ 0) (d) :
    (dat1 V a1 c).before 2 t d = outsAt1 V a1 c (t.val - 1) (Nat.lt_of_le_of_lt (Nat.sub_le _ _) t.isLt) := by
  have h0 : t.val ≠ 0 := fun e => h (by rw [e])
  rw [(dat1 V a1 c).before_out_kept 2 rfl t h0 (by
      rw [flush1_2]
      have := t.isLt
      have hN : (cfg1 a1).N = 6 := N_1
      simp only [decide_eq_false_iff_not]
      omega) (fun _ => rfl) (fun _ _ => rfl) d, after1_2]

/-- What the body leaves in the output buffer at point `t` is its result on what it found there. -/
theorem after1_2_eq (c : Dev nD) (t : Fin (cfg1 a1).N) (d) :
    (dat1 V a1 c).after 2 t = out1_2 ((cfg1 a1).grid.coords t) (tbl1 a1) (iblk1 V a1 c 0 t) (iblk1 V a1 c 1 t) ((dat1 V a1 c).before 2 t d) := by
  rw [after1_2]
  by_cases h : t.val % 3 = 0
  · have hc : (((cfg1 a1).grid.coords t) 1).val = 0 := (coords1_step a1 t).trans h
    obtain ⟨n, hn⟩ := t
    cases n with
    | zero => rw [outsAt1]; exact out1_2_reset hc
    | succ n => rw [outsAt1]; exact out1_2_reset hc
  · rw [before1_2_kept V a1 c t h d]
    obtain ⟨n, hn⟩ := t
    cases n with
    | zero => exact absurd rfl h
    | succ n => rw [outsAt1]; rfl

/-! ## The body obligation -/

/-- The labels table as the pipeline holds it: one buffer. -/
theorem prefHeld_eq1 (c : Dev nD) (q : Fin 1 → PosShare TreeShare) (v : pre1.Contents (Elt F)) :
    (Pipeline.prefHeld (Ix := Unit) (Name := ℕ) (U := UR sig nD τ) (Lvl := ℕ) pre1 c q v : sProp 𝕄)
      = owns (c : Thread nD τ) (Memref.whole main_arg1) (q 0) (v 0) := by
  unfold Pipeline.prefHeld
  rw [show (Finset.univ : Finset (Fin 1)) = {(0 : Fin 1)} from by decide, bigSep_singleton]
  exact (owns_whole (c : Thread nD τ) main_arg1 (q 0) (v 0)).symm

/-- The current staging memref of each window at point `t`, and the body as the pipeline calls it there. -/
abbrev st1_0 (t : Fin (cfg1 a1).N) := ((cfg1 a1).win 0).stage ((cfg1 a1).slots t 0)
abbrev st1_1 (t : Fin (cfg1 a1).N) := ((cfg1 a1).win 1).stage ((cfg1 a1).slots t 1)
abbrev st1_2 (t : Fin (cfg1 a1).N) := ((cfg1 a1).win 2).stage ((cfg1 a1).slots t 2)
abbrev bodyAt1 (t : Fin (cfg1 a1).N) : Prog (TpuEff nD τ sig (Elt F) Λ₀ .tc) PUnit :=
  cc1__triplet_kernel ((cfg1 a1).grid.coords t) (Memref.whole main_arg1) (Memref.isWhole_whole _)
    (spec1_0.stage ((cfg1 a1).slots t 0)) (hstage1_0 (((cfg1 a1).slots t 0).cast nbuf1_0))
    (spec1_1.stage ((cfg1 a1).slots t 1)) (hstage1_1 (((cfg1 a1).slots t 1).cast nbuf1_1))
    (spec1_2.stage ((cfg1 a1).slots t 2)) (hstage1_2 (((cfg1 a1).slots t 2).cast nbuf1_2))

set_option maxHeartbeats 1000000 in
/-- The body at any point: the table is in the invariant, the inputs' buffers hold their blocks, the output's what
    the point before left (or anything at the first point of a run), so the body's triple applies. -/
theorem sound_body1 (c : Dev nD) (t : Fin (cfg1 a1).N) :
    iprop((dat1 V a1 c).Φ t.castSucc ∗ (dat1 V a1 c).owesAt () t.castSucc
        ∗ (∃ d, owns (c : Thread nD τ) (st1_0 a1 t) fullShare ((dat1 V a1 c).before 0 t d))
        ∗ (∃ d, owns (c : Thread nD τ) (st1_1 a1 t) fullShare ((dat1 V a1 c).before 1 t d))
        ∗ (∃ d, owns (c : Thread nD τ) (st1_2 a1 t) fullShare ((dat1 V a1 c).before 2 t d)))
      ⊢ wp frame (wpE (defs₀ (F := F)) Variants.none c none) Set.univ (bodyAt1 a1 t) (fun _ =>
        iprop((dat1 V a1 c).Φ t.succ ∗ (dat1 V a1 c).owesAt () t.succ
          ∗ owns (c : Thread nD τ) (st1_0 a1 t) fullShare ((dat1 V a1 c).after 0 t)
          ∗ owns (c : Thread nD τ) (st1_1 a1 t) fullShare ((dat1 V a1 c).after 1 t)
          ∗ owns (c : Thread nD τ) (st1_2 a1 t) fullShare ((dat1 V a1 c).after 2 t))) := by
  simp only [before1_0, before1_1]
  rw [show (dat1 V a1 c).Φ t.succ = (dat1 V a1 c).Φ t.castSucc from rfl,
    show (dat1 V a1 c).owesAt () t.succ = (dat1 V a1 c).owesAt () t.castSucc from rfl,
    after1_0, after1_1,
    show (dat1 V a1 c).Φ t.castSucc = iprop(Pipeline.ΦA spec1 c ∗ Pipeline.prefHeld (Ix := Unit) (Name := ℕ) (U := UR sig nD τ) (Lvl := ℕ) pre1 c (fun _ => fullShare) a1.1) from rfl,
    prefHeld_eq1]
  iintro ⟨⟨HA, HT⟩, Ho, ⟨%d0, H0⟩, ⟨%d1, H1⟩, ⟨%d2, H2⟩⟩
  rw [after1_2_eq V a1 c t d2]
  iapply (sound_kernel1 c Set.univ _ _ _ _ _ _ _ _ _ (tbl1 a1) (iblk1 V a1 c 0 t) (iblk1 V a1 c 1 t) ((dat1 V a1 c).before 2 t d2) _)
  isplitl [HT]; · iexact HT
  isplitl [H0]; · iexact H0
  isplitl [H1]; · iexact H1
  isplitl [H2]; · iexact H2
  iintro ⟨HT, H0, H1, H2⟩
  isplitl [HA HT]
  · isplitl [HA]; · iexact HA
    iexact HT
  isplitl [Ho]; · iexact Ho
  isplitl [H0]; · iexact H0
  isplitl [H1]; · iexact H1
  iexact H2

/-- The library's body obligation, at every point. -/
theorem body_obligation1 (c : Dev nD) : BodyObligation (dat1 (F := F) V a1 c) (defs₀ (F := F)) Variants.none () Set.univ := fun t => by
  rw [bigSep_W1, bigSep_W1]
  exact sound_body1 V a1 c t

end Cert.Kernel.Hand

end
-- ==== Proof.KRun.lean ====
/-
  The whole program's run: @main as four segments — the one host operation before the calls, the two kernel calls,
  the host operations after them — over the thread state "every unscoped buffer of the core at the boundary's
  contents". The contents at each boundary are a fold from the launch memory: a host stretch's operations applied,
  a call's arrays at what its write-backs leave and every other buffer as the call found it. The second call
  is entered with the labels table at its launch contents, which its invariant holds through the grid and hands
  back. Every weakly fair execution terminates, and the final memory holds every unscoped buffer at the last
  boundary's contents.
-/
import proofs.«410585_j13030930776533_3_alg».proof.Proof.KDat0
import proofs.«410585_j13030930776533_3_alg».proof.Proof.KDat1
import proofs.«410585_j13030930776533_3_alg».proof.Proof.Gen.Kernel.Launch
import proofs.«410585_j13030930776533_3_alg».proof.Proof.Gen.Kernel.Regions
import Idealize.ShloMosaic.Lib.Pipeline.FrameBody
import Idealize.ShloMosaic.Lib.Pipeline.RegionsLoop
import Idealize.ShloMosaic.Lib.Pipeline.FrameSuffix

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => m (c, b)
/-- After the host operation before the calls (the first call's entry). -/
abbrev W1 : Dev nD → Valuation τ sig (Elt F) := fun c => StableHlo.after hostOps0 (W0 m c)
/-- The same read at the core's references. -/
abbrev Vin0 : (c : Dev nD) → (b : Ref sig .tc) → Buf (Elt F) ((c : Thread nD τ).loc b) := fun c b => W1 m c b
/-- After the first call: its arrays at what the pipeline leaves, every other buffer as entered. -/
def W2 (c : Dev nD) : Valuation τ sig (Elt F) :=
  Pipeline.withArrays spec0 c (W1 m c) fun w => (dat0 (Vin0 m) c).arrAt w cfg0.N
theorem W2_arr (c : Dev nD) (w : Fin cfg0.W) :
    W2 m c (Proc.devRef .tc (Pipeline.arrRef spec0 w)) = (dat0 (Vin0 m) c).arrAt w cfg0.N := by
  unfold W2; exact Pipeline.withArrays_arr spec0 (launch0 (F := F)).win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the core's references (the second call's entry). -/
abbrev Vin1 : (c : Dev nD) → (b : Ref sig .tc) → Buf (Elt F) ((c : Thread nD τ).loc b) := fun c b => W2 m c b
theorem hF0 (c : Dev nD) (w : Fin cfg0.W) : (dat0 (Vin0 m) c).arrAt w cfg0.N = Vin1 m c (Pipeline.arrRef spec0 w) :=
  (W2_arr m c w).symm
theorem hrest0 (c : Dev nD) : ∀ b, b ∉ Finset.univ.image (Pipeline.arrRef spec0) → Vin1 m c b = Vin0 m c b :=
  fun b hb => W2_of_ne m c b fun w e => hb (Finset.mem_image.mpr ⟨w, Finset.mem_univ _, e⟩)

/-- The labels table's contents when the second call is entered (one device: core 0's). -/
def adm1 : (pcfg1 (F := F)).Adm := ⟨fun k => Vin1 m (0 : Dev nD) (pre1.ref k), trivial⟩

/-- After the second call. -/
def W3 (c : Dev nD) : Valuation τ sig (Elt F) :=
  Pipeline.withArrays spec1 c (W2 m c) fun w => (dat1 (Vin1 m) (adm1 m) c).arrAt w (cfg1 (F := F) (adm1 m)).N
theorem W3_arr (c : Dev nD) (w : Fin (cfg1 (F := F) (adm1 m)).W) :
    W3 m c (Proc.devRef .tc (Pipeline.arrRef spec1 w)) = (dat1 (Vin1 m) (adm1 m) c).arrAt w (cfg1 (F := F) (adm1 m)).N := by
  unfold W3; exact Pipeline.withArrays_arr spec1 (launch1 (F := F)).win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev Vout1 : (c : Dev nD) → (b : Ref sig .tc) → Buf (Elt F) ((c : Thread nD τ).loc b) := fun c b => W3 m c b
theorem hF1 (c : Dev nD) (w : Fin (cfg1 (F := F) (adm1 m)).W) :
    (dat1 (Vin1 m) (adm1 m) c).arrAt w (cfg1 (F := F) (adm1 m)).N = Vout1 m c (Pipeline.arrRef spec1 w) :=
  (W3_arr m c w).symm
theorem hrest1 (c : Dev nD) : ∀ b, b ∉ Finset.univ.image (Pipeline.arrRef spec1) → Vout1 m c b = Vin1 m c b :=
  fun b hb => W3_of_ne m c b fun w e => hb (Finset.mem_image.mpr ⟨w, Finset.mem_univ _, e⟩)
/-- After the host operations after the calls: the end. -/
abbrev W4 : Dev nD → Valuation τ sig (Elt F) := fun c => StableHlo.after hostOps2 (W3 m c)

/-! ## The proof data family and the thread state -/

/-- The tables' admissible contents: the first call has none. -/
abbrev adm : (p : Fin 2) → (pcfgs (F := F) p).Adm
  | ⟨0, _⟩ => cfg0.toPCfg_adm
  | ⟨1, _⟩ => adm1 m
/-- Every pipeline's proof data, each at its call's entry contents. -/
def pdats : (p : Fin 2) → (c : Dev nD) → Dat τ (Elt F) Unit ℕ (UR sig nD τ) ℕ (Pipeline.pin (pcfgs (F := F)) (adm m) p) c
  | ⟨0, _⟩ => fun c => dat0 (Vin0 m) c
  | ⟨1, _⟩ => fun c => dat1 (Vin1 m) (adm1 m) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) (defs₀ (F := F)) 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m c) ∗ ∃ r, prngReg c r)

/-! ## The calls as segments -/

set_option backward.isDefEq.respectTransparency.types false in
/-- The first call: entered from every unscoped buffer at `W1`, left at `W2`. -/
def reg0 : Pipeline.RegionSeg (pcfgs (F := F)) (adm m) (pdats m) () (defs₀ (F := F)) 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (Vin0 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit := Pipeline.arrays_of_unscopedBufs (p := 0) (pcfgs (F := F)) (adm m) (pdats m) (launch0 (F := F)).win (launch0 (F := F)).arr_whole c
      ((pdats m 0 c).share_full fun _ => rfl) (Vin0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) (adm m) (Ix := Unit) (Name := ℕ) (U := UR sig nD τ) (Lvl := ℕ)
      (launch0 (F := F)).win (launch0 (F := F)).arr_whole c (pdats m) ((pdats m 0 c).share_full fun _ => rfl)
      (Vin0 m c) (Vin1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- One device: every core is core 0. -/
theorem core_eq (c : Dev nD) : c = (0 : Dev nD) := Subsingleton.elim _ _

set_option backward.isDefEq.respectTransparency.types false in
/-- The second call: entered from every unscoped buffer at `W2`, left at `W3`. At entry the labels table is split out
    of the buffers that are no array of the call, at its contents there; the invariant holds it and hands it back. -/
def reg1 : Pipeline.RegionSeg (pcfgs (F := F)) (adm m) (pdats m) () (defs₀ (F := F)) 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (body_obligation1 (Vin1 m) (adm1 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop((∃ r, prngReg c r) ∗ Pipeline.prefHeld (Ix := Unit) (Name := ℕ) (U := UR sig nD τ) (Lvl := ℕ) pre1 c (fun _ => fullShare) (adm1 m).1)
  Z c := Pipeline.unscopedRestP (Ix := Unit) (Name := ℕ) (U := UR sig nD τ) (Lvl := ℕ) pre1 spec1 c (Vin1 m c)
  hentry c := by
    obtain rfl := core_eq c
    rw [Pipeline.ownSems0_none]
    have hsplit := Pipeline.arrays_of_unscopedBufs (p := 1) (pcfgs (F := F)) (adm m) (pdats m) (launch1 (F := F)).win (launch1 (F := F)).arr_whole 0
      ((pdats m 1 0).share_full fun _ => rfl) (Vin1 m 0) fun _ => rfl
    rw [Pipeline.unscopedBufs_held, show Pipeline.unscopedRest (Ix := Unit) (Name := ℕ) (U := UR sig nD τ) (Lvl := ℕ) (Pipeline.pin (pcfgs (F := F)) (adm m) 1).spec 0 (Vin1 m 0)
        = iprop(Pipeline.prefHeld pre1 0 (fun _ => fullShare) (fun k => Vin1 m 0 (pre1.ref k)) ∗ Pipeline.unscopedRestP pre1 spec1 0 (Vin1 m 0))
        from Pipeline.unscopedRest_split preFacts1 0 (Vin1 m 0)] at hsplit
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = iprop(Pipeline.ΦA spec1 c ∗ Pipeline.prefHeld (Ix := Unit) (Name := ℕ) (U := UR sig nD τ) (Lvl := ℕ) pre1 c (fun _ => fullShare) (adm1 m).1) from rfl]
    unfold Pipeline.ΦA
    iintro ⟨Hp, Hpf, Hr⟩
    isplitl [Hr Hp]
    · isplitl [Hr]; · iexact Hr
      iexact Hp
    iexact Hpf
  hout c := by
    rw [Pipeline.ownSems0_none, show (pdats m 1 c).Φ (Fin.last _) = iprop(Pipeline.ΦA spec1 c ∗ Pipeline.prefHeld (Ix := Unit) (Name := ℕ) (U := UR sig nD τ) (Lvl := ℕ) pre1 c (fun _ => fullShare) (adm1 m).1) from rfl]
    unfold Pipeline.ΦA
    iintro ⟨⟨Hr, Hp⟩, Hpf⟩
    isplitl [Hp Hpf]
    · isplitl [Hp]; · iexact Hp
      iexact Hpf
    isplitr; · iempintro
    iexact Hr
  hexit c := by
    obtain rfl := core_eq c
    have hjoin := Pipeline.unscopedBufs_of_arrays (p := 1) (pcfgs (F := F)) (adm m) (Ix := Unit) (Name := ℕ) (U := UR sig nD τ) (Lvl := ℕ)
      (launch1 (F := F)).win (launch1 (F := F)).arr_whole 0 (pdats m) ((pdats m 1 0).share_full fun _ => rfl)
      (Vin1 m 0) (Vout1 m 0) ((pdats m 1 0).arrAt · (cfg1 (F := F) (adm1 m)).N) (hF1 m 0) (hrest1 m 0)
    rw [Pipeline.unscopedBufs_held, show Pipeline.unscopedRest (Ix := Unit) (Name := ℕ) (U := UR sig nD τ) (Lvl := ℕ) (Pipeline.pin (pcfgs (F := F)) (adm m) 1).spec 0 (Vin1 m 0)
        = iprop(Pipeline.prefHeld pre1 0 (fun _ => fullShare) (fun k => Vin1 m 0 (pre1.ref k)) ∗ Pipeline.unscopedRestP pre1 spec1 0 (Vin1 m 0))
        from Pipeline.unscopedRest_split preFacts1 0 (Vin1 m 0)] at hjoin
    iintro ⟨Ha, HO, ⟨HY, Hpf⟩, Hrest⟩
    imodintro
    isplitl [Ha Hrest Hpf]
    · iapply hjoin
      isplitl [Ha]; · iexact Ha
      isplitl [Hpf]; · iexact Hpf
      iexact Hrest
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) (adm m) (pdats m) () (defs₀ (F := F)) 𝒱₀ L lv) :=
  [ .host (hseg hostOps0 hostOps0_sub hostOps0_fresh (W0 m)),
    .region (reg0 m),
    .region (reg1 m),
    .host (hseg hostOps2 hostOps2_sub hostOps2_fresh (W3 m)) ]
/-- @main is the run of the segments. -/
theorem main_run (c : Dev nD) : main (F := F) c = Pipeline.Seg.run (segs m) := (main_chain c).trans (by chain_rfl)

set_option backward.isDefEq.respectTransparency.types false in
/-- THE RUN: from any memory with zero counters every weakly fair execution of @main terminates, nothing faulting, and
    the final memory holds every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) (adm m) (pdats m) () (cellOf_inj (adm m)) emb₁ (defs₀ (F := F)) 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) (adm m)) (cellOf_inj (adm m))) (Pipeline.launchToks (Pipeline.pin (pcfgs (F := F)) (adm m)) (cellOf_inj (adm m))))
    (hu₀ := by
      iintro Hu; imodintro
      isplitl [Hu]
      · iapply (show (ownU (initOf (Pipeline.cells (Pipeline.pin (pcfgs (F := F)) (adm m)) (cellOf_inj (adm m))) (Pipeline.launchToks (Pipeline.pin (pcfgs (F := F)) (adm m)) (cellOf_inj (adm m)))) : sProp 𝕄)
            ⊢ BI.own (emb₁ (initOf (Pipeline.cells (Pipeline.pin (pcfgs (F := F)) (adm m)) (cellOf_inj (adm m))) (Pipeline.launchToks (Pipeline.pin (pcfgs (F := F)) (adm m)) (cellOf_inj (adm m))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show iprop(StableHlo.held (c : Thread nD τ) (Pipeline.ucRefs τ sig) (W4 m c) ∗ R c)
        ⊢ iprop(Tₙ m c ∗ ∃ W, owes (c : Thread nD τ) (0 : CellTallies nD τ sig Unit) W)
      iintro ⟨Hh, ⟨Hp, HO⟩⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- The frame: the two arguments end as launched (no host operation writes one, no call may change one). -/
theorem W4_main_arg0 (c : Dev nD) : W4 m c (Proc.devRef .tc main_arg0) = m ((c : Thread nD τ).loc main_arg0) :=
  (StableHlo.after_of_writes_sub hostOps2 _ hostOps2_writes (by decide : main_arg0 ∉ hostOps2_W)).trans <|
    (W3_of_ne m c main_arg0 (by decide)).trans <| ((W2_arr m c 0).trans (((dat0 (Vin0 m) c).arrAt_in 0 rfl _).trans (A_eq0 (Vin0 m) c 0))).trans <|
      (StableHlo.after_of_writes_sub hostOps0 _ hostOps0_writes (by decide : main_arg0 ∉ hostOps0_W))
theorem W4_main_arg1 (c : Dev nD) : W4 m c (Proc.devRef .tc main_arg1) = m ((c : Thread nD τ).loc main_arg1) :=
  (StableHlo.after_of_writes_sub hostOps2 _ hostOps2_writes (by decide : main_arg1 ∉ hostOps2_W)).trans <|
    (W3_of_ne m c main_arg1 (by decide)).trans <| (W2_of_ne m c main_arg1 (by decide)).trans <|
      (StableHlo.after_of_writes_sub hostOps0 _ hostOps0_writes (by decide : main_arg1 ∉ hostOps0_W))

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W4_main_arg0 m c), (h c _ (mem_uc main_arg1 (by decide))).trans (W4_main_arg1 m c)⟩) (run_all m ρ)

end Cert.Kernel.Hand

end
-- ==== Proof.Spec.lean ====
/-
  The mathematics of the triplet loss over 384 embeddings of dimension 128, on the extended reals.

  From the embeddings `x` the pairwise Euclidean distance `dist x i j` (the square root of the clamped
  `|x_i|² + |x_j|² − 2⟨x_i, x_j⟩`, and `0` where that is not positive). For an anchor `i`, a positive `j`
  (same label, another index) and a negative `k` (another label) the hinge term is
  `tl d i j k = d i j − d i k + 1`.

  The sums are written twice. The NESTED arrangement sums, per anchor, over the positives `j` the weight
  `posW` (1 or 0) times the sum over `k` of the terms whose label differs from `j`'s; the number of valid
  triplets is there the closed form `∑ i, (cnt i − 1)(384 − cnt i)`. The FLAT arrangement sums over all
  triples the term selected by the full mask `maskR` and clamped at 0, and counts triples as natural numbers.
  That the two arrangements agree is proved in the module that imports this one.
-/
import Idealize.ShloMosaic.PureOps.Ideal
import Idealize.ShloMosaic.PureOps

noncomputable section

open scoped BigOperators

namespace Cert.Triplet

open Idealize.ShloMosaic

/-- The positivity threshold of a counted triplet: the single-precision number nearest 1e-16. -/
def eps : EReal := Ideal.ofBits .f32 0x24E69595#32

/-! ## Distances -/

/-- The squared norm of row `i`. -/
def sqn (x : Fin 384 → Fin 128 → EReal) (i : Fin 384) : EReal := ∑ d, x i d * x i d
/-- The inner product of rows `i` and `j`. -/
def gram (x : Fin 384 → Fin 128 → EReal) (i j : Fin 384) : EReal := ∑ d, x i d * x j d
/-- The squared distance, clamped below at zero. -/
def d2 (x : Fin 384 → Fin 128 → EReal) (i j : Fin 384) : EReal := max (sqn x i + sqn x j - 2 * gram x i j) 0
/-- The distance: the root where the squared distance is positive, else zero. -/
def dist (x : Fin 384 → Fin 128 → EReal) (i j : Fin 384) : EReal :=
  if 0 < d2 x i j then Ideal.sqrt (if 0 < d2 x i j then d2 x i j else 1) else 0

/-- The hinge term of positive `j` and negative `k` over ONE anchor's row of distances `dr`. -/
def tlRow (dr : Fin 384 → EReal) (j k : Fin 384) : EReal := dr j - dr k + 1
/-- The hinge term of the triple anchor `i`, positive `j`, negative `k`, over a distance matrix `d`. -/
def tl (d : Fin 384 → Fin 384 → EReal) (i j k : Fin 384) : EReal := tlRow (d i) j k

/-! ## The nested arrangement

Stated first for ONE anchor given by its row of distances `dr`, its label `li` and its index `gi` (what one
step of the anchor sweep sees), then for the matrix. -/

/-- Weight of `j` as a positive of the anchor: same label, another index. -/
def posWA (lab : Fin 384 → BitVec 32) (li : BitVec 32) (gi : Fin 384) (j : Fin 384) : EReal := if li = lab j ∧ j ≠ gi then 1 else 0
/-- Over the `k` whose label differs from `j`'s: the sum of the positive hinge terms, -/
def hingeRowA (dr : Fin 384 → EReal) (lab : Fin 384 → BitVec 32) (j : Fin 384) : EReal :=
  ∑ k, if lab j ≠ lab k ∧ 0 < tlRow dr j k then tlRow dr j k else 0
/-- and the number of hinge terms above the threshold. -/
def countRowA (dr : Fin 384 → EReal) (lab : Fin 384 → BitVec 32) (j : Fin 384) : EReal :=
  ∑ k, if lab j ≠ lab k ∧ eps < tlRow dr j k then 1 else 0
/-- The anchor's share of the loss sum and of the count. -/
def anchorHingeA (dr : Fin 384 → EReal) (lab : Fin 384 → BitVec 32) (li : BitVec 32) (gi : Fin 384) : EReal :=
  ∑ j, posWA lab li gi j * hingeRowA dr lab j
def anchorCountA (dr : Fin 384 → EReal) (lab : Fin 384 → BitVec 32) (li : BitVec 32) (gi : Fin 384) : EReal :=
  ∑ j, posWA lab li gi j * countRowA dr lab j

/-- Anchor `i`'s share over the matrix `d`. -/
def anchorHinge (d : Fin 384 → Fin 384 → EReal) (lab : Fin 384 → BitVec 32) (i : Fin 384) : EReal :=
  anchorHingeA (d i) lab (lab i) i
def anchorCount (d : Fin 384 → Fin 384 → EReal) (lab : Fin 384 → BitVec 32) (i : Fin 384) : EReal :=
  anchorCountA (d i) lab (lab i) i
def sumTlK (d : Fin 384 → Fin 384 → EReal) (lab : Fin 384 → BitVec 32) : EReal := ∑ i, anchorHinge d lab i
def numPosK (d : Fin 384 → Fin 384 → EReal) (lab : Fin 384 → BitVec 32) : EReal := ∑ i, anchorCount d lab i
/-- How many indices carry anchor `i`'s label (itself included). -/
def cntEq (lab : Fin 384 → BitVec 32) (i : Fin 384) : EReal := ∑ j, if lab i = lab j then 1 else 0
/-- The number of valid triplets in closed form: positives times negatives, summed over the anchors. -/
def numValidK (lab : Fin 384 → BitVec 32) : EReal := ∑ i, (cntEq lab i - 1) * (384 - cntEq lab i)

/-! ## The flat arrangement -/

/-- The full mask of a triple: `k` of another label and `j` of the same label as `i`, the three indices distinct. -/
def maskR (lab : Fin 384 → BitVec 32) (i j k : Fin 384) : Prop :=
  (¬ lab k = lab i ∧ lab j = lab i) ∧ ((¬ i = j ∧ ¬ i = k) ∧ ¬ j = k)
instance (lab : Fin 384 → BitVec 32) (i j k : Fin 384) : Decidable (maskR lab i j k) := by unfold maskR; infer_instance
/-- The masked, clamped hinge term. -/
def hingeR (d : Fin 384 → Fin 384 → EReal) (lab : Fin 384 → BitVec 32) (i j k : Fin 384) : EReal :=
  max (if maskR lab i j k then tl d i j k else 0) 0
def sumTlR (d : Fin 384 → Fin 384 → EReal) (lab : Fin 384 → BitVec 32) : EReal := ∑ i, ∑ j, ∑ k, hingeR d lab i j k
/-- The number of triples whose clamped term is above the threshold, -/
def numPosR (d : Fin 384 → Fin 384 → EReal) (lab : Fin 384 → BitVec 32) : ℕ :=
  (Finset.univ.filter fun p : Fin 384 × Fin 384 × Fin 384 => eps < hingeR d lab p.1 p.2.1 p.2.2).card
/-- and the number of triples the mask admits. -/
def numValidR (lab : Fin 384 → BitVec 32) : ℕ :=
  (Finset.univ.filter fun p : Fin 384 × Fin 384 × Fin 384 => maskR lab p.1 p.2.1 p.2.2).card

/-! ## The two results -/

/-- A scalar quotient `a / (b + eps)` as the rank-0 array both programs end with: the host's division of the
    numerator by the denominator plus the threshold constant. -/
def ratio (a b : EReal) : FVec Ideal (⟨0, ![]⟩ : Shape) .f32 :=
  Host.divf (F := Ideal) (fun _ => a) (addf (F := Ideal) (fun _ => b) (constant (F := Ideal) (⟨0, ![]⟩ : Shape) .f32 0x24E69595#32))

end Cert.Triplet

end
-- ==== Proof.DistValue.lean ====
/-
  The first kernel's arithmetic read at an index, at the ideal instance: entry (i, j) of the block it stores is
  the specification's distance of rows i and j of the loaded block — the row sums of squares (a lane sum from a
  zero accumulator), their broadcast along rows and along columns, minus twice the matrix product of the block
  with its transpose (a contraction over the 128 columns from a zero accumulator), clamped at zero, and the root
  taken where the clamped value is positive.
-/
import proofs.«410585_j13030930776533_3_alg».proof.Proof.Gen.KernelIdeal.Skeleton
import proofs.«410585_j13030930776533_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.DistValue

open Idealize.ShloMosaic Idealize.SL.Sem Idealize.ShloMosaic.ValueIdx
open Cert.KernelIdeal Cert.KernelIdeal.Gen

/-! ## The two literals -/

/-- The single-precision pattern `0x40000000` is the number two. -/
theorem ofBits_two_f32 : Ideal.ofBits .f32 0x40000000#32 = 2 := by
  simp [Ideal.ofBits, Ideal.ieee, -EReal.coe_mul]
  norm_num
  norm_cast

/-- The single-precision pattern `0x3F800000` is the number one. -/
theorem ofBits_one_f32 : Ideal.ofBits .f32 0x3F800000#32 = 1 := by
  simp [Ideal.ofBits, Ideal.ieee, -EReal.coe_mul]
  norm_num

/-! ## The column forms of the layout operations, read at an index -/

section Layout
variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ValueIdx.ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to the row `[1, a]` reads, at `(u, i)`, the operand at `(i, 0)`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.mul_one, Nat.add_zero, Nat.zero_mul, Nat.zero_add])

/-- A column `[a, 1]` broadcast to `[a, b]` reads, at `(p, c)`, the operand's one entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The lane sum and the two broadcasts of its result -/

/-- A root at an index is the root of the element. -/
theorem sqrt_apply {s : Shape} {φ : FTy} (a : FVec Ideal s φ) (i : s.Idx) : sqrt a i = Ideal.sqrt (a i) := rfl

/-- The sum along the 128 columns from a zero accumulator, read at row `r`. -/
theorem rowSum_apply (v : FVec Ideal S384x128 .f32) (h : S384x128.Reduces [1] S384) (hφ : FKind.Formats .f32)
    (hacc : (0x00000000#32 : BitVec 32) = 0x00000000#32) (r : Fin 384) :
    multiReduction (F := Ideal) .add [1] S384 v 0x00000000#32 h hφ hacc (ValueIdx.ix1 r) = ∑ d : Fin 128, v (ix2 r d) := by
  refine (Ideal.multiReduction_add_single v 0x00000000#32 h hφ hacc (ValueIdx.ix1 r)).trans ?_
  refine Finset.sum_congr rfl fun d _ => congrArg v ?_
  funext c
  match c with
  | ⟨0, _⟩ => rfl
  | ⟨1, _⟩ => rfl

/-- A vector of 384 entries as a column, broadcast along the rows: entry `(p, q)` is the vector at `p`. -/
theorem colBroadcast_apply (w : FVec Ideal S384 .f32) (h1 : S384.ShapeCasts S384x1) (h2 : S384x1.Broadcasts S384x384) (p q : Fin 384) :
    broadcastTo S384x384 (shapeCast S384x1 w h1) h2 (ix2 p q) = w (ValueIdx.ix1 p) :=
  (broadcastTo_a1_ab_apply _ h2 p q).trans (shapeCast_a_a1_apply w h1 p 0)

/-- The same vector as a column, recast as a row, broadcast along the columns: entry `(p, q)` is the vector at `q`. -/
theorem rowBroadcast_apply (w : FVec Ideal S384 .f32) (h1 : S384.ShapeCasts S384x1) (h2 : S384x1.ShapeCasts S1x384)
    (h3 : S1x384.Broadcasts S384x384) (p q : Fin 384) :
    broadcastTo S384x384 (shapeCast S1x384 (shapeCast S384x1 w h1) h2) h3 (ix2 p q) = w (ValueIdx.ix1 q) :=
  (broadcastTo_1b_ab_apply _ h3 p q).trans ((shapeCast_a1_1a_apply _ h2 0 q).trans (shapeCast_a_a1_apply w h1 q 0))

/-! ## The matrix product with the transpose, read at an index -/

theorem lhs_gram_0 (i : S384x384.Idx) (q : dot_S384x128_S128x384_S384x384_1_0_0_1_n_n.contr.Idx) :
    (dot_S384x128_S128x384_S384x384_1_0_0_1_n_n.lhsIdx i q 0).val = (i 0).val := by
  unfold DotDims.lhsIdx
  rw [dif_neg (show ¬(0 : Fin S384x128.rank) ∈ dot_S384x128_S128x384_S384x384_1_0_0_1_n_n.lhsBatch by decide), dif_pos (show (0 : Fin S384x128.rank) ∈ dot_S384x128_S128x384_S384x384_1_0_0_1_n_n.lhsNonContracting by decide)]
  rfl
theorem lhs_gram_1 (i : S384x384.Idx) (q : dot_S384x128_S128x384_S384x384_1_0_0_1_n_n.contr.Idx) :
    (dot_S384x128_S128x384_S384x384_1_0_0_1_n_n.lhsIdx i q 1).val = (q ⟨0, by decide⟩).val :=
  dot_S384x128_S128x384_S384x384_1_0_0_1_n_n.lhsIdx_val_of_single rfl i q
theorem rhs_gram_0 (i : S384x384.Idx) (q : dot_S384x128_S128x384_S384x384_1_0_0_1_n_n.contr.Idx) :
    (dot_S384x128_S128x384_S384x384_1_0_0_1_n_n.rhsIdx i q 0).val = (q ⟨0, by decide⟩).val :=
  dot_S384x128_S128x384_S384x384_1_0_0_1_n_n.rhsIdx_val_of_single rfl i q
theorem rhs_gram_1 (i : S384x384.Idx) (q : dot_S384x128_S128x384_S384x384_1_0_0_1_n_n.contr.Idx) :
    (dot_S384x128_S128x384_S384x384_1_0_0_1_n_n.rhsIdx i q 1).val = (i 1).val := by
  unfold DotDims.rhsIdx
  rw [dif_neg (show ¬(1 : Fin S128x384.rank) ∈ dot_S384x128_S128x384_S384x384_1_0_0_1_n_n.rhsBatch by decide), dif_pos (show (1 : Fin S128x384.rank) ∈ dot_S384x128_S128x384_S384x384_1_0_0_1_n_n.rhsNonContracting by decide)]
  rfl

/-- The product of a `[384, 128]` block with a `[128, 384]` block into a zero accumulator, read at `(p, q)`: the sum
    over the 128 contracted coordinates of the left block's row `p` times the right block's column `q`. -/
theorem matmul_zero_apply (x : FVec Ideal S384x128 .f32) (y : FVec Ideal S128x384 .f32) (prec : Option ContractPrecision)
    (p q : Fin 384) :
    matmul (F := Ideal) dot_S384x128_S128x384_S384x384_1_0_0_1_n_n prec x y (constant (F := Ideal) S384x384 .f32 0x00000000#32) (ix2 p q)
      = ∑ k : Fin 128, x (ix2 p k) * y (ix2 k q) := by
  simp only [matmul]
  rw [Ideal.matmul_constant_zero_apply, ← Equiv.sum_comp (ValueIdx.contrEquiv1 dot_S384x128_S128x384_S384x384_1_0_0_1_n_n 128 rfl rfl).symm]
  refine Finset.sum_congr rfl fun k _ => ?_
  have hk := ValueIdx.contrEquiv1_symm_val dot_S384x128_S128x384_S384x384_1_0_0_1_n_n 128 rfl rfl k
  have el : dot_S384x128_S128x384_S384x384_1_0_0_1_n_n.lhsIdx (ix2 p q) ((ValueIdx.contrEquiv1 dot_S384x128_S128x384_S384x384_1_0_0_1_n_n 128 rfl rfl).symm k) = ix2 p k := funext fun a => Fin.ext (by
    match a with
    | ⟨0, _⟩ => exact lhs_gram_0 _ _
    | ⟨1, _⟩ => exact (lhs_gram_1 _ _).trans hk)
  have er : dot_S384x128_S128x384_S384x384_1_0_0_1_n_n.rhsIdx (ix2 p q) ((ValueIdx.contrEquiv1 dot_S384x128_S128x384_S384x384_1_0_0_1_n_n 128 rfl rfl).symm k) = ix2 k q := funext fun a => Fin.ext (by
    match a with
    | ⟨0, _⟩ => exact (rhs_gram_0 _ _).trans hk
    | ⟨1, _⟩ => exact rhs_gram_1 _ _)
  rw [el, er]

/-- The block times its own transpose: entry `(p, q)` is the inner product of rows `p` and `q`. -/
theorem gram_apply (x : FVec Ideal S384x128 .f32) (h : S384x128.Transposes [1, 0] S128x384) (prec : Option ContractPrecision)
    (p q : Fin 384) :
    matmul (F := Ideal) dot_S384x128_S128x384_S384x384_1_0_0_1_n_n prec x (transpose S128x384 [1, 0] x h)
        (constant (F := Ideal) S384x384 .f32 0x00000000#32) (ix2 p q)
      = ∑ k : Fin 128, x (ix2 p k) * x (ix2 q k) := by
  rw [matmul_zero_apply]
  refine Finset.sum_congr rfl fun k _ => ?_
  rw [transpose_ix2_apply x h k q]

/-! ## A select on "greater than zero" -/

/-- A select on the comparison `0 < D` of extended reals is the `if` on it. -/
theorem select_cmp_ogt_zero {α : Type} (D : EReal) (a b : α) :
    Scalar.select (Ideal.cmp .ogt D 0) a b = if 0 < D then a else b := by
  by_cases h : 0 < D
  · have hc : Ideal.cmp .ogt D 0 = 1#1 := by simp [Ideal.cmp, h]
    rw [if_pos h, hc, select_one]
  · have hc : Ideal.cmp .ogt D 0 = 0#1 := by simp [Ideal.cmp, h]
    rw [if_neg h, hc, select_zero]

/-! ## The payload at an index -/

theorem k0_pay1_apply (v0 : Vec Ideal S384x128 .f32) (i j : Fin 384) :
    k0_pay1 (F := Ideal) v0 (ValueIdx.ix2 i j) = Cert.Triplet.dist (fun a d => v0 (ValueIdx.ix2 a d)) i j := by
  unfold k0_pay1
  simp only [select_apply, cmpf_apply, sqrt_apply, broadcast_apply, maximumf_apply, subf_apply, addf_apply, mulf_apply,
    colBroadcast_apply, rowBroadcast_apply, Ideal.ofBits_def, Ideal.ofBits_zero_f32,
    ofBits_two_f32, ofBits_one_f32, Ideal.cmpf_def]
  rw [rowSum_apply (mulf v0 v0) _ _ _ i, rowSum_apply (mulf v0 v0) _ _ _ j, gram_apply v0 _ _ i j]
  simp only [mulf_apply, select_cmp_ogt_zero]
  rfl

end Cert.KernelIdeal.DistValue

end
-- ==== Proof.DistArray.lean ====
/-
  What the second kernel call finds, at the ideal instance, as functions of the launch memory: the distance matrix
  the first call wrote (its one block is the whole array: the distance arithmetic of the whole embeddings array, which
  no host operation had touched), the labels as a row (the one host operation before the calls reshapes the labels),
  and the labels table itself (never written).
-/
import proofs.«410585_j13030930776533_3_alg».proof.Proof.Run
import proofs.«410585_j13030930776533_3_alg».proof.Proof.DistValue
import proofs.«410585_j13030930776533_3_alg».proof.Proof.Spec
import Idealize.ShloMosaic.Lib.ValueIdx
import Idealize.ShloMosaic.Lib.Pipeline.Value
import Idealize.ShloMosaic.Lib.StableHlo.Run

noncomputable section

open scoped BigOperators

namespace Cert.KernelIdeal.Hand

open Idealize.ShloMosaic Idealize.ShloMosaic.TcCoe Idealize.SL.Sem
open Idealize.ShloMosaic.Pipeline (Dat Cfg Window)
open Cert.KernelIdeal Cert.KernelIdeal.Gen

variable (m : (ℓ : Loc nD τ sig) → Buf (Elt Ideal) ℓ)

/-- The embeddings as a matrix by coordinates and the labels as a vector, at launch. -/
abbrev X0 (c : Dev nD) : Fin 384 → Fin 128 → EReal :=
  fun i d => (m ((c : Thread nD τ).loc main_arg0) : FVec Ideal S384x128 .f32) (ValueIdx.ix2 i d)
abbrev LAB0 (c : Dev nD) : Fin 384 → BitVec 32 :=
  fun i => (m ((c : Thread nD τ).loc main_arg1) : IVec S384 32) (ValueIdx.ix1 i)

/-- The embeddings' array as the first call finds it is the launch memory: the reshape before it writes elsewhere. -/
private theorem emb_in (c : Dev nD) : Vin0 (F := Ideal) m c main_arg0 = m ((c : Thread nD τ).loc main_arg0) :=
  StableHlo.after_of_writes_sub hostOps0 _ hostOps0_writes (by decide : main_arg0 ∉ hostOps0_W)

/-- The input window's block at a point is the whole embeddings array: its one block sits at offsets zero. -/
private theorem iblk0_whole (c : Dev nD) (t : Fin cfg0.N) :
    iblk0 (F := Ideal) (Vin0 m) c 0 t = m ((c : Thread nD τ).loc main_arg0) := by
  unfold iblk0
  have hz : (fun a => win0_0.index t a * main_arg0.ty.shape.size a) = fun _ => 0 :=
    funext fun a => by fin_cases a <;> rfl
  refine (Memref.read_access_unit_zero (Elt Ideal) main_arg0 hz (fun a => by rw [congrFun hz a]; simp) _).trans ?_
  exact emb_in m c

/-- The distance arithmetic of the whole launch-time embeddings array: what the output array ends holding. -/
private abbrev DG (c : Dev nD) : Buf (Elt Ideal) ((c : Thread nD τ).loc main_v1) :=
  k0_pay1 (F := Ideal) (m ((c : Thread nD τ).loc main_arg0))

/-- What the one point writes back is the output window's block of that array, which is all of it. -/
private theorem flushed0_1 (c : Dev nD) (t : Fin cfg0.N) :
    (dat0 (F := Ideal) (Vin0 m) c).flushed 1 t = ((cfg0.win 1).blk t).view.read (Elt Ideal) (DG m c) := by
  show (cfg0.win 1).cut (grid0.coords t) ((dat0 (F := Ideal) (Vin0 m) c).after 1 t) = _
  rw [after0_1, out0_1_eq, iblk0_whole]
  have hz : (fun a => win0_1.index t a * main_v1.ty.shape.size a) = fun _ => 0 :=
    funext fun a => by fin_cases a <;> rfl
  exact (Memref.read_access_unit_zero (Elt Ideal) main_v1 hz (fun a => by rw [congrFun hz a]; simp) (DG m c)).symm

/-- The output array after the first call: the one block written back covers it. -/
private theorem dist_final (c : Dev nD) : (dat0 (F := Ideal) (Vin0 m) c).arrAt 1 cfg0.N = DG m c :=
  (dat0 (F := Ideal) (Vin0 m) c).arrAt_eq_of_cover 1 (DG m c) (fun t _ => flushed0_1 m c t) fun i =>
    ⟨t0_0, flush0_1 t0_0, by
      show i ∈ ((View.whole main_v1).slice (win0_1.rect t0_0)).set
      rw [View.set_slice_whole, Rect.mem_set_unit]
      intro a
      have h0 : (i 0 : ℕ) < 384 := (i 0).isLt
      have h1 : (i 1 : ℕ) < 384 := (i 1).isLt
      match a with
      | ⟨0, _⟩ =>
        show win0_1.index t0_0 0 * 384 ≤ (i 0 : ℕ) ∧ (i 0 : ℕ) < win0_1.index t0_0 0 * 384 + 384
        rw [show win0_1.index t0_0 0 = 0 from rfl]; omega
      | ⟨1, _⟩ =>
        show win0_1.index t0_0 1 * 384 ≤ (i 1 : ℕ) ∧ (i 1 : ℕ) < win0_1.index t0_0 1 * 384 + 384
        rw [show win0_1.index t0_0 1 = 0 from rfl]; omega⟩

/-- The distance matrix as the second call finds it. -/
theorem dist_array (c : Dev nD) (i j : Fin 384) :
    (Vin1 (F := Ideal) m c main_v1 : FVec Ideal S384x384 .f32) (ValueIdx.ix2 i j) = Cert.Triplet.dist (X0 m c) i j := by
  have h : Vin1 (F := Ideal) m c main_v1 = DG m c := (W2_arr m c 1).trans (dist_final m c)
  exact (congrFun h _).trans (Cert.KernelIdeal.DistValue.k0_pay1_apply _ i j)

/-- The labels row as the second call finds it. -/
theorem labels_row (c : Dev nD) (q : Fin 384) :
    (Vin1 (F := Ideal) m c main_v0 : IVec S1x384 32) (ValueIdx.ix2 (0 : Fin 1) q) = LAB0 m c q := by
  -- the first call does not touch the row: it is what the reshape left
  have h : Vin1 (F := Ideal) m c main_v0 = W1 m c (Proc.devRef .tc main_v0) := W2_of_ne m c main_v0 (by decide)
  -- and the reshape left the labels vector cast to one row
  have h2 : W1 (F := Ideal) m c (Proc.devRef .tc main_v0)
      = fun i => shapeCast S1x384 (m ((c : Thread nD τ).loc main_arg1) : IVec S384 32) shapeCasts_S384_S1x384 i := by
    show StableHlo.after hostOps0 (fun b => m (c, b)) (Proc.devRef .tc main_v0) = _
    after_results
    rfl
  exact (congrFun (h.trans h2) _).trans (ValueIdx.shapeCast_a_1a_apply _ _ 0 q)

/-- The labels table as the second call finds it, and after it. -/
theorem labels_tbl (c : Dev nD) : Vin1 (F := Ideal) m c main_arg1 = m ((c : Thread nD τ).loc main_arg1) :=
  (W2_of_ne m c main_arg1 (by decide)).trans <|
    (StableHlo.after_of_writes_sub hostOps0 _ hostOps0_writes (by decide : main_arg1 ∉ hostOps0_W))
theorem labels_end (c : Dev nD) : W3 (F := Ideal) m c (Proc.devRef .tc main_arg1) = m ((c : Thread nD τ).loc main_arg1) :=
  (W3_of_ne m c main_arg1 (by decide)).trans (labels_tbl m c)

end Cert.KernelIdeal.Hand

end
-- ==== Proof.Region1Value.lean ====
/-
  The second kernel's arithmetic at the ideal instance. One trip adds to the carried hinge sum the anchor's
  share `anchorHingeA` (over the positives `j`, the weight 1 or 0 times the lane sum over `k` of the selected hinge
  terms) and to the carried count the anchor's `anchorCountA`; so after the tile's trips the pair holds the tile's
  two sums, and the stored block holds at row 0, columns 0 and 1 what the buffer held there (zero at the first point
  of a row of the grid) plus those sums.
-/
import proofs.«410585_j13030930776533_3_alg».proof.Proof.Region1Defs
import proofs.«410585_j13030930776533_3_alg».proof.Proof.Spec
import Idealize.ShloMosaic.Lib.ValueIdx
import Idealize.ShloMosaic.Lib.ValueLayout
import Idealize.ShloMosaic.Lib.Pipeline.Value
import Idealize.ShloMosaic.Lib.IdealHost
import Idealize.ShloMosaic.Lib.Affine
import Idealize.ShloMosaic.PureOps.Ideal.Laws

noncomputable section

open scoped BigOperators

namespace Cert.KernelIdeal.Hand

open Idealize.ShloMosaic Idealize.SL.Sem
open Cert.KernelIdeal Cert.KernelIdeal.Gen

/-! ## Layout operations at an index -/

section Layout
variable {α : Type}

/-- A vector of length `a` cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ValueIdx.ix2 i u) = x (ValueIdx.ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A row `[1, a]` cast to a column `[a, 1]` reads, at `(i, u)`, the operand at `(0, i)`. -/
theorem shapeCast_1a_a1_apply {a : ℕ} (x : (⟨2, ![1, a]⟩ : Shape).Idx → α) (h : (⟨2, ![1, a]⟩ : Shape).ShapeCasts ⟨2, ![a, 1]⟩)
    (i : Fin a) (u : Fin 1) : shapeCast ⟨2, ![a, 1]⟩ x h (ValueIdx.ix2 i u) = x (ValueIdx.ix2 (0 : Fin 1) i) :=
  shapeCast_apply x h _ _ (by
    have hu : u.val = 0 := by omega
    rw [Shape.rowMajor_val_two, Shape.rowMajor_val_two]
    show 0 * a + i.val = i.val * 1 + u.val
    rw [hu, Nat.mul_one, Nat.add_zero, Nat.zero_mul, Nat.zero_add])

/-- A shape cast to the same shape reads the operand at the same index. -/
theorem shapeCast_same_apply {s : Shape} (x : s.Idx → α) (h : s.ShapeCasts s) (j : s.Idx) : shapeCast s x h j = x j :=
  shapeCast_apply x h j j rfl

/-- A column `[a, 1]` broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ValueIdx.ix2 p c) = v (ValueIdx.ix2 p (0 : Fin 1)) := by
  refine broadcastTo_apply v h (ValueIdx.ix2 p c) (ValueIdx.ix2 p (0 : Fin 1)) fun ax => ?_
  match ax with
  | ⟨0, _⟩ =>
    show p.val = if a = 1 then 0 else p.val
    split
    · have := p.isLt; omega
    · rfl
  | ⟨1, _⟩ => rfl

end Layout

/-! ## The labels: as a column, and the "labels differ" bits -/

theorem pay2_apply (x1 : Vec Ideal S1x384 .i32) (q : Fin 384) :
    k1_pay2 (F := Ideal) x1 (ValueIdx.ix2 (0 : Fin 1) q) = x1 (ValueIdx.ix2 (0 : Fin 1) q) := by
  unfold k1_pay2
  exact shapeCast_same_apply x1 _ _

theorem pay3_apply (x1 : Vec Ideal S1x384 .i32) (j : Fin 384) :
    k1_pay3 (F := Ideal) x1 (ValueIdx.ix2 j (0 : Fin 1)) = x1 (ValueIdx.ix2 (0 : Fin 1) j) := by
  unfold k1_pay3
  exact (shapeCast_1a_a1_apply (k1_pay2 (F := Ideal) x1) _ j 0).trans (pay2_apply x1 j)

theorem pay4_apply (x1 : Vec Ideal S1x384 .i32) (j k : Fin 384) :
    k1_pay4 (F := Ideal) x1 (ValueIdx.ix2 j k) = IntOp.cmpi .ne (x1 (ValueIdx.ix2 (0 : Fin 1) j)) (x1 (ValueIdx.ix2 (0 : Fin 1) k)) := by
  unfold k1_pay4
  show IntOp.cmpi .ne (broadcastTo S384x384 (k1_pay3 (F := Ideal) x1) _ (ValueIdx.ix2 j k)) (broadcastTo S384x384 (k1_pay2 (F := Ideal) x1) _ (ValueIdx.ix2 j k)) = _
  rw [broadcastTo_a1_ab_apply, ValueIdx.broadcastTo_1b_ab_apply, pay3_apply, pay2_apply]

/-! ## Pointwise operations on integer vectors at an index -/

theorem cmpi_apply' {s : Shape} {w : ℕ} (p : CmpIPredicate) (x y : IVec s w) (i : s.Idx) :
    cmpi p x y i = IntOp.cmpi p (x i) (y i) := rfl
theorem andi_apply' {s : Shape} {w : ℕ} (x y : IVec s w) (i : s.Idx) : andi x y i = IntOp.andi (x i) (y i) := rfl

/-! ## The hinge terms of one row of distances -/

theorem pay7_apply (r : Vec Ideal S1x384 .f32) (j k : Fin 384) :
    k1_pay7 (F := Ideal) r (ValueIdx.ix2 j k) = r (ValueIdx.ix2 (0 : Fin 1) j) - r (ValueIdx.ix2 (0 : Fin 1) k) + 1 := by
  unfold k1_pay7
  show (broadcastTo S384x384 (shapeCast S384x1 (shapeCast S384 r _) _) _ (ValueIdx.ix2 j k)
        - broadcastTo S384x384 (shapeCast S1x384 (shapeCast S384 r _) _) _ (ValueIdx.ix2 j k))
        + Ideal.ofBits .f32 0x3F800000#32 = _
  rw [broadcastTo_a1_ab_apply, ValueIdx.broadcastTo_1b_ab_apply, shapeCast_a_a1_apply, ValueIdx.shapeCast_a_1a_apply,
    ValueIdx.shapeCast_1a_a_apply, ValueIdx.shapeCast_1a_a_apply, Ideal.ofBits_one_f32]

/-! ## Bits as numbers -/

/-- A bit widened to a word and read as a signed number is 1 or 0. -/
theorem bit_toReal (b : BitVec 1) : (((b.setWidth 32).toInt : ℝ) : EReal) = if b = 1#1 then 1 else 0 := by
  rcases BitVec.eq_zero_or_eq_one b with h | h <;> subst h
  · have e : ((0#1 : BitVec 1).setWidth 32).toInt = 0 := by decide
    rw [if_neg (by decide), e]; simp
  · have e : ((1#1 : BitVec 1).setWidth 32).toInt = 1 := by decide
    rw [if_pos rfl, e]; simp

/-- The ordered "greater than" of two extended reals as a bit. -/
theorem cmp_ogt_iff (x y : EReal) : Ideal.cmp .ogt x y = 1#1 ↔ y < x := by
  unfold Ideal.cmp
  by_cases h : y < x <;> simp [h]

/-- A selection by a bit that says `P`. -/
theorem select_of_iff {α : Type} {c : BitVec 1} {P : Prop} [Decidable P] (h : c = 1#1 ↔ P) (a b : α) :
    Scalar.select c a b = if P then a else b := by
  unfold Scalar.select
  by_cases hp : P
  · exact (if_pos (h.2 hp)).trans (if_pos hp).symm
  · exact (if_neg (fun hc => hp (h.1 hc))).trans (if_neg hp).symm

/-! ## The anchor's index as a word -/

theorem anchorWord_toNat (i : grid1.Coords) (k : Fin k1_t1_loop.trips) :
    (Scalar.addi (Scalar.muli (Scalar.addi (Scalar.muli (BitVec.ofNat 32 (i 0).val) 3#32) (BitVec.ofNat 32 (i 1).val)) 64#32)
      (Scf.iv 0#32 1#32 k)).toNat = (anchorIx i k).val := by
  have r_i0 : (i 0).val < 2 := (i 0).isLt
  have r_i1 : (i 1).val < 3 := (i 1).isLt
  have r_k : k.val < 64 := trip_lt k
  have h_arg0 : Affine.IsInt (BitVec.ofNat 32 (i 0).val) (((i 0).val : Int)) := Affine.ofNat _ (by omega)
  have h_c3 : Affine.IsInt 3#32 (3) := Affine.ofNat _ (by omega)
  have h_v10 : Affine.IsInt _ (3 * ((i 0).val : Int)) := Affine.muli h_arg0 h_c3 (by omega)
  have h_arg1 : Affine.IsInt (BitVec.ofNat 32 (i 1).val) (((i 1).val : Int)) := Affine.ofNat _ (by omega)
  have h_v11 : Affine.IsInt _ (3 * ((i 0).val : Int) + ((i 1).val : Int)) := Affine.addi h_v10 h_arg1 (by omega)
  have h_c64 : Affine.IsInt 64#32 (64) := Affine.ofNat _ (by omega)
  have h_v12 : Affine.IsInt _ (192 * ((i 0).val : Int) + 64 * ((i 1).val : Int)) := Affine.muli h_v11 h_c64 (by omega)
  have h_c0 : Affine.IsInt 0#32 (0) := Affine.ofNat _ (by omega)
  have h_c1 : Affine.IsInt 1#32 (1) := Affine.ofNat _ (by omega)
  have h_arg6 : Affine.IsInt _ ((k.val : Int)) := Affine.iv h_c0 h_c1 k.val (by omega)
  have h_v26 : Affine.IsInt _ (192 * ((i 0).val : Int) + 64 * ((i 1).val : Int) + (k.val : Int)) :=
    Affine.addi h_v12 h_arg6 (by omega)
  exact Affine.nat_eq h_v26 _ (by
    show (192 * ((i 0).val : Int) + 64 * ((i 1).val : Int) + (k.val : Int)) = ((192 * (i 0).val + 64 * (i 1).val + k.val : ℕ) : ℤ)
    omega)

/-- The word of an index below 384 differs from a word exactly when the index differs from the word's number. -/
theorem indexWord_ne_iff (j g : Fin 384) (W : BitVec 32) (hW : W.toNat = g.val) : BitVec.ofNat 32 j.val ≠ W ↔ j ≠ g := by
  have hj : (BitVec.ofNat 32 j.val).toNat = j.val := by
    rw [BitVec.toNat_ofNat]; exact Nat.mod_eq_of_lt (by have := j.isLt; omega)
  constructor
  · intro h e; apply h; apply BitVec.eq_of_toNat_eq; rw [hj, hW, e]
  · intro h e; apply h; apply Fin.ext; rw [← hj, e, hW]

/-! ## The weight of a positive -/

theorem pay8_apply (i : grid1.Coords) (x1 : Vec Ideal S1x384 .i32) (k : Fin k1_t1_loop.trips) (w : Elt Ideal .i32) (j : Fin 384) :
    k1_pay8 (F := Ideal) i x1 k w (ValueIdx.ix2 j (0 : Fin 1))
      = Cert.Triplet.posWA (fun q => x1 (ValueIdx.ix2 (0 : Fin 1) q)) w (anchorIx i k) j := by
  unfold k1_pay8
  dsimp only
  rw [ValueIdx.sitofp_apply, ValueIdx.extui_apply, andi_apply', cmpi_apply', cmpi_apply', ValueIdx.broadcast_apply, ValueIdx.broadcast_apply,
    pay3_apply, iota_single_apply]
  refine (bit_toReal _).trans ?_
  unfold Cert.Triplet.posWA
  refine if_congr ?_ rfl rfl
  rw [IntOp.andi_eq_one, IntOp.cmpi_eq, IntOp.cmpi_ne]
  exact and_congr Iff.rfl (indexWord_ne_iff j _ _ (anchorWord_toNat i k))

/-! ## Lane sums -/

/-- The sum over the lanes of a 384×384 block, at row `j`. -/
theorem rowSum_apply (v : FVec Ideal S384x384 .f32) (h : S384x384.Reduces [1] S384) (hφ : FKind.Formats .f32)
    (hacc : (0x00000000#32 : BitVec 32) = FKind.add.neutral .f32 hφ) (j : Fin 384) :
    multiReduction (F := Ideal) .add [1] S384 v 0x00000000#32 h hφ hacc (ValueIdx.ix1 j) = ∑ q : Fin 384, v (ValueIdx.ix2 j q) := by
  refine (Ideal.multiReduction_add_single v _ h hφ hacc _).trans ?_
  refine Finset.sum_congr rfl fun q _ => congrArg v ?_
  funext a; apply Fin.ext
  match a with
  | ⟨0, _⟩ => rfl
  | ⟨1, _⟩ => rfl

/-- The sum down a 384×1 column. -/
theorem colSum_apply (v : FVec Ideal S384x1 .f32) (h : S384x1.Reduces [0] S1) (hφ : FKind.Formats .f32)
    (hacc : (0x00000000#32 : BitVec 32) = FKind.add.neutral .f32 hφ) (u : Fin 1) :
    multiReduction (F := Ideal) .add [0] S1 v 0x00000000#32 h hφ hacc (ValueIdx.ix1 u) = ∑ j : Fin 384, v (ValueIdx.ix2 j (0 : Fin 1)) := by
  refine (Ideal.multiReduction_add_single v _ h hφ hacc _).trans ?_
  refine Finset.sum_congr rfl fun q _ => congrArg v ?_
  funext a; apply Fin.ext
  match a with
  | ⟨0, _⟩ => rfl
  | ⟨1, _⟩ =>
    show (u : ℕ) = 0
    omega

/-! ## One term of a row's sums -/

theorem hingeTerm (lj lq : BitVec 32) (t : EReal) :
    Scalar.select (IntOp.andi (IntOp.cmpi .ne lj lq) (Ideal.cmp .ogt t (Ideal.ofBits .f32 0x00000000#32))) t
        (Ideal.ofBits .f32 0x00000000#32)
      = if lj ≠ lq ∧ 0 < t then t else 0 := by
  rw [Ideal.ofBits_zero_f32]
  exact select_of_iff (by rw [IntOp.andi_eq_one, IntOp.cmpi_ne, cmp_ogt_iff]) _ _

theorem countTerm (lj lq : BitVec 32) (t : EReal) :
    ((((IntOp.andi (IntOp.cmpi .ne lj lq) (Ideal.cmp .ogt t (Ideal.ofBits .f32 0x24E69595#32))).setWidth 32).toInt : ℝ) : EReal)
      = if lj ≠ lq ∧ Cert.Triplet.eps < t then 1 else 0 := by
  refine (bit_toReal _).trans (if_congr ?_ rfl rfl)
  unfold Cert.Triplet.eps
  rw [IntOp.andi_eq_one, IntOp.cmpi_ne, cmp_ogt_iff]

/-! ## One trip -/

theorem pay9_apply (i : grid1.Coords) (x1 : Vec Ideal S1x384 .i32) (k : Fin k1_t1_loop.trips) (a : FVec Ideal S1x1 .f32)
    (w : Elt Ideal .i32) (r : Vec Ideal S1x384 .f32) :
    k1_pay9 (F := Ideal) i x1 k a w r (ValueIdx.ix2 (0 : Fin 1) (0 : Fin 1))
      = a (ValueIdx.ix2 (0 : Fin 1) (0 : Fin 1))
        + Cert.Triplet.anchorHingeA (fun q => r (ValueIdx.ix2 (0 : Fin 1) q)) (fun q => x1 (ValueIdx.ix2 (0 : Fin 1) q)) w (anchorIx i k) := by
  unfold k1_pay9
  dsimp only
  rw [ValueIdx.addf_apply, ValueIdx.shapeCast_a_1a_apply]
  refine congrArg (a (ValueIdx.ix2 (0 : Fin 1) (0 : Fin 1)) + ·) ?_
  refine (colSum_apply _ _ _ _ _).trans ?_
  unfold Cert.Triplet.anchorHingeA
  refine Finset.sum_congr rfl fun j _ => ?_
  rw [ValueIdx.mulf_apply, shapeCast_a_a1_apply, pay8_apply]
  refine congrArg (Cert.Triplet.posWA _ w (anchorIx i k) j * ·) ?_
  refine (rowSum_apply _ _ _ _ j).trans ?_
  unfold Cert.Triplet.hingeRowA
  refine Finset.sum_congr rfl fun q _ => ?_
  rw [ValueIdx.select_apply, andi_apply', ValueIdx.cmpf_apply, ValueIdx.broadcast_apply, pay4_apply, pay7_apply]
  exact hingeTerm _ _ _

theorem pay10_apply (i : grid1.Coords) (x1 : Vec Ideal S1x384 .i32) (k : Fin k1_t1_loop.trips) (a : FVec Ideal S1x1 .f32)
    (w : Elt Ideal .i32) (r : Vec Ideal S1x384 .f32) :
    k1_pay10 (F := Ideal) i x1 k a w r (ValueIdx.ix2 (0 : Fin 1) (0 : Fin 1))
      = a (ValueIdx.ix2 (0 : Fin 1) (0 : Fin 1))
        + Cert.Triplet.anchorCountA (fun q => r (ValueIdx.ix2 (0 : Fin 1) q)) (fun q => x1 (ValueIdx.ix2 (0 : Fin 1) q)) w (anchorIx i k) := by
  unfold k1_pay10
  dsimp only
  rw [ValueIdx.addf_apply, ValueIdx.shapeCast_a_1a_apply]
  refine congrArg (a (ValueIdx.ix2 (0 : Fin 1) (0 : Fin 1)) + ·) ?_
  refine (colSum_apply _ _ _ _ _).trans ?_
  unfold Cert.Triplet.anchorCountA
  refine Finset.sum_congr rfl fun j _ => ?_
  rw [ValueIdx.mulf_apply, shapeCast_a_a1_apply, pay8_apply]
  refine congrArg (Cert.Triplet.posWA _ w (anchorIx i k) j * ·) ?_
  refine (rowSum_apply _ _ _ _ j).trans ?_
  unfold Cert.Triplet.countRowA
  refine Finset.sum_congr rfl fun q _ => ?_
  rw [ValueIdx.sitofp_apply, ValueIdx.extui_apply, andi_apply', ValueIdx.cmpf_apply, ValueIdx.broadcast_apply, pay4_apply, pay7_apply]
  exact countTerm _ _ _

/-! ## The carried pair after `n` trips -/

theorem pay5_apply : (k1_pay5 (F := Ideal)) (ValueIdx.ix2 (0 : Fin 1) (0 : Fin 1)) = 0 := by
  unfold k1_pay5; exact Ideal.ofBits_zero_f32

theorem pay6_apply : (k1_pay6 (F := Ideal)) (ValueIdx.ix2 (0 : Fin 1) (0 : Fin 1)) = 0 := by
  unfold k1_pay6; exact Ideal.ofBits_zero_f32

theorem pay1_apply (j : S8x128.Idx) : (k1_pay1 (F := Ideal)) j = 0 := by
  unfold k1_pay1; exact Ideal.ofBits_zero_f32

/-- The sum of the terms below `n + 1` is the sum of the terms below `n` plus the term at `n`. -/
theorem sum_lt_succ {N : ℕ} (f : Fin N → EReal) (n : ℕ) (h : n < N) :
    (∑ k : Fin N, if k.val < n + 1 then f k else 0) = (∑ k : Fin N, if k.val < n then f k else 0) + f ⟨n, h⟩ := by
  have key : ∀ k : Fin N, (if k.val < n + 1 then f k else 0)
      = (if k.val < n then f k else 0) + (if k = ⟨n, h⟩ then f k else 0) := by
    intro k
    by_cases h1 : k.val < n
    · have h2 : k.val < n + 1 := by omega
      have h3 : ¬ k = ⟨n, h⟩ := fun e => by rw [e] at h1; exact absurd h1 (Nat.lt_irrefl n)
      simp only [if_pos h1, if_pos h2, if_neg h3, add_zero]
    · by_cases h3 : k = ⟨n, h⟩
      · have h2 : k.val < n + 1 := by rw [h3]; exact Nat.lt_succ_self n
        simp only [if_neg h1, if_pos h2, if_pos h3, zero_add]
      · have h2 : ¬ k.val < n + 1 := fun h5 => h3 (Fin.ext (by show k.val = n; omega))
        simp only [if_neg h1, if_neg h2, if_neg h3, add_zero]
  rw [Finset.sum_congr rfl fun k _ => key k, Finset.sum_add_distrib, Finset.sum_ite_eq', if_pos (Finset.mem_univ _)]

theorem accAt_succ_pos (i : grid1.Coords) (tb : Vec Ideal S384 .i32) (x0 : Vec Ideal S64x384 .f32) (x1 : Vec Ideal S1x384 .i32)
    (n : ℕ) (h : n < k1_t1_loop.trips) :
    accAt (F := Ideal) i tb x0 x1 (n + 1)
      = (k1_pay9 i x1 ⟨n, h⟩ (accAt i tb x0 x1 n).1 (wordAt i tb ⟨n, h⟩) (rowAt x0 ⟨n, h⟩),
         k1_pay10 i x1 ⟨n, h⟩ (accAt i tb x0 x1 n).2 (wordAt i tb ⟨n, h⟩) (rowAt x0 ⟨n, h⟩)) := by
  simp only [accAt, dif_pos h]

theorem accAt_succ_neg (i : grid1.Coords) (tb : Vec Ideal S384 .i32) (x0 : Vec Ideal S64x384 .f32) (x1 : Vec Ideal S1x384 .i32)
    (n : ℕ) (h : ¬ n < k1_t1_loop.trips) :
    accAt (F := Ideal) i tb x0 x1 (n + 1) = accAt i tb x0 x1 n := by
  simp only [accAt, dif_neg h]

theorem accAt_fst (i : grid1.Coords) (tb : Vec Ideal S384 .i32) (x0 : Vec Ideal S64x384 .f32) (x1 : Vec Ideal S1x384 .i32) (n : ℕ) :
    (accAt (F := Ideal) i tb x0 x1 n).1 (ValueIdx.ix2 (0 : Fin 1) (0 : Fin 1))
      = ∑ k : Fin k1_t1_loop.trips, if k.val < n then
          Cert.Triplet.anchorHingeA (fun q => x0 (ValueIdx.ix2 (⟨k.val, trip_lt k⟩ : Fin 64) q))
            (fun q => x1 (ValueIdx.ix2 (0 : Fin 1) q)) (tb (ValueIdx.ix1 (anchorIx i k))) (anchorIx i k) else 0 := by
  induction n with
  | zero =>
    show (k1_pay5 (F := Ideal)) (ValueIdx.ix2 (0 : Fin 1) (0 : Fin 1)) = _
    rw [pay5_apply]
    exact (Finset.sum_eq_zero fun k _ => if_neg (Nat.not_lt_zero _)).symm
  | succ n ih =>
    by_cases h : n < k1_t1_loop.trips
    · rw [sum_lt_succ _ n h, ← ih, accAt_succ_pos i tb x0 x1 n h]
      exact pay9_apply i x1 ⟨n, h⟩ _ _ _
    · rw [accAt_succ_neg i tb x0 x1 n h, ih]
      refine Finset.sum_congr rfl fun k _ => ?_
      have hk := k.isLt
      rw [if_pos (show k.val < n by omega), if_pos (show k.val < n + 1 by omega)]

theorem accAt_snd (i : grid1.Coords) (tb : Vec Ideal S384 .i32) (x0 : Vec Ideal S64x384 .f32) (x1 : Vec Ideal S1x384 .i32) (n : ℕ) :
    (accAt (F := Ideal) i tb x0 x1 n).2 (ValueIdx.ix2 (0 : Fin 1) (0 : Fin 1))
      = ∑ k : Fin k1_t1_loop.trips, if k.val < n then
          Cert.Triplet.anchorCountA (fun q => x0 (ValueIdx.ix2 (⟨k.val, trip_lt k⟩ : Fin 64) q))
            (fun q => x1 (ValueIdx.ix2 (0 : Fin 1) q)) (tb (ValueIdx.ix1 (anchorIx i k))) (anchorIx i k) else 0 := by
  induction n with
  | zero =>
    show (k1_pay6 (F := Ideal)) (ValueIdx.ix2 (0 : Fin 1) (0 : Fin 1)) = _
    rw [pay6_apply]
    exact (Finset.sum_eq_zero fun k _ => if_neg (Nat.not_lt_zero _)).symm
  | succ n ih =>
    by_cases h : n < k1_t1_loop.trips
    · rw [sum_lt_succ _ n h, ← ih, accAt_succ_pos i tb x0 x1 n h]
      exact pay10_apply i x1 ⟨n, h⟩ _ _ _
    · rw [accAt_succ_neg i tb x0 x1 n h, ih]
      refine Finset.sum_congr rfl fun k _ => ?_
      have hk := k.isLt
      rw [if_pos (show k.val < n by omega), if_pos (show k.val < n + 1 by omega)]

/-! ## The stored block at row 0, columns 0 and 1 -/

theorem pay11_apply_00 (a0 a1 : FVec Ideal S1x1 .f32) (v : Vec Ideal S8x128 .f32) :
    k1_pay11 (F := Ideal) a0 a1 v (ValueIdx.ix2 (0 : Fin 8) (0 : Fin 128))
      = v (ValueIdx.ix2 (0 : Fin 8) (0 : Fin 128)) + a0 (ValueIdx.ix2 (0 : Fin 1) (0 : Fin 1)) := by
  unfold k1_pay11
  rw [ValueIdx.addf_apply, shapeCast_same_apply]
  refine congrArg (v (ValueIdx.ix2 (0 : Fin 8) (0 : Fin 128)) + ·) ?_
  refine (concatenate_pair_apply_left (t := S8x128) (s₁ := S1x128) (s₂ := S7x128) 0 _ _ _ _ rfl (ValueIdx.ix2 (0 : Fin 1) (0 : Fin 128))
    (fun b => match b with | ⟨0, _⟩ => rfl | ⟨1, _⟩ => rfl)).trans ?_
  refine (concatenate_pair_apply_left (t := S1x128) (s₁ := S1x2) (s₂ := S1x126) 1 _ _ _ _ rfl (ValueIdx.ix2 (0 : Fin 1) (0 : Fin 2))
    (fun b => match b with | ⟨0, _⟩ => rfl | ⟨1, _⟩ => rfl)).trans ?_
  exact concatenate_pair_apply_left (t := S1x2) (s₁ := S1x1) (s₂ := S1x1) 1 _ _ _ _ rfl (ValueIdx.ix2 (0 : Fin 1) (0 : Fin 1))
    (fun b => match b with | ⟨0, _⟩ => rfl | ⟨1, _⟩ => rfl)

theorem pay11_apply_01 (a0 a1 : FVec Ideal S1x1 .f32) (v : Vec Ideal S8x128 .f32) :
    k1_pay11 (F := Ideal) a0 a1 v (ValueIdx.ix2 (0 : Fin 8) (1 : Fin 128))
      = v (ValueIdx.ix2 (0 : Fin 8) (1 : Fin 128)) + a1 (ValueIdx.ix2 (0 : Fin 1) (0 : Fin 1)) := by
  unfold k1_pay11
  rw [ValueIdx.addf_apply, shapeCast_same_apply]
  refine congrArg (v (ValueIdx.ix2 (0 : Fin 8) (1 : Fin 128)) + ·) ?_
  refine (concatenate_pair_apply_left (t := S8x128) (s₁ := S1x128) (s₂ := S7x128) 0 _ _ _ _ rfl (ValueIdx.ix2 (0 : Fin 1) (1 : Fin 128))
    (fun b => match b with | ⟨0, _⟩ => rfl | ⟨1, _⟩ => rfl)).trans ?_
  refine (concatenate_pair_apply_left (t := S1x128) (s₁ := S1x2) (s₂ := S1x126) 1 _ _ _ _ rfl (ValueIdx.ix2 (0 : Fin 1) (1 : Fin 2))
    (fun b => match b with | ⟨0, _⟩ => rfl | ⟨1, _⟩ => rfl)).trans ?_
  exact concatenate_pair_apply_right (t := S1x2) (s₁ := S1x1) (s₂ := S1x1) 1 _ _ _ _ rfl rfl (ValueIdx.ix2 (0 : Fin 1) (0 : Fin 1))
    (fun b => match b with | ⟨0, _⟩ => fun _ => rfl | ⟨1, _⟩ => fun hne => absurd rfl hne) rfl

/-- The buffer's contents the trips add to, at an index: zero at the first point of a row of the grid. -/
theorem base_apply (i : grid1.Coords) (d : Vec Ideal S8x128 .f32) (j : S8x128.Idx) :
    (if (i 1).val = 0 then k1_pay1 (F := Ideal) else d) j = if (i 1).val = 0 then 0 else d j := by
  split
  · exact pay1_apply j
  · rfl

/-- The tile's hinge sum and count: over the tile's trips, the anchor's share. -/
def tileHinge (i : grid1.Coords) (tb : Vec Ideal S384 .i32) (x0 : Vec Ideal S64x384 .f32) (x1 : Vec Ideal S1x384 .i32) : EReal :=
  ∑ k : Fin k1_t1_loop.trips, Cert.Triplet.anchorHingeA (fun q => x0 (ValueIdx.ix2 (⟨k.val, trip_lt k⟩ : Fin 64) q))
    (fun q => x1 (ValueIdx.ix2 (0 : Fin 1) q)) (tb (ValueIdx.ix1 (anchorIx i k))) (anchorIx i k)
def tileCount (i : grid1.Coords) (tb : Vec Ideal S384 .i32) (x0 : Vec Ideal S64x384 .f32) (x1 : Vec Ideal S1x384 .i32) : EReal :=
  ∑ k : Fin k1_t1_loop.trips, Cert.Triplet.anchorCountA (fun q => x0 (ValueIdx.ix2 (⟨k.val, trip_lt k⟩ : Fin 64) q))
    (fun q => x1 (ValueIdx.ix2 (0 : Fin 1) q)) (tb (ValueIdx.ix1 (anchorIx i k))) (anchorIx i k)

theorem out1_2_00 (i : grid1.Coords) (tb : Vec Ideal S384 .i32) (x0 : Vec Ideal S64x384 .f32) (x1 : Vec Ideal S1x384 .i32)
    (d : Vec Ideal S8x128 .f32) :
    out1_2 (F := Ideal) i tb x0 x1 d (ValueIdx.ix2 (0 : Fin 8) (0 : Fin 128))
      = (if (i 1).val = 0 then 0 else d (ValueIdx.ix2 (0 : Fin 8) (0 : Fin 128))) + tileHinge i tb x0 x1 := by
  unfold out1_2 tileHinge
  rw [pay11_apply_00, base_apply, accAt_fst]
  exact congrArg (_ + ·) (Finset.sum_congr rfl fun k _ => if_pos k.isLt)

theorem out1_2_01 (i : grid1.Coords) (tb : Vec Ideal S384 .i32) (x0 : Vec Ideal S64x384 .f32) (x1 : Vec Ideal S1x384 .i32)
    (d : Vec Ideal S8x128 .f32) :
    out1_2 (F := Ideal) i tb x0 x1 d (ValueIdx.ix2 (0 : Fin 8) (1 : Fin 128))
      = (if (i 1).val = 0 then 0 else d (ValueIdx.ix2 (0 : Fin 8) (1 : Fin 128))) + tileCount i tb x0 x1 := by
  unfold out1_2 tileCount
  rw [pay11_apply_01, base_apply, accAt_snd]
  exact congrArg (_ + ·) (Finset.sum_congr rfl fun k _ => if_pos k.isLt)

end Cert.KernelIdeal.Hand

end
-- ==== Proof.StatsSum.lean ====
/-
  The six grid points of the second kernel call as two runs of three: at point (c, j) the body adds to the output block
  the hinge sum and the count of the 64 anchors 192c + 64j … 192c + 64j + 63, the block starting from zeros at j = 0.
  So after the third point of run c the block holds at row 0, columns 0 and 1 the sums over the 192 anchors of half c,
  and the two halves together make the sums over all 384 anchors.
-/
import proofs.«410585_j13030930776533_3_alg».proof.Proof.Region1Value
import proofs.«410585_j13030930776533_3_alg».proof.Proof.Spec
import Idealize.ShloMosaic.Lib.ValueIdx

noncomputable section

open scoped BigOperators

namespace Cert.KernelIdeal.Hand

open Idealize.ShloMosaic Idealize.SL.Sem
open Cert.KernelIdeal Cert.KernelIdeal.Gen

/-- The grid point of run `c`, step `j`. -/
def pt (c : Fin 2) (j : Fin 3) : grid1.Coords := fun a => match a with | ⟨0, _⟩ => c | ⟨1, _⟩ => j

/-- The labels as the table and as a row, and the tile of 64 rows of the distance matrix the point reads. -/
def tbOf (lab : Fin 384 → BitVec 32) : Vec Ideal S384 .i32 := fun y => lab (y 0)
def labRow (lab : Fin 384 → BitVec 32) : Vec Ideal S1x384 .i32 := fun y => lab (y 1)
def tileOf (D : Fin 384 → Fin 384 → EReal) (c : Fin 2) (j : Fin 3) : Vec Ideal S64x384 .f32 :=
  fun y => D ⟨192 * c.val + 64 * j.val + (y 0).val, by
    have h0 := c.isLt; have h1 := j.isLt; have h2 : (y 0).val < 64 := (y 0).isLt; omega⟩ (y 1)

/-- The output block after step `j` of run `c`. -/
def blkAt (D : Fin 384 → Fin 384 → EReal) (lab : Fin 384 → BitVec 32) (c : Fin 2) : (j : ℕ) → j < 3 → Vec Ideal S8x128 .f32
  | 0, h => out1_2 (F := Ideal) (pt c ⟨0, h⟩) (tbOf lab) (tileOf D c ⟨0, h⟩) (labRow lab) (k1_pay1 (F := Ideal))
  | j + 1, h => out1_2 (F := Ideal) (pt c ⟨j + 1, h⟩) (tbOf lab) (tileOf D c ⟨j + 1, h⟩) (labRow lab) (blkAt D lab c j (Nat.lt_of_succ_lt h))

/-! ## The loop runs 64 trips, and a tile's sums are the sums over its 64 anchors -/

theorem trips_eq : k1_t1_loop.trips = 64 := by decide

theorem tileHinge_eq (D : Fin 384 → Fin 384 → EReal) (lab : Fin 384 → BitVec 32) (c : Fin 2) (j : Fin 3) :
    tileHinge (pt c j) (tbOf lab) (tileOf D c j) (labRow lab)
      = ∑ k : Fin k1_t1_loop.trips, Cert.Triplet.anchorHinge D lab (anchorIx (pt c j) k) := rfl

theorem tileCount_eq (D : Fin 384 → Fin 384 → EReal) (lab : Fin 384 → BitVec 32) (c : Fin 2) (j : Fin 3) :
    tileCount (pt c j) (tbOf lab) (tileOf D c j) (labRow lab)
      = ∑ k : Fin k1_t1_loop.trips, Cert.Triplet.anchorCount D lab (anchorIx (pt c j) k) := rfl

/-! ## The block after the three steps of a run -/

theorem blk_hinge (D : Fin 384 → Fin 384 → EReal) (lab : Fin 384 → BitVec 32) (c : Fin 2) :
    blkAt D lab c 2 (by decide) (ValueIdx.ix2 (0 : Fin 8) (0 : Fin 128))
      = ∑ j : Fin 3, ∑ k : Fin k1_t1_loop.trips, Cert.Triplet.anchorHinge D lab (anchorIx (pt c j) k) := by
  rw [Fin.sum_univ_three, ← tileHinge_eq, ← tileHinge_eq, ← tileHinge_eq]
  show out1_2 (F := Ideal) (pt c 2) (tbOf lab) (tileOf D c 2) (labRow lab)
      (out1_2 (F := Ideal) (pt c 1) (tbOf lab) (tileOf D c 1) (labRow lab)
        (out1_2 (F := Ideal) (pt c 0) (tbOf lab) (tileOf D c 0) (labRow lab) (k1_pay1 (F := Ideal))))
      (ValueIdx.ix2 (0 : Fin 8) (0 : Fin 128)) = _
  rw [out1_2_00, out1_2_00, out1_2_00, if_neg (show ¬ (pt c 2 1).val = 0 from fun h => absurd (show (2 : ℕ) = 0 from h) (by decide)),
    if_neg (show ¬ (pt c 1 1).val = 0 from fun h => absurd (show (1 : ℕ) = 0 from h) (by decide)), if_pos (show (pt c 0 1).val = 0 from rfl), zero_add]

theorem blk_count (D : Fin 384 → Fin 384 → EReal) (lab : Fin 384 → BitVec 32) (c : Fin 2) :
    blkAt D lab c 2 (by decide) (ValueIdx.ix2 (0 : Fin 8) (1 : Fin 128))
      = ∑ j : Fin 3, ∑ k : Fin k1_t1_loop.trips, Cert.Triplet.anchorCount D lab (anchorIx (pt c j) k) := by
  rw [Fin.sum_univ_three, ← tileCount_eq, ← tileCount_eq, ← tileCount_eq]
  show out1_2 (F := Ideal) (pt c 2) (tbOf lab) (tileOf D c 2) (labRow lab)
      (out1_2 (F := Ideal) (pt c 1) (tbOf lab) (tileOf D c 1) (labRow lab)
        (out1_2 (F := Ideal) (pt c 0) (tbOf lab) (tileOf D c 0) (labRow lab) (k1_pay1 (F := Ideal))))
      (ValueIdx.ix2 (0 : Fin 8) (1 : Fin 128)) = _
  rw [out1_2_01, out1_2_01, out1_2_01, if_neg (show ¬ (pt c 2 1).val = 0 from fun h => absurd (show (2 : ℕ) = 0 from h) (by decide)),
    if_neg (show ¬ (pt c 1 1).val = 0 from fun h => absurd (show (1 : ℕ) = 0 from h) (by decide)), if_pos (show (pt c 0 1).val = 0 from rfl), zero_add]

/-! ## The six tiles of 64 anchors cover the 384 anchors once each -/

theorem sum_blocks (f : Fin 384 → EReal) :
    ∑ c : Fin 2, ∑ j : Fin 3, ∑ k : Fin k1_t1_loop.trips, f (anchorIx (pt c j) k) = ∑ i, f i := by
  let g : ℕ → EReal := fun n => if h : n < 384 then f ⟨n, h⟩ else 0
  have hg : ∀ a : Fin 384, f a = g a.val := fun a => by
    show f a = (if h : a.val < 384 then f ⟨a.val, h⟩ else 0)
    rw [dif_pos a.isLt]
  have hR : ∀ (c : Fin 2) (j : Fin 3) (a : ℕ), 192 * c.val + 64 * j.val = a →
      ∑ k : Fin k1_t1_loop.trips, f (anchorIx (pt c j) k) = ∑ x ∈ Finset.range 64, g (a + x) := by
    intro c j a ha
    subst ha
    have e : ∑ k : Fin k1_t1_loop.trips, f (anchorIx (pt c j) k)
        = ∑ k : Fin k1_t1_loop.trips, (fun n => g (192 * c.val + 64 * j.val + n)) k.val :=
      Finset.sum_congr rfl fun k _ => hg _
    rw [e, Fin.sum_univ_eq_sum_range (fun n => g (192 * c.val + 64 * j.val + n)) k1_t1_loop.trips, trips_eq]
  have hall : ∑ i, f i = ∑ n ∈ Finset.range 384, g n := by
    rw [← Fin.sum_univ_eq_sum_range g 384]
    exact Finset.sum_congr rfl fun a _ => hg a
  have h1 : ∑ n ∈ Finset.range 384, g n = ∑ n ∈ Finset.range 320, g n + ∑ x ∈ Finset.range 64, g (320 + x) :=
    Finset.sum_range_add g 320 64
  have h2 : ∑ n ∈ Finset.range 320, g n = ∑ n ∈ Finset.range 256, g n + ∑ x ∈ Finset.range 64, g (256 + x) :=
    Finset.sum_range_add g 256 64
  have h3 : ∑ n ∈ Finset.range 256, g n = ∑ n ∈ Finset.range 192, g n + ∑ x ∈ Finset.range 64, g (192 + x) :=
    Finset.sum_range_add g 192 64
  have h4 : ∑ n ∈ Finset.range 192, g n = ∑ n ∈ Finset.range 128, g n + ∑ x ∈ Finset.range 64, g (128 + x) :=
    Finset.sum_range_add g 128 64
  have h5 : ∑ n ∈ Finset.range 128, g n = ∑ n ∈ Finset.range 64, g n + ∑ x ∈ Finset.range 64, g (64 + x) :=
    Finset.sum_range_add g 64 64
  rw [Fin.sum_univ_two, Fin.sum_univ_three, Fin.sum_univ_three,
    hR 0 0 0 rfl, hR 0 1 64 rfl, hR 0 2 128 rfl, hR 1 0 192 rfl, hR 1 1 256 rfl, hR 1 2 320 rfl, hall, h1, h2, h3, h4, h5]
  simp only [zero_add, add_assoc]

theorem stats_hinge (D : Fin 384 → Fin 384 → EReal) (lab : Fin 384 → BitVec 32) :
    blkAt D lab 0 2 (by decide) (ValueIdx.ix2 (0 : Fin 8) (0 : Fin 128)) + blkAt D lab 1 2 (by decide) (ValueIdx.ix2 (0 : Fin 8) (0 : Fin 128))
      = Cert.Triplet.sumTlK D lab := by
  rw [blk_hinge, blk_hinge]
  unfold Cert.Triplet.sumTlK
  rw [← sum_blocks (fun i => Cert.Triplet.anchorHinge D lab i), Fin.sum_univ_two]

theorem stats_count (D : Fin 384 → Fin 384 → EReal) (lab : Fin 384 → BitVec 32) :
    blkAt D lab 0 2 (by decide) (ValueIdx.ix2 (0 : Fin 8) (1 : Fin 128)) + blkAt D lab 1 2 (by decide) (ValueIdx.ix2 (0 : Fin 8) (1 : Fin 128))
      = Cert.Triplet.numPosK D lab := by
  rw [blk_count, blk_count]
  unfold Cert.Triplet.numPosK
  rw [← sum_blocks (fun i => Cert.Triplet.anchorCount D lab i), Fin.sum_univ_two]

end Cert.KernelIdeal.Hand

end
-- ==== Proof.BlockAt.lean ====
/-
  The output block of the second kernel call after each grid point, at the ideal instance, as the specification's
  block of the launch memory's embeddings and labels: point 3r + j of the grid is step j of run r; there the call
  reads tile (r, j) of the distance matrix (rows 192r + 64j … 192r + 64j + 63), the labels as a row and the labels
  table, and a run's first step starts from zeros whatever the buffer held.
-/
import proofs.«410585_j13030930776533_3_alg».proof.Proof.DistArray
import proofs.«410585_j13030930776533_3_alg».proof.Proof.StatsSum
import Idealize.ShloMosaic.Lib.ValueIdx
import Idealize.ShloMosaic.Lib.Pipeline.Value

noncomputable section

open scoped BigOperators

namespace Cert.KernelIdeal.Hand

open Idealize.ShloMosaic Idealize.ShloMosaic.TcCoe Idealize.SL.Sem
open Idealize.ShloMosaic.Pipeline (Dat Cfg Window)
open Cert.KernelIdeal Cert.KernelIdeal.Gen

variable (m : (ℓ : Loc nD τ sig) → Buf (Elt Ideal) ℓ)

/-- The second call's grid has six points. -/
theorem N1_eq : (cfg1 (F := Ideal) (adm1 m)).N = 6 := N_1

namespace BlockAt

/-! ## The six points as two runs of three steps -/

/-- Point 3r + j has coordinates (r, j). -/
theorem coords_closed : ∀ (t : Fin grid1.N) (r : Fin 2) (j : Fin 3), t.val = 3 * r.val + j.val →
    ((grid1.coords t) 0).val = r.val ∧ ((grid1.coords t) 1).val = j.val := by decide +kernel

theorem coords_pt (t : Fin (cfg1 (F := Ideal) (adm1 m)).N) (r : Fin 2) (j : Fin 3) (ht : t.val = 3 * r.val + j.val) :
    (cfg1 (F := Ideal) (adm1 m)).grid.coords t = pt r j := by
  have h := coords_closed t r j ht
  funext a
  match a with
  | ⟨0, _⟩ => exact Fin.ext h.1
  | ⟨1, _⟩ => exact Fin.ext h.2

/-- The tile's block index at a point is (the point's number, 0); the labels row's is (0, 0). -/
theorem index0_closed : ∀ t : Fin grid1.N,
    cc1_transform_0 (grid1.coords t) 0 = t.val ∧ cc1_transform_0 (grid1.coords t) 1 = 0 := by decide +kernel
theorem index1_closed : ∀ t : Fin grid1.N,
    cc1_transform_1 (grid1.coords t) 0 = 0 ∧ cc1_transform_1 (grid1.coords t) 1 = 0 := by decide +kernel

/-! ## What the point reads -/

/-- The labels table is the launch memory's labels. -/
theorem tbl_eq (c : Dev nD) : tbl1 (F := Ideal) (adm1 m) = tbOf (LAB0 m c) := by
  obtain rfl := core_eq c
  funext y
  show (Vin1 (F := Ideal) m 0 main_arg1 : IVec S384 32) y = LAB0 m 0 (y 0)
  exact (congrFun (labels_tbl m 0) y).trans (congrArg _ (ValueIdx.eq_ix1 y))

/-- The tile the point reads is tile (r, j) of the distance matrix: its row y is row 64(3r + j) + y of the matrix. -/
theorem tile_eq (c : Dev nD) (t : Fin (cfg1 (F := Ideal) (adm1 m)).N) (r : Fin 2) (j : Fin 3)
    (ht : t.val = 3 * r.val + j.val) :
    (iblk1 (Vin1 (F := Ideal) m) (adm1 m) c 0 t : Vec Ideal S64x384 .f32)
      = tileOf (Cert.Triplet.dist (X0 m c)) r j := by
  have hi := index0_closed t
  refine funext fun (y : S64x384.Idx) => ?_
  refine Eq.trans ?_ (dist_array m c ⟨192 * r.val + 64 * j.val + (y 0).val, by
    have h0 := r.isLt; have h1 := j.isLt; have h2 : (y 0).val < 64 := (y 0).isLt; omega⟩ (y 1))
  show Vin1 (F := Ideal) m c main_v1 ((((cfg1 (F := Ideal) (adm1 m)).win 0).blk t).view.emb y)
    = Vin1 (F := Ideal) m c main_v1 _
  congr 1
  funext a
  apply Fin.ext
  match a with
  | ⟨0, _⟩ =>
    show cc1_transform_0 (grid1.coords t) 0 * 64 + 1 * (y 0).val = 192 * r.val + 64 * j.val + (y 0).val
    rw [hi.1, ht]; omega
  | ⟨1, _⟩ =>
    show cc1_transform_0 (grid1.coords t) 1 * 384 + 1 * (y 1).val = (y 1).val
    rw [hi.2]; omega

/-- The labels row the point reads is the whole row. -/
theorem labrow_eq (c : Dev nD) (t : Fin (cfg1 (F := Ideal) (adm1 m)).N) :
    (iblk1 (Vin1 (F := Ideal) m) (adm1 m) c 1 t : Vec Ideal S1x384 .i32) = labRow (LAB0 m c) := by
  have hi := index1_closed t
  refine funext fun (y : S1x384.Idx) => ?_
  refine Eq.trans ?_ (labels_row m c (y 1))
  show Vin1 (F := Ideal) m c main_v0 ((((cfg1 (F := Ideal) (adm1 m)).win 1).blk t).view.emb y)
    = Vin1 (F := Ideal) m c main_v0 _
  congr 1
  funext a
  apply Fin.ext
  match a with
  | ⟨0, _⟩ =>
    have h0 : (y 0).val < 1 := (y 0).isLt
    show cc1_transform_1 (grid1.coords t) 0 * 1 + 1 * (y 0).val = 0
    rw [hi.1]; omega
  | ⟨1, _⟩ =>
    show cc1_transform_1 (grid1.coords t) 1 * 384 + 1 * (y 1).val = (y 1).val
    rw [hi.2]; omega

/-! ## The block after each point -/

theorem out1_2_congr {i i' : grid1.Coords} {tb tb' : Vec Ideal S384 .i32} {x0 x0' : Vec Ideal S64x384 .f32}
    {x1 x1' : Vec Ideal S1x384 .i32} {d d' : Vec Ideal S8x128 .f32}
    (hi : i = i') (ht : tb = tb') (h0 : x0 = x0') (h1 : x1 = x1') (hd : d = d') :
    out1_2 (F := Ideal) i tb x0 x1 d = out1_2 (F := Ideal) i' tb' x0' x1' d' := by
  subst hi ht h0 h1 hd; rfl

/-- At point 3r + j the body computes what the specification's step j of run r does, given the same carried block
    (any carried block at j = 0). -/
theorem point_eq (c : Dev nD) (t : Fin (cfg1 (F := Ideal) (adm1 m)).N) (r : Fin 2) (j : Fin 3)
    (ht : t.val = 3 * r.val + j.val) (d d' : Vec Ideal S8x128 .f32) (hd : j.val ≠ 0 → d = d') :
    out1_2 (F := Ideal) ((cfg1 (F := Ideal) (adm1 m)).grid.coords t) (tbl1 (adm1 m))
        (iblk1 (Vin1 (F := Ideal) m) (adm1 m) c 0 t) (iblk1 (Vin1 (F := Ideal) m) (adm1 m) c 1 t) d
      = out1_2 (F := Ideal) (pt r j) (tbOf (LAB0 m c)) (tileOf (Cert.Triplet.dist (X0 m c)) r j) (labRow (LAB0 m c)) d' := by
  refine (out1_2_congr (d := d) (d' := d) (coords_pt m t r j ht) (tbl_eq m c) (tile_eq m c t r j ht) (labrow_eq m c t) rfl).trans ?_
  by_cases h0 : j.val = 0
  · exact out1_2_reset (show ((pt r j) 1).val = 0 from h0)
  · rw [hd h0]

/-- After point 3r + j the output block is the specification's block of run r after step j. -/
theorem outsAt1_eq (c : Dev nD) : ∀ (n : ℕ) (h : n < (cfg1 (F := Ideal) (adm1 m)).N) (r : Fin 2) (j : ℕ) (hj : j < 3),
    n = 3 * r.val + j →
      outsAt1 (Vin1 (F := Ideal) m) (adm1 m) c n h = blkAt (Cert.Triplet.dist (X0 m c)) (LAB0 m c) r j hj := by
  intro n
  induction n with
  | zero =>
    intro h r j hj e
    have hj0 : j = 0 := by omega
    subst hj0
    rw [outsAt1, blkAt]
    exact point_eq m c ⟨0, h⟩ r ⟨0, hj⟩ e _ _ (fun hne => absurd rfl hne)
  | succ n ih =>
    intro h r j hj e
    cases j with
    | zero =>
      rw [outsAt1, blkAt]
      exact point_eq m c ⟨n + 1, h⟩ r ⟨0, hj⟩ e _ _ (fun hne => absurd rfl hne)
    | succ j =>
      rw [outsAt1, blkAt]
      exact point_eq m c ⟨n + 1, h⟩ r ⟨j + 1, hj⟩ e _ _ (fun _ => ih _ r j _ (by omega))

end BlockAt

/-- After the third point of the first run the output block is the specification's block of run 0 after step 2. -/
theorem outsAt1_two (c : Dev nD) (h : 2 < (cfg1 (F := Ideal) (adm1 m)).N) :
    outsAt1 (Vin1 (F := Ideal) m) (adm1 m) c 2 h
      = blkAt (Cert.Triplet.dist (X0 m c)) (LAB0 m c) 0 2 (by decide) :=
  BlockAt.outsAt1_eq m c 2 h 0 2 (by decide) rfl

/-- After the third point of the second run it is the specification's block of run 1 after step 2. -/
theorem outsAt1_five (c : Dev nD) (h : 5 < (cfg1 (F := Ideal) (adm1 m)).N) :
    outsAt1 (Vin1 (F := Ideal) m) (adm1 m) c 5 h
      = blkAt (Cert.Triplet.dist (X0 m c)) (LAB0 m c) 1 2 (by decide) :=
  BlockAt.outsAt1_eq m c 5 h 1 2 (by decide) rfl

end Cert.KernelIdeal.Hand

end
-- ==== Proof.Tail.lean ====
/-
  The host operations after the second kernel call, read as values at the ideal instance.

  From the 16×128 array of partial results (row 0 holds the first half of the anchors' two sums in its
  columns 0 and 1, row 8 the second half's) and the labels: the loss is the sum of the two halves' hinge sums
  divided by the sum of the two halves' counts plus the threshold; the fraction of positive triplets is
  that count divided by the closed-form number of valid triplets plus the threshold.
-/
import proofs.«410585_j13030930776533_3_alg».proof.Proof.Gen.KernelIdeal.Launch
import proofs.«410585_j13030930776533_3_alg».proof.Proof.Spec
import Idealize.ShloMosaic.Lib.ValueIdx
import Idealize.ShloMosaic.Lib.ValueLayout
import Idealize.ShloMosaic.Lib.StableHlo.Run
import Idealize.ShloMosaic.PureOps.Ideal.Laws
import Idealize.ShloMosaic.Lib.IdealHost

noncomputable section

open scoped BigOperators

namespace Cert.KernelIdeal.TailValue

open Idealize.ShloMosaic Idealize.ShloMosaic.TcCoe Idealize.SL.Sem Idealize.ShloMosaic.ValueIdx
open Cert.KernelIdeal Cert.KernelIdeal.Gen

/-! ## One entry of the partial results, through the slices and reshapes -/

section Pick
variable {α : Type}

/-- Row `r`, column `c` of a 16×128 array, reached as the tail reaches it: the 1×2 corner of row `r`, flattened to a pair,
    its entry `c` cut out and read as a scalar. -/
theorem pick_apply (X : S16x128.Idx → α) (r c : Nat) (hr : r < 16) (hc : c < 2)
    (h1 : S16x128.Slices ![r, 0] S1x2) (h2 : S1x2.ShapeCasts S2) (h3 : S2.Slices ![c] S1) (h4 : S1.ShapeCasts S_)
    (j : S_.Idx) :
    shapeCast S_ (extractStridedSlice S1 ![c] (fun i => shapeCast S2 (extractStridedSlice S1x2 ![r, 0] X h1) h2 i) h3) h4 j
      = X (ix2 ⟨r, hr⟩ ⟨c, Nat.lt_trans hc (by decide)⟩) := by
  refine (shapeCast_apply _ h4 j (ValueIdx.ix1 (0 : Fin 1)) ?_).trans ?_
  · rw [Shape.rowMajor_val_one]; exact (Shape.rowMajorPi_zero _ _).symm
  refine (extractStridedSlice_apply ![c] _ h3 (ValueIdx.ix1 (0 : Fin 1)) (ValueIdx.ix1 (⟨c, hc⟩ : Fin 2)) (fun a => ?_)).trans ?_
  · match a with
    | ⟨0, _⟩ => rfl
  refine (shapeCast_1a_a_apply _ h2 (⟨c, hc⟩ : Fin 2)).trans ?_
  refine extractStridedSlice_apply ![r, 0] X h1 (ix2 (0 : Fin 1) (⟨c, hc⟩ : Fin 2)) _ (fun a => ?_)
  match a with
  | ⟨0, _⟩ => rfl
  | ⟨1, _⟩ => exact (Nat.zero_add _).symm

end Pick

/-! ## The labels compared pairwise, and the count of equal labels per anchor -/

section Count

variable (L : IVec S384 32)
  (hb1 : S384.BroadcastsInDim S384x1 (![0] : Fin 1 → Fin S384x1.rank))
  (hb2 : S384.BroadcastsInDim S1x384 (![1] : Fin 1 → Fin S1x384.rank))
  (hb3 : S384x1.BroadcastsInDim S384x384 (![0, 1] : Fin 2 → Fin S384x384.rank))
  (hb4 : S1x384.BroadcastsInDim S384x384 (![0, 1] : Fin 2 → Fin S384x384.rank))

/-- The labels as a column, repeated along the rows: entry `(i, k)` is label `i`. -/
theorem col_apply (i k : Fin 384) :
    broadcastInDim S384x384 ![0, 1] hb3 (broadcastInDim S384x1 ![0] hb1 L) (ix2 i k) = L (ValueIdx.ix1 i) := by
  refine (broadcastInDim_apply _ hb3 _ (ix2 i k) (ix2 i (0 : Fin 1)) (fun a => ?_)).trans ?_
  · match a with
    | ⟨0, _⟩ => rfl
    | ⟨1, _⟩ => rfl
  refine broadcastInDim_apply _ hb1 L (ix2 i (0 : Fin 1)) (ValueIdx.ix1 i) (fun a => ?_)
  match a with
  | ⟨0, _⟩ => rfl

/-- The labels as a row, repeated along the columns: entry `(i, k)` is label `k`. -/
theorem row_apply (i k : Fin 384) :
    broadcastInDim S384x384 ![0, 1] hb4 (broadcastInDim S1x384 ![1] hb2 L) (ix2 i k) = L (ValueIdx.ix1 k) := by
  refine (broadcastInDim_apply _ hb4 _ (ix2 i k) (ix2 (0 : Fin 1) k) (fun a => ?_)).trans ?_
  · match a with
    | ⟨0, _⟩ => rfl
    | ⟨1, _⟩ => rfl
  refine broadcastInDim_apply _ hb2 L (ix2 (0 : Fin 1) k) (ValueIdx.ix1 k) (fun a => ?_)
  match a with
  | ⟨0, _⟩ => rfl

/-- The one-bit outcome of comparing two words for equality, read unsigned as a number: 1 or 0. -/
theorem eqEntry (a b : BitVec 32) :
    (FloatOps.uitofp (F := Ideal) .f32 (IntOp.cmpi .eq a b) : EReal) = if a = b then 1 else 0 := by
  show (((IntOp.cmpi .eq a b).toNat : ℝ) : EReal) = _
  by_cases h : a = b
  · subst h
    simp [IntOp.cmpi]
  · simp [IntOp.cmpi, h]

/-- The row sum of the equality array at anchor `i`: how many indices carry anchor `i`'s label. -/
theorem cnt_apply (hr : S384x384.ReducesTo [1] S384) (hu : 0 < S_.numel) (i : Fin 384) :
    Host.reduceAdd (F := Ideal)
        (uitofp .f32 (cmpi .eq (broadcastInDim S384x384 ![0, 1] hb3 (broadcastInDim S384x1 ![0] hb1 L))
          (broadcastInDim S384x384 ![0, 1] hb4 (broadcastInDim S1x384 ![1] hb2 L))))
        (constant (F := Ideal) S_ .f32 0#32) hr hu (ValueIdx.ix1 i)
      = Cert.Triplet.cntEq (fun i => L (ValueIdx.ix1 i)) i := by
  have hR : S384x384.Reduces [1] S384 := by decide
  show Ideal.hostReduceAdd hr _ (constant (F := Ideal) S_ .f32 0#32 _) (ValueIdx.ix1 i) = _
  rw [Ideal.hostReduceAdd_single hr hR, constant_apply, Ideal.ofBits_zero_f32, zero_add]
  unfold Cert.Triplet.cntEq
  refine Finset.sum_congr rfl fun (k : Fin 384) _ => ?_
  have hl : hR.lift (ValueIdx.ix1 i) k = ix2 i k := by
    funext a
    match a with
    | ⟨0, _⟩ => exact Fin.ext rfl
    | ⟨1, _⟩ => exact Fin.ext rfl
  rw [hl]
  show FloatOps.uitofp (F := Ideal) .f32 (IntOp.cmpi .eq
      (broadcastInDim S384x384 ![0, 1] hb3 (broadcastInDim S384x1 ![0] hb1 L) (ix2 i k))
      (broadcastInDim S384x384 ![0, 1] hb4 (broadcastInDim S1x384 ![1] hb2 L) (ix2 i k))) = _
  rw [col_apply, row_apply, eqEntry]

end Count

/-! ## The constants, the scalar broadcast, and the total -/

/-- The single-precision word of 384. -/
theorem ofBits_384_f32 : Ideal.ofBits .f32 0x43C00000#32 = 384 := by
  rw [show (384 : EReal) = ((384 : ℝ) : EReal) by norm_cast]
  simp [Ideal.ofBits, Ideal.ieee, -EReal.coe_mul]; norm_num

/-- A scalar constant repeated along a vector reads its number everywhere. -/
theorem bcast0_apply (c : BitVec 32) (hb : S_.BroadcastsInDim S384 (![] : Fin 0 → Fin S384.rank)) (i : S384.Idx) :
    broadcastInDim S384 ![] hb (constant (F := Ideal) S_ .f32 c) i = Ideal.ofBits .f32 c :=
  broadcastInDim_apply _ hb _ i ix0 (fun a => a.elim0)

/-- A sum over the indices of a vector of 384 entries is the sum over its coordinate. -/
theorem sum_idx1 (f : S384.Idx → EReal) : ∑ i : S384.Idx, f i = ∑ a : Fin 384, f (ValueIdx.ix1 a) := by
  refine Fintype.sum_equiv ⟨fun i => i 0, fun a => ValueIdx.ix1 a, fun i => (eq_ix1 i).symm, fun _ => rfl⟩ _ _ fun i => ?_
  exact congrArg f (eq_ix1 i)

/-- The sum of a vector of 384 entries over its one axis, from zero. -/
theorem total_apply (P : FVec Ideal S384 .f32) (hr : S384.ReducesTo [0] S_) (hu : 0 < S_.numel) (j : S_.Idx) :
    Host.reduceAdd (F := Ideal) P (constant (F := Ideal) S_ .f32 0#32) hr hu j = ∑ i : Fin 384, P (ValueIdx.ix1 i) := by
  show Ideal.hostReduceAdd hr P (constant (F := Ideal) S_ .f32 0#32 _) j = _
  rw [Ideal.hostReduceAdd_total hr (fun b => b.elim0), constant_apply, Ideal.ofBits_zero_f32, zero_add]
  exact sum_idx1 P

variable (Wv : Valuation τ sig (Elt Ideal))

/-- The partial results as the tail finds them. -/
abbrev stats : FVec Ideal S16x128 .f32 := Wv (Proc.devRef .tc main_v2)
/-- The labels as the tail finds them. -/
abbrev labels : IVec S384 32 := Wv (Proc.devRef .tc main_arg1)

theorem tail_v33 :
    (StableHlo.after (hostOps2 (F := Ideal)) Wv (Proc.devRef .tc main_v33) : FVec Ideal S_ .f32)
      = Cert.Triplet.ratio (stats Wv (ix2 0 0) + stats Wv (ix2 8 0)) (stats Wv (ix2 0 1) + stats Wv (ix2 8 1)) := by
  after_results_simp
  unfold Cert.Triplet.ratio
  refine congrArg₂ (Host.divf (F := Ideal)) ?_ ?_
  · funext j
    exact congrArg₂ (· + ·) (pick_apply (stats Wv) 0 0 (by decide) (by decide) _ _ _ _ j) (pick_apply (stats Wv) 8 0 (by decide) (by decide) _ _ _ _ j)
  · refine congrArg₂ (addf (F := Ideal)) ?_ rfl
    funext j
    exact congrArg₂ (· + ·) (pick_apply (stats Wv) 0 1 (by decide) (by decide) _ _ _ _ j) (pick_apply (stats Wv) 8 1 (by decide) (by decide) _ _ _ _ j)

theorem tail_v31 :
    (StableHlo.after (hostOps2 (F := Ideal)) Wv (Proc.devRef .tc main_v31) : FVec Ideal S_ .f32)
      = Cert.Triplet.ratio (stats Wv (ix2 0 1) + stats Wv (ix2 8 1)) (Cert.Triplet.numValidK fun i => labels Wv (ValueIdx.ix1 i)) := by
  after_results_simp
  unfold Cert.Triplet.ratio
  refine congrArg₂ (Host.divf (F := Ideal)) ?_ ?_
  · funext j
    exact congrArg₂ (· + ·) (pick_apply (stats Wv) 0 1 (by decide) (by decide) _ _ _ _ j) (pick_apply (stats Wv) 8 1 (by decide) (by decide) _ _ _ _ j)
  · refine congrArg₂ (addf (F := Ideal)) ?_ rfl
    funext j
    refine (total_apply _ _ _ j).trans ?_
    unfold Cert.Triplet.numValidK
    refine Finset.sum_congr rfl fun i _ => ?_
    rw [mulf_apply, subf_apply, subf_apply, cnt_apply, bcast0_apply, bcast0_apply, Ideal.ofBits_one_f32, ofBits_384_f32]

end Cert.KernelIdeal.TailValue

end
-- ==== Proof.KernelValue.lean ====
/-
  The kernel program's two results at the ideal instance, as the specification's nested sums of the launch memory's
  embeddings and labels. The stats array the second call leaves holds, in row 0 and in row 8, columns 0 and 1, the
  hinge sum and the count of the anchors of the first and of the second half: the output window's block of a run
  is written back after the run's third point, where its staging buffer holds the three tiles' sums, and the two
  blocks written back (rows 0 to 7, rows 8 to 15) do not meet. The host operations after the calls add the halves
  and divide.
-/
import proofs.«410585_j13030930776533_3_alg».proof.Proof.DistArray
import proofs.«410585_j13030930776533_3_alg».proof.Proof.BlockAt
import proofs.«410585_j13030930776533_3_alg».proof.Proof.Tail
import proofs.«410585_j13030930776533_3_alg».proof.Proof.StatsSum
import Idealize.ShloMosaic.Lib.ValueIdx
import Idealize.ShloMosaic.Lib.Pipeline.Value

noncomputable section

open scoped BigOperators

namespace Cert.KernelIdeal.Hand

open Idealize.ShloMosaic Idealize.ShloMosaic.TcCoe Idealize.SL.Sem
open Idealize.ShloMosaic.Pipeline (Dat Cfg Window)
open Cert.KernelIdeal Cert.KernelIdeal.Gen

variable (m : (ℓ : Loc nD τ sig) → Buf (Elt Ideal) ℓ)

/-! ## The output window's blocks -/

/-- The output window's block index at a point: the point's run on the row axis, zero on the column axis. -/
theorem outIndex_closed : ∀ t : Fin grid1.N,
    cc1_transform_2 (grid1.coords t) 0 = t.val / 3 ∧ cc1_transform_2 (grid1.coords t) 1 = 0 := by decide +kernel

/-- The block of the stats array the output window covers at point `t`: rows `8 (t / 3)` to `8 (t / 3) + 7`, every column. -/
theorem mem_outBlk (t : Fin (cfg1 (F := Ideal) (adm1 m)).N) (i : S16x128.Idx) :
    i ∈ (((cfg1 (F := Ideal) (adm1 m)).win 2).blk t).view.set
      ↔ 8 * (t.val / 3) ≤ (i 0).val ∧ (i 0).val < 8 * (t.val / 3) + 8 := by
  have hs : (((cfg1 (F := Ideal) (adm1 m)).win 2).blk t).view.set = (((cfg1 (F := Ideal) (adm1 m)).win 2).rect t).set :=
    View.set_slice_whole main_v2 _
  refine ((Finset.ext_iff.mp hs i).trans Rect.mem_set_unit).trans ?_
  have h0 : ((cfg1 (F := Ideal) (adm1 m)).win 2).index t (0 : Fin 2) = t.val / 3 := (outIndex_closed t).1
  have h1 : ((cfg1 (F := Ideal) (adm1 m)).win 2).index t (1 : Fin 2) = 0 := (outIndex_closed t).2
  have hi1 : (i 1).val < 128 := (i 1).isLt
  constructor
  · intro h
    have h' : ((cfg1 (F := Ideal) (adm1 m)).win 2).index t (0 : Fin 2) * 8 ≤ (i 0).val
        ∧ (i 0).val < ((cfg1 (F := Ideal) (adm1 m)).win 2).index t (0 : Fin 2) * 8 + 8 := h (0 : Fin 2)
    rw [h0] at h'
    omega
  · intro h a
    match a with
    | ⟨0, _⟩ =>
      show ((cfg1 (F := Ideal) (adm1 m)).win 2).index t (0 : Fin 2) * 8 ≤ (i 0).val
        ∧ (i 0).val < ((cfg1 (F := Ideal) (adm1 m)).win 2).index t (0 : Fin 2) * 8 + 8
      rw [h0]; omega
    | ⟨1, _⟩ =>
      show ((cfg1 (F := Ideal) (adm1 m)).win 2).index t (1 : Fin 2) * 128 ≤ (i 1).val
        ∧ (i 1).val < ((cfg1 (F := Ideal) (adm1 m)).win 2).index t (1 : Fin 2) * 128 + 128
      rw [h1]; omega

/-- The blocks written back after the two runs do not meet: rows 0 to 7 and rows 8 to 15. -/
theorem outBlks_disjoint (t t' : Fin (cfg1 (F := Ideal) (adm1 m)).N)
    (hf : ((cfg1 (F := Ideal) (adm1 m)).win 2).flush t = true) (hf' : ((cfg1 (F := Ideal) (adm1 m)).win 2).flush t' = true) (hne : t ≠ t') :
    Disjoint (((cfg1 (F := Ideal) (adm1 m)).win 2).blk t).view.set (((cfg1 (F := Ideal) (adm1 m)).win 2).blk t').view.set := by
  rw [flush1_2] at hf hf'
  have h1 := of_decide_eq_true hf
  have h2 := of_decide_eq_true hf'
  have h3 : t.val ≠ t'.val := fun e => hne (Fin.ext e)
  rw [Finset.disjoint_left]
  intro i hi hi'
  have e1 := (mem_outBlk m t i).mp hi
  have e2 := (mem_outBlk m t' i).mp hi'
  omega

/-- The array of partial results after the second call, under the block written back after point `t`, holds what
    the output buffer held after that point. -/
theorem stats_at (c : Dev nD) (t : Fin (cfg1 (F := Ideal) (adm1 m)).N)
    (hf : ((cfg1 (F := Ideal) (adm1 m)).win 2).flush t = true) (y : S8x128.Idx) (i : S16x128.Idx)
    (h0 : (i 0).val = 8 * (t.val / 3) + (y 0).val) (h1 : (i 1).val = (y 1).val) :
    (W3 (F := Ideal) m c (Proc.devRef .tc main_v2) : FVec Ideal S16x128 .f32) i
      = outsAt1 (Vin1 (F := Ideal) m) (adm1 m) c t.val t.isLt y := by
  have h := congrFun ((dat1 (Vin1 (F := Ideal) m) (adm1 m) c).read_blk_arrAt_eq_flushed 2 (outBlks_disjoint m) _ t t.isLt hf) y
  have hfl : (dat1 (Vin1 (F := Ideal) m) (adm1 m) c).flushed 2 t y = outsAt1 (Vin1 (F := Ideal) m) (adm1 m) c t.val t.isLt y := by
    show ((cfg1 (F := Ideal) (adm1 m)).win 2).cut ((cfg1 (F := Ideal) (adm1 m)).grid.coords t) ((dat1 (Vin1 (F := Ideal) m) (adm1 m) c).after 2 t) y = _
    rw [after1_2]
    rfl
  have harr : (dat1 (Vin1 (F := Ideal) m) (adm1 m) c).arrAt 2 (cfg1 (F := Ideal) (adm1 m)).N ((((cfg1 (F := Ideal) (adm1 m)).win 2).blk t).view.emb y)
      = (dat1 (Vin1 (F := Ideal) m) (adm1 m) c).flushed 2 t y := h
  have hW : W3 (F := Ideal) m c (Proc.devRef .tc main_v2) = (dat1 (Vin1 (F := Ideal) m) (adm1 m) c).arrAt 2 (cfg1 (F := Ideal) (adm1 m)).N :=
    W3_arr m c 2
  have e0 : ((cfg1 (F := Ideal) (adm1 m)).win 2).index t (0 : Fin 2) = t.val / 3 := (outIndex_closed t).1
  have e1 : ((cfg1 (F := Ideal) (adm1 m)).win 2).index t (1 : Fin 2) = 0 := (outIndex_closed t).2
  have hi : i = (((cfg1 (F := Ideal) (adm1 m)).win 2).blk t).view.emb y := funext fun a => Fin.ext (by
    match a with
    | ⟨0, _⟩ =>
      show (i 0).val = ((cfg1 (F := Ideal) (adm1 m)).win 2).index t (0 : Fin 2) * 8 + 1 * (y 0).val
      rw [e0, h0]; omega
    | ⟨1, _⟩ =>
      show (i 1).val = ((cfg1 (F := Ideal) (adm1 m)).win 2).index t (1 : Fin 2) * 128 + 1 * (y 1).val
      rw [e1, h1]; omega)
  exact (congrFun hW i).trans ((congrArg _ hi).trans (harr.trans hfl))

/-! ## The four entries the host reads, and the results -/

/-- Row 0 of the stats array holds row 0 of the first run's block after its third step, -/
theorem stats_lo (c : Dev nD) (q : Fin 128) :
    (W3 (F := Ideal) m c (Proc.devRef .tc main_v2) : FVec Ideal S16x128 .f32) (ValueIdx.ix2 (0 : Fin 16) q)
      = blkAt (Cert.Triplet.dist (X0 m c)) (LAB0 m c) 0 2 (by decide) (ValueIdx.ix2 (0 : Fin 8) q) := by
  have h2 : 2 < (cfg1 (F := Ideal) (adm1 m)).N := by rw [N1_eq]; decide
  have hf : ((cfg1 (F := Ideal) (adm1 m)).win 2).flush ⟨2, h2⟩ = true :=
    (flush1_2 (adm1 m) ⟨2, h2⟩).trans (decide_eq_true (Or.inl rfl))
  exact (stats_at m c ⟨2, h2⟩ hf (ValueIdx.ix2 (0 : Fin 8) q) (ValueIdx.ix2 (0 : Fin 16) q)
      (by show (0 : ℕ) = 8 * (2 / 3) + 0; rfl) rfl).trans
    (congrFun (outsAt1_two m c h2) _)

/-- and row 8 holds row 0 of the second run's. -/
theorem stats_hi (c : Dev nD) (q : Fin 128) :
    (W3 (F := Ideal) m c (Proc.devRef .tc main_v2) : FVec Ideal S16x128 .f32) (ValueIdx.ix2 (8 : Fin 16) q)
      = blkAt (Cert.Triplet.dist (X0 m c)) (LAB0 m c) 1 2 (by decide) (ValueIdx.ix2 (0 : Fin 8) q) := by
  have h5 : 5 < (cfg1 (F := Ideal) (adm1 m)).N := by rw [N1_eq]; decide
  have hf : ((cfg1 (F := Ideal) (adm1 m)).win 2).flush ⟨5, h5⟩ = true :=
    (flush1_2 (adm1 m) ⟨5, h5⟩).trans (decide_eq_true (Or.inr rfl))
  exact (stats_at m c ⟨5, h5⟩ hf (ValueIdx.ix2 (0 : Fin 8) q) (ValueIdx.ix2 (8 : Fin 16) q)
      (by show (8 : ℕ) = 8 * (5 / 3) + 0; rfl) rfl).trans
    (congrFun (outsAt1_five m c h5) _)

/-- The loss: the two halves' hinge sums and counts added, the sum divided by the count plus the threshold. -/
theorem kernel_v33 (c : Dev nD) :
    (W4 (F := Ideal) m c (Proc.devRef .tc main_v33) : FVec Ideal S_ .f32)
      = Cert.Triplet.ratio (Cert.Triplet.sumTlK (Cert.Triplet.dist (X0 m c)) (LAB0 m c))
          (Cert.Triplet.numPosK (Cert.Triplet.dist (X0 m c)) (LAB0 m c)) := by
  refine (Cert.KernelIdeal.TailValue.tail_v33 (W3 (F := Ideal) m c)).trans ?_
  refine congrArg₂ Cert.Triplet.ratio ?_ ?_
  · exact (congrArg₂ (fun a b : EReal => a + b) (stats_lo m c 0) (stats_hi m c 0)).trans (stats_hinge _ _)
  · exact (congrArg₂ (fun a b : EReal => a + b) (stats_lo m c 1) (stats_hi m c 1)).trans (stats_count _ _)

/-- The fraction of positive triplets: the count divided by the closed-form number of valid triplets of the labels,
    which no call and no host operation changed, plus the threshold. -/
theorem kernel_v31 (c : Dev nD) :
    (W4 (F := Ideal) m c (Proc.devRef .tc main_v31) : FVec Ideal S_ .f32)
      = Cert.Triplet.ratio (Cert.Triplet.numPosK (Cert.Triplet.dist (X0 m c)) (LAB0 m c))
          (Cert.Triplet.numValidK (LAB0 m c)) := by
  refine (Cert.KernelIdeal.TailValue.tail_v31 (W3 (F := Ideal) m c)).trans ?_
  refine congrArg₂ Cert.Triplet.ratio ?_ ?_
  · exact (congrArg₂ (fun a b : EReal => a + b) (stats_lo m c 1) (stats_hi m c 1)).trans (stats_count _ _)
  · exact congrArg Cert.Triplet.numValidK (funext fun i => congrFun (labels_end m c) (ValueIdx.ix1 i))

end Cert.KernelIdeal.Hand

end
-- ==== Proof.RefValue.lean ====
/-
  What the reference computes, at the ideal instance, in the flat arrangement of the specification: its
  distance matrix is `Triplet.dist` of the embeddings; its loss is the sum over all triples of the masked,
  clamped hinge term divided by the number of triples above the threshold plus the threshold; its fraction of
  positive triplets is that number divided by the number of triples the mask admits plus the threshold. The two
  counts are 32-bit integer sums of zeros and ones over 384³ = 56 623 104 triples, below 2³¹, so the signed
  reading of the sum is the count itself.
-/
import proofs.«410585_j13030930776533_3_alg».proof.Defs
import proofs.«410585_j13030930776533_3_alg».proof.Proof.Gen.ReferenceIdeal.Run
import proofs.«410585_j13030930776533_3_alg».proof.Proof.Gen.ReferenceIdeal.Read
import proofs.«410585_j13030930776533_3_alg».proof.Proof.Spec
import Idealize.ShloMosaic.Lib.ValueIdx
import Idealize.ShloMosaic.Lib.StableHlo.Predicate
import Idealize.ShloMosaic.Lib.Affine
import Idealize.ShloMosaic.PureOps.Ideal.Laws
import Idealize.ShloMosaic.Lib.IdealHost

noncomputable section

open scoped BigOperators

namespace Cert.ReferenceIdeal.RefValue

open Idealize.ShloMosaic Idealize.ShloMosaic.TcCoe Idealize.SL.Sem Idealize.ShloMosaic.ValueIdx
open Cert.ReferenceIdeal Cert.ReferenceIdeal.Gen

/-- The embeddings as a matrix by coordinates, the labels as a vector. -/
abbrev X (x0 : (⟨S384x128, .f32⟩ : BufTy).Contents (Elt Ideal)) : Fin 384 → Fin 128 → EReal := fun i d => x0 (ValueIdx.ix2 i d)
abbrev LAB (x1 : (⟨S384, .i32⟩ : BufTy).Contents (Elt Ideal)) : Fin 384 → BitVec 32 := fun i => x1 (ValueIdx.ix1 i)

/-! ## A rank-3 index set is the triple product of its coordinate ranges -/

def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The number of indices satisfying a predicate, counted over the triples. -/
theorem card_filter_idx3 {n0 n1 n2 : Nat} (p : (⟨3, ![n0, n1, n2]⟩ : Shape).Idx → Prop) [DecidablePred p]
    (q : Fin n0 × Fin n1 × Fin n2 → Prop) [DecidablePred q] (hpq : ∀ a b c, p (ix3 a b c) ↔ q (a, b, c)) :
    (Finset.univ.filter p).card = (Finset.univ.filter q).card := by
  refine Finset.card_bij (fun i _ => idxEquiv3 i) ?_ ?_ ?_
  · intro i hi
    rw [Finset.mem_filter] at hi ⊢
    refine ⟨Finset.mem_univ _, ?_⟩
    exact (hpq (i 0) (i 1) (i 2)).1 ((congrArg p (eq_ix3 i)).mp hi.2)
  · intro a _ b _ hab
    exact idxEquiv3.injective hab
  · intro t ht
    rw [Finset.mem_filter] at ht
    refine ⟨idxEquiv3.symm t, ?_, idxEquiv3.apply_symm_apply t⟩
    rw [Finset.mem_filter]
    exact ⟨Finset.mem_univ _, (hpq t.1 t.2.1 t.2.2).2 ht.2⟩

theorem card_idx3_384 : Fintype.card S384x384x384.Idx = 56623104 := by
  rw [Fintype.card_congr (idxEquiv3 (n0 := 384) (n1 := 384) (n2 := 384))]
  simp [Fintype.card_prod]

/-! ## The integer sum of a widened mask over every index counts the set bits -/

theorem reduce_count (mask : IVec S384x384x384 1) (hw : 1 < 32) (h : S384x384x384.ReducesTo [0, 1, 2] S_)
    (hu : 0 < S_.numel) (j : S_.Idx) :
    Host.reduce IntOp.addi (extui 32 mask hw) (constantI S_ 32 0#32) h hu j
      = BitVec.ofNat 32 (Finset.univ.filter fun i => mask i = 1#1).card := by
  classical
  have hfil : (Finset.univ.filter fun i : S384x384x384.Idx => h.drop i = j) = Finset.univ :=
    Finset.filter_true_of_mem fun i _ => funext fun b => b.elim0
  have hsum : ∑ i : S384x384x384.Idx, (extui 32 mask hw i).toNat = (Finset.univ.filter fun i => mask i = 1#1).card := by
    rw [Finset.card_filter]
    exact Finset.sum_congr rfl fun i _ => StableHlo.Predicate.toNat_setWidth_bit (mask i)
  have hle : (Finset.univ.filter fun i => mask i = 1#1).card ≤ 56623104 := by
    rw [← card_idx3_384]; exact Finset.card_le_univ _
  apply BitVec.eq_of_toNat_eq
  rw [Host.reduce_eq_fold, hfil]
  show (Finset.fold IntOp.addi 0#32 (extui 32 mask hw) Finset.univ).toNat = _
  rw [StableHlo.Predicate.toNat_fold_addi _ _ (by rw [hsum]; omega), hsum, BitVec.toNat_ofNat, Nat.mod_eq_of_lt (by omega)]

/-- The signed reading of a count below 2³¹, as an extended real. -/
theorem sitofp_count (n : ℕ) (hn : n ≤ 56623104) :
    (FloatOps.sitofp (F := Ideal) .f32 (BitVec.ofNat 32 n) : EReal) = ((n : ℕ) : EReal) := by
  show (((BitVec.ofNat 32 n).toInt : ℝ) : EReal) = _
  rw [StableHlo.Predicate.toInt_ofNat_small n (by omega)]
  rfl

/-! ## The mask -/

open Cert.ReferenceIdeal.Read

/-- Two index words below 384 are equal exactly when the indices are. -/
theorem iota_eq_iff (a b : Fin 384) :
    IntOp.cmpi .eq (IntOp.addi (BitVec.ofNat 32 a.val) 0#32) (BitVec.ofNat 32 b.val) = 1#1 ↔ a = b := by
  rw [IntOp.cmpi_eq]
  show BitVec.ofNat 32 a.val + 0#32 = BitVec.ofNat 32 b.val ↔ a = b
  rw [BitVec.add_zero]
  constructor
  · intro h
    have h' := congrArg BitVec.toNat h
    simp only [BitVec.toNat_ofNat] at h'
    have ha := a.isLt; have hb := b.isLt
    exact Fin.ext (by omega)
  · rintro rfl; rfl

/-- The "different indices" bit. -/
theorem v26_at (a b : Fin 384) : val_main_v26 (F := Ideal) (ix2 a b) = 1#1 ↔ ¬ a = b := by
  rw [val_main_v26_apply, IntOp.not_eq_one, val_main_v25_apply, val_main_v24_apply, val_main_v21_apply, val_main_v22_apply,
    val_main_v23_apply, val_main_c_apply]
  exact not_congr (iota_eq_iff a b)

/-- The "same label" bit: column's label against row's. -/
theorem v39_at (x1 : (⟨S384, .i32⟩ : BufTy).Contents (Elt Ideal)) (a b : Fin 384) :
    val_main_v39 (F := Ideal) x1 (ix2 a b) = 1#1 ↔ LAB x1 b = LAB x1 a := by
  rw [val_main_v39_apply, IntOp.cmpi_eq, val_main_v37_apply, val_main_v35_apply, val_main_v38_apply, val_main_v36_apply]
  have e1 : idx_main_v35 (idx_main_v37 (ix2 a b)) = ix1 b := funext fun d => Fin.ext (by match d with | ⟨0, _⟩ => rfl)
  have e2 : idx_main_v36 (idx_main_v38 (ix2 a b)) = ix1 a := funext fun d => Fin.ext (by match d with | ⟨0, _⟩ => rfl)
  rw [e1, e2]

/-- The full mask bit at a triple is the specification's mask. -/
theorem v46_at (x1 : (⟨S384, .i32⟩ : BufTy).Contents (Elt Ideal)) (i j k : Fin 384) :
    val_main_v46 (F := Ideal) x1 (ix3 i j k) = 1#1 ↔ Cert.Triplet.maskR (LAB x1) i j k := by
  have e43 : idx_main_v40 (idx_main_v43 (ix3 i j k)) = ix2 i k :=
    funext fun d => Fin.ext (by match d with | ⟨0, _⟩ => rfl | ⟨1, _⟩ => rfl)
  have e44 : idx_main_v42 (idx_main_v44 (ix3 i j k)) = ix2 i j :=
    funext fun d => Fin.ext (by match d with | ⟨0, _⟩ => rfl | ⟨1, _⟩ => rfl)
  have e29 : idx_main_v27 (idx_main_v29 (ix3 i j k)) = ix2 i j :=
    funext fun d => Fin.ext (by match d with | ⟨0, _⟩ => rfl | ⟨1, _⟩ => rfl)
  have e30 : idx_main_v28 (idx_main_v30 (ix3 i j k)) = ix2 i k :=
    funext fun d => Fin.ext (by match d with | ⟨0, _⟩ => rfl | ⟨1, _⟩ => rfl)
  have e33 : idx_main_v32 (idx_main_v33 (ix3 i j k)) = ix2 j k :=
    funext fun d => Fin.ext (by match d with | ⟨0, _⟩ => rfl | ⟨1, _⟩ => rfl)
  rw [val_main_v46_apply, IntOp.andi_eq_one, val_main_v45_apply, IntOp.andi_eq_one, val_main_v34_apply, IntOp.andi_eq_one,
    val_main_v31_apply, IntOp.andi_eq_one, val_main_v43_apply, val_main_v41_apply, IntOp.not_eq_one, val_main_v40_apply, e43,
    val_main_v44_apply, val_main_v42_apply, e44, val_main_v29_apply, val_main_v27_apply, e29, val_main_v30_apply,
    val_main_v28_apply, e30, val_main_v33_apply, val_main_v32_apply, e33, v39_at, v39_at, v26_at, v26_at, v26_at]
  rfl

/-! ## The distance matrix -/

/-- The single-precision pattern of two. -/
theorem ofBits_two_f32 : Ideal.ofBits .f32 0x40000000#32 = 2 := by
  rw [show (2 : EReal) = ((2 : ℝ) : EReal) by norm_cast]
  simp [Ideal.ofBits, Ideal.ieee, -EReal.coe_mul]; norm_num

/-- The row sum of squares. -/
theorem v1_at (x0 : (⟨S384x128, .f32⟩ : BufTy).Contents (Elt Ideal)) (i : Fin 384) :
    val_main_v1 (F := Ideal) x0 (ix1 i) = Cert.Triplet.sqn (X x0) i := by
  rw [val_main_v1_apply, val_main_cst_apply, Ideal.ofBits_def, Ideal.ofBits_zero_f32, zero_add]
  unfold Cert.Triplet.sqn
  refine Finset.sum_congr rfl fun d _ => ?_
  rw [val_main_v0_apply, Ideal.mulf_def]
  have e : idx_main_v1 (ix1 i) d = ix2 i d := funext fun a => Fin.ext (by match a with | ⟨0, _⟩ => rfl | ⟨1, _⟩ => rfl)
  rw [e]

/-- The inner products. -/
theorem v8_at (x0 : (⟨S384x128, .f32⟩ : BufTy).Contents (Elt Ideal)) (i j : Fin 384) :
    val_main_v8 (F := Ideal) x0 (ix2 i j) = Cert.Triplet.gram (X x0) i j := by
  rw [val_main_v8_apply]
  unfold Cert.Triplet.gram
  refine Finset.sum_congr rfl fun d _ => ?_
  rw [val_main_v7_apply]
  have el : lidx_main_v8 (ix2 i j) d = ix2 i d := funext fun a => Fin.ext (by match a with | ⟨0, _⟩ => rfl | ⟨1, _⟩ => rfl)
  have er : idx_main_v7 (ridx_main_v8 (ix2 i j) d) = ix2 j d := funext fun a => Fin.ext (by match a with | ⟨0, _⟩ => rfl | ⟨1, _⟩ => rfl)
  rw [el, er]

/-- The clamped squared distance. -/
theorem v13_at (x0 : (⟨S384x128, .f32⟩ : BufTy).Contents (Elt Ideal)) (i j : Fin 384) :
    val_main_v13 (F := Ideal) x0 (ix2 i j) = Cert.Triplet.d2 (X x0) i j := by
  have e4 : idx_main_v2 (idx_main_v4 (ix2 i j)) = ix1 i := funext fun a => Fin.ext (by match a with | ⟨0, _⟩ => rfl)
  have e5 : idx_main_v3 (idx_main_v5 (ix2 i j)) = ix1 j := funext fun a => Fin.ext (by match a with | ⟨0, _⟩ => rfl)
  rw [val_main_v13_apply, Ideal.maximumf_def, val_main_v11_apply, Ideal.subf_def, val_main_v6_apply, Ideal.addf_def,
    val_main_v4_apply, val_main_v2_apply, e4, v1_at, val_main_v5_apply, val_main_v3_apply, e5, v1_at,
    val_main_v10_apply, Ideal.mulf_def, val_main_v9_apply, val_main_cst_0_apply, Ideal.ofBits_def, ofBits_two_f32, v8_at,
    val_main_v12_apply, val_main_cst_1_apply, Ideal.ofBits_def, Ideal.ofBits_zero_f32]
  rfl

/-- A comparison "greater than zero" as a bit. -/
theorem cmp_ogt_eq_one (a b : EReal) : (FloatOps.cmpf (F := Ideal) (φ := .f32) .ogt a b = 1#1) ↔ b < a := by
  rw [Ideal.cmpf_def]
  unfold Ideal.cmp
  simp only [StableHlo.Predicate.ofBool_eq_one_iff, decide_eq_true_eq]

theorem select_bit {α : Type} (c : BitVec 1) (P : Prop) [Decidable P] (h : c = 1#1 ↔ P) (a b : α) :
    Scalar.select c a b = if P then a else b := by
  unfold Scalar.select
  by_cases hp : P
  · rw [if_pos hp]; exact if_pos (h.2 hp)
  · rw [if_neg hp]; exact if_neg (fun hc => hp (h.1 hc))

/-- The reference's distance matrix is the specification's. -/
theorem dist_eq (x0 : (⟨S384x128, .f32⟩ : BufTy).Contents (Elt Ideal)) (i j : Fin 384) :
    Cert.ReferenceIdeal.Read.val_main_v20 (F := Ideal) x0 (ValueIdx.ix2 i j) = Cert.Triplet.dist (X x0) i j := by
  rw [val_main_v20_apply, val_main_v15_apply, val_main_v19_apply, val_main_v18_apply, val_main_v17_apply, v13_at,
    val_main_v14_apply, val_main_cst_2_apply, val_main_v16_apply, val_main_cst_3_apply, val_main_call0_v1_apply,
    val_main_call0_v0_apply, val_main_cst_4_apply, val_main_call1_v1_apply, val_main_call1_v0_apply, val_main_cst_5_apply,
    Ideal.ofBits_def, Ideal.ofBits_def, Ideal.ofBits_zero_f32, Ideal.ofBits_one_f32, Ideal.hostUnary_sqrt_def,
    select_bit _ _ (cmp_ogt_eq_one _ _), select_bit _ _ (cmp_ogt_eq_one _ _)]
  rfl

/-! ## The hinge term, its sum and the two counts -/

/-- The masked, clamped hinge term at a triple. -/
theorem v56_at (x0 : (⟨S384x128, .f32⟩ : BufTy).Contents (Elt Ideal)) (x1 : (⟨S384, .i32⟩ : BufTy).Contents (Elt Ideal))
    (i j k : Fin 384) :
    val_main_v56 (F := Ideal) x0 x1 (ix3 i j k) = Cert.Triplet.hingeR (Cert.Triplet.dist (X x0)) (LAB x1) i j k := by
  have e49 : idx_main_v47 (idx_main_v49 (ix3 i j k)) = ix2 i j :=
    funext fun d => Fin.ext (by match d with | ⟨0, _⟩ => rfl | ⟨1, _⟩ => rfl)
  have e50 : idx_main_v48 (idx_main_v50 (ix3 i j k)) = ix2 i k :=
    funext fun d => Fin.ext (by match d with | ⟨0, _⟩ => rfl | ⟨1, _⟩ => rfl)
  rw [val_main_v56_apply, Ideal.maximumf_def, val_main_v54_apply, val_main_v53_apply, Ideal.addf_def, val_main_v51_apply,
    Ideal.subf_def, val_main_v49_apply, val_main_v47_apply, e49, dist_eq, val_main_v50_apply, val_main_v48_apply, e50, dist_eq,
    val_main_v52_apply, val_main_cst_6_apply, val_main_call2_v1_apply, val_main_call2_v0_apply, val_main_cst_7_apply,
    val_main_v55_apply, val_main_cst_8_apply, Ideal.ofBits_def, Ideal.ofBits_def, Ideal.ofBits_zero_f32, Ideal.ofBits_one_f32,
    select_bit _ _ (v46_at x1 i j k)]
  rfl

/-- The sum of the hinge terms over all triples. -/
theorem v67_at (x0 : (⟨S384x128, .f32⟩ : BufTy).Contents (Elt Ideal)) (x1 : (⟨S384, .i32⟩ : BufTy).Contents (Elt Ideal))
    (i : S_.Idx) :
    val_main_v67 (F := Ideal) x0 x1 i = Cert.Triplet.sumTlR (Cert.Triplet.dist (X x0)) (LAB x1) := by
  rw [val_main_v67_apply, val_main_cst_13_apply, Ideal.ofBits_def, Ideal.ofBits_zero_f32, zero_add, sum_idx3]
  unfold Cert.Triplet.sumTlR
  exact Finset.sum_congr rfl fun a _ => Finset.sum_congr rfl fun b _ => Finset.sum_congr rfl fun c _ => v56_at x0 x1 a b c

/-- The "above the threshold" bit at a triple. -/
theorem v58_at (x0 : (⟨S384x128, .f32⟩ : BufTy).Contents (Elt Ideal)) (x1 : (⟨S384, .i32⟩ : BufTy).Contents (Elt Ideal))
    (i j k : Fin 384) :
    val_main_v58 (F := Ideal) x0 x1 (ix3 i j k) = 1#1
      ↔ Cert.Triplet.eps < Cert.Triplet.hingeR (Cert.Triplet.dist (X x0)) (LAB x1) i j k := by
  rw [val_main_v58_apply, cmp_ogt_eq_one, v56_at, val_main_v57_apply, val_main_cst_9_apply, Ideal.ofBits_def]
  rfl

/-- The number of triples above the threshold, as the reference's integer sum reads it. -/
theorem v61_at (x0 : (⟨S384x128, .f32⟩ : BufTy).Contents (Elt Ideal)) (x1 : (⟨S384, .i32⟩ : BufTy).Contents (Elt Ideal))
    (i : S_.Idx) :
    val_main_v61 (F := Ideal) x0 x1 i = ((Cert.Triplet.numPosR (Cert.Triplet.dist (X x0)) (LAB x1) : ℕ) : EReal) := by
  classical
  rw [val_main_v61_apply]
  unfold val_main_v60 val_main_v59 val_main_c_10
  rw [reduce_count]
  have hc : (Finset.univ.filter fun t : S384x384x384.Idx => val_main_v58 (F := Ideal) x0 x1 t = 1#1).card
      = Cert.Triplet.numPosR (Cert.Triplet.dist (X x0)) (LAB x1) := by
    unfold Cert.Triplet.numPosR
    exact card_filter_idx3 _ _ fun a b c => v58_at x0 x1 a b c
  have hle : (Finset.univ.filter fun t : S384x384x384.Idx => val_main_v58 (F := Ideal) x0 x1 t = 1#1).card ≤ 56623104 := by
    rw [← card_idx3_384]; exact Finset.card_le_univ _
  rw [sitofp_count _ hle, hc]

/-- The number of triples the mask admits, as the reference's integer sum reads it. -/
theorem v64_at (x1 : (⟨S384, .i32⟩ : BufTy).Contents (Elt Ideal)) (i : S_.Idx) :
    val_main_v64 (F := Ideal) x1 i = ((Cert.Triplet.numValidR (LAB x1) : ℕ) : EReal) := by
  classical
  rw [val_main_v64_apply]
  unfold val_main_v63 val_main_v62 val_main_c_11
  rw [reduce_count]
  have hc : (Finset.univ.filter fun t : S384x384x384.Idx => val_main_v46 (F := Ideal) x1 t = 1#1).card
      = Cert.Triplet.numValidR (LAB x1) := by
    unfold Cert.Triplet.numValidR
    exact card_filter_idx3 _ _ fun a b c => v46_at x1 a b c
  have hle : (Finset.univ.filter fun t : S384x384x384.Idx => val_main_v46 (F := Ideal) x1 t = 1#1).card ≤ 56623104 := by
    rw [← card_idx3_384]; exact Finset.card_le_univ _
  rw [sitofp_count _ hle, hc]

/-- The reference's first result, the loss. -/
theorem loss_eq (x0 : (⟨S384x128, .f32⟩ : BufTy).Contents (Elt Ideal)) (x1 : (⟨S384, .i32⟩ : BufTy).Contents (Elt Ideal)) :
    Cert.ReferenceIdeal.Read.val_main_v69 (F := Ideal) x0 x1
      = Cert.Triplet.ratio (Cert.Triplet.sumTlR (Cert.Triplet.dist (X x0)) (LAB x1))
          ((Cert.Triplet.numPosR (Cert.Triplet.dist (X x0)) (LAB x1) : ℕ) : EReal) := by
  funext i
  rw [val_main_v69_apply, v67_at, val_main_v68_apply, v61_at, val_main_cst_14_apply]
  rfl

/-- The reference's second result, the fraction of positive triplets. -/
theorem frac_eq (x0 : (⟨S384x128, .f32⟩ : BufTy).Contents (Elt Ideal)) (x1 : (⟨S384, .i32⟩ : BufTy).Contents (Elt Ideal)) :
    Cert.ReferenceIdeal.Read.val_main_v66 (F := Ideal) x0 x1
      = Cert.Triplet.ratio ((Cert.Triplet.numPosR (Cert.Triplet.dist (X x0)) (LAB x1) : ℕ) : EReal)
          ((Cert.Triplet.numValidR (LAB x1) : ℕ) : EReal) := by
  funext i
  rw [val_main_v66_apply, v61_at, val_main_v65_apply, v64_at, val_main_cst_12_apply]
  rfl

end Cert.ReferenceIdeal.RefValue

end
-- ==== Proof.Bridge.lean ====
/-
  The two arrangements of the triplet sums agree on the extended reals.

  A triple passes the full mask exactly when `j` is a positive of the anchor (same label, another index) and
  `k`'s label differs from `j`'s: with `lab j = lab i`, "`k` differs from `i`" and "`k` differs from `j`"
  are one condition, and unequal labels force unequal indices. A clamped term `max t 0` is `t` where
  `0 < t` and `0` elsewhere; a weight 0 or 1 times a sum is the sum or 0. Counting: the threshold is
  positive, so a clamped term exceeds it exactly when the term itself does; and per anchor the admitted
  pairs `(j, k)` are a product set, positives times negatives.
-/
import proofs.«410585_j13030930776533_3_alg».proof.Proof.Spec

noncomputable section

open scoped BigOperators

namespace Cert.Triplet

open Idealize.ShloMosaic

/-- The threshold constant is a positive real. -/
theorem eps_pos : 0 < eps := by
  unfold eps
  simp [Ideal.ofBits, Ideal.ieee, -EReal.coe_mul]

/-- The full mask says: `j` is a positive of anchor `i`, and `k`'s label differs from `j`'s. -/
theorem maskR_iff (lab : Fin 384 → BitVec 32) (i j k : Fin 384) :
    maskR lab i j k ↔ (lab i = lab j ∧ j ≠ i) ∧ lab j ≠ lab k := by
  unfold maskR
  constructor
  · rintro ⟨⟨h1, h2⟩, ⟨h3, _⟩, _⟩
    refine ⟨⟨h2.symm, fun h => h3 h.symm⟩, fun h => h1 ?_⟩
    rw [← h, h2]
  · rintro ⟨⟨h1, h2⟩, h3⟩
    refine ⟨⟨fun h => h3 ?_, h1.symm⟩, ⟨fun h => h2 h.symm, fun h => h3 ?_⟩, fun h => h3 ?_⟩
    · rw [h, h1]
    · rw [← h, h1]
    · rw [h]

/-- A clamped term is the term where it is positive, and zero elsewhere. -/
theorem max_zero_eq_ite (t : EReal) : max t 0 = if 0 < t then t else 0 := by
  rcases lt_or_ge 0 t with h | h
  · rw [if_pos h, max_eq_left h.le]
  · rw [if_neg (not_lt.mpr h), max_eq_right h]

/-- The cardinality of a filtered set, as an extended real, is the sum of the indicator. -/
theorem card_filter_cast {α : Type*} (s : Finset α) (p : α → Prop) [DecidablePred p] :
    (((s.filter p).card : ℕ) : EReal) = ∑ x ∈ s, if p x then (1 : EReal) else 0 := by
  rw [Finset.card_filter, Nat.cast_sum]
  refine Finset.sum_congr rfl fun x _ => ?_
  split_ifs <;> simp

/-! ## The sums -/

/-- Per anchor `i` and candidate `j`: the sum over `k` of the masked, clamped terms is the weight of `j`
    times the row sum of the positive terms. -/
theorem hinge_row_eq (d : Fin 384 → Fin 384 → EReal) (lab : Fin 384 → BitVec 32) (i j : Fin 384) :
    ∑ k, hingeR d lab i j k = posWA lab (lab i) i j * hingeRowA (d i) lab j := by
  unfold posWA hingeRowA
  by_cases hp : lab i = lab j ∧ j ≠ i
  · rw [if_pos hp, one_mul]
    refine Finset.sum_congr rfl fun k _ => ?_
    unfold hingeR tl
    by_cases hk : lab j ≠ lab k
    · have hm : maskR lab i j k := (maskR_iff lab i j k).mpr ⟨hp, hk⟩
      rw [if_pos hm, max_zero_eq_ite]
      by_cases ht : 0 < tlRow (d i) j k
      · rw [if_pos ht, if_pos ⟨hk, ht⟩]
      · rw [if_neg ht, if_neg (fun h => ht h.2)]
    · have hm : ¬ maskR lab i j k := fun h => hk ((maskR_iff lab i j k).mp h).2
      rw [if_neg hm, max_self, if_neg (fun h => hk h.1)]
  · rw [if_neg hp, zero_mul]
    refine Finset.sum_eq_zero fun k _ => ?_
    unfold hingeR
    have hm : ¬ maskR lab i j k := fun h => hp ((maskR_iff lab i j k).mp h).1
    rw [if_neg hm, max_self]

/-- The flat sum of the masked, clamped hinge terms is the nested sum. -/
theorem sumTl_eq (d : Fin 384 → Fin 384 → EReal) (lab : Fin 384 → BitVec 32) : sumTlR d lab = sumTlK d lab := by
  unfold sumTlR sumTlK anchorHinge anchorHingeA
  refine Finset.sum_congr rfl fun i _ => Finset.sum_congr rfl fun j _ => ?_
  exact hinge_row_eq d lab i j

/-! ## The count above the threshold -/

/-- The threshold being positive, a masked, clamped term exceeds it exactly when the mask holds and the term
    itself exceeds it. -/
theorem eps_lt_hingeR_iff (d : Fin 384 → Fin 384 → EReal) (lab : Fin 384 → BitVec 32) (i j k : Fin 384) :
    eps < hingeR d lab i j k ↔ maskR lab i j k ∧ eps < tl d i j k := by
  unfold hingeR
  by_cases hm : maskR lab i j k
  · rw [if_pos hm, lt_max_iff]
    constructor
    · rintro (h | h)
      · exact ⟨hm, h⟩
      · exact absurd h (not_lt.mpr eps_pos.le)
    · rintro ⟨_, h⟩
      exact Or.inl h
  · rw [if_neg hm, max_self]
    constructor
    · intro h
      exact absurd h (not_lt.mpr eps_pos.le)
    · rintro ⟨h, _⟩
      exact absurd h hm

/-- Per anchor `i` and candidate `j`: the number of `k` whose clamped term exceeds the threshold is the weight
    of `j` times the row count. -/
theorem count_row_eq (d : Fin 384 → Fin 384 → EReal) (lab : Fin 384 → BitVec 32) (i j : Fin 384) :
    (∑ k, if eps < hingeR d lab i j k then (1 : EReal) else 0)
      = posWA lab (lab i) i j * countRowA (d i) lab j := by
  unfold posWA countRowA
  by_cases hp : lab i = lab j ∧ j ≠ i
  · rw [if_pos hp, one_mul]
    refine Finset.sum_congr rfl fun k _ => ?_
    refine if_congr ?_ rfl rfl
    rw [eps_lt_hingeR_iff, maskR_iff]
    unfold tl
    constructor
    · rintro ⟨⟨_, hk⟩, ht⟩
      exact ⟨hk, ht⟩
    · rintro ⟨hk, ht⟩
      exact ⟨⟨hp, hk⟩, ht⟩
  · rw [if_neg hp, zero_mul]
    refine Finset.sum_eq_zero fun k _ => ?_
    rw [if_neg]
    rw [eps_lt_hingeR_iff, maskR_iff]
    rintro ⟨⟨h, _⟩, _⟩
    exact hp h

/-- The number of triples above the threshold, as an extended real, is the nested count. -/
theorem numPos_eq (d : Fin 384 → Fin 384 → EReal) (lab : Fin 384 → BitVec 32) :
    ((numPosR d lab : ℕ) : EReal) = numPosK d lab := by
  unfold numPosR numPosK anchorCount anchorCountA
  rw [card_filter_cast, Fintype.sum_prod_type]
  refine Finset.sum_congr rfl fun i _ => ?_
  rw [Fintype.sum_prod_type]
  refine Finset.sum_congr rfl fun j _ => ?_
  exact count_row_eq d lab i j

/-! ## The count of valid triples -/

/-- The number of indices carrying anchor `i`'s label is a cardinality. -/
theorem cntEq_eq_card (lab : Fin 384 → BitVec 32) (i : Fin 384) :
    cntEq lab i = (((Finset.univ.filter fun j => lab i = lab j).card : ℕ) : EReal) := by
  unfold cntEq
  rw [card_filter_cast]

/-- Per anchor the admitted pairs are a product set: the positives (same label, the anchor removed) times the
    negatives (another label). -/
theorem pair_filter_eq (lab : Fin 384 → BitVec 32) (i : Fin 384) :
    (Finset.univ.filter fun q : Fin 384 × Fin 384 => maskR lab i q.1 q.2)
      = ((Finset.univ.filter fun j => lab i = lab j).erase i)
          ×ˢ (Finset.univ.filter fun k => ¬ lab i = lab k) := by
  ext ⟨j, k⟩
  simp only [Finset.mem_filter, Finset.mem_univ, true_and, Finset.mem_product, Finset.mem_erase]
  rw [maskR_iff]
  constructor
  · rintro ⟨⟨h1, h2⟩, h3⟩
    exact ⟨⟨h2, h1⟩, fun h => h3 (h1.symm.trans h)⟩
  · rintro ⟨⟨h2, h1⟩, h3⟩
    exact ⟨⟨h1, h2⟩, fun h => h3 (h1.trans h)⟩

/-- With `c` indices carrying the anchor's label there are `(c - 1) (384 - c)` admitted pairs. -/
theorem pair_card (lab : Fin 384 → BitVec 32) (i : Fin 384) :
    (Finset.univ.filter fun q : Fin 384 × Fin 384 => maskR lab i q.1 q.2).card
      = ((Finset.univ.filter fun j => lab i = lab j).card - 1)
          * (384 - (Finset.univ.filter fun j => lab i = lab j).card) := by
  rw [pair_filter_eq, Finset.card_product, Finset.card_erase_of_mem]
  · congr 1
    have h := Finset.card_filter_add_card_filter_not (s := (Finset.univ : Finset (Fin 384)))
      (fun j => lab i = lab j)
    rw [Finset.card_univ, Fintype.card_fin] at h
    omega
  · simp

/-- The product of the two natural differences, cast to the extended reals, is the product of the differences
    of the casts (both differences are genuine: `1 ≤ c ≤ 384`). -/
theorem cast_pos_neg (c : ℕ) (h1 : 1 ≤ c) (h2 : c ≤ 384) :
    ((((c - 1) * (384 - c) : ℕ)) : EReal) = ((c : EReal) - 1) * (384 - (c : EReal)) := by
  have e384 : (384 : EReal) = ((384 : ℕ) : EReal) := Nat.cast_ofNat.symm
  rw [EReal.natCast_mul, e384]
  congr 1
  · rw [← EReal.coe_coe_eq_natCast (c - 1), ← EReal.coe_coe_eq_natCast c, Nat.cast_sub h1, EReal.coe_sub,
      Nat.cast_one, EReal.coe_one]
  · rw [← EReal.coe_coe_eq_natCast (384 - c), ← EReal.coe_coe_eq_natCast c, ← EReal.coe_coe_eq_natCast 384,
      Nat.cast_sub h2, EReal.coe_sub]

/-- The number of valid triples, as an extended real, is the closed form. -/
theorem numValid_eq (lab : Fin 384 → BitVec 32) : ((numValidR lab : ℕ) : EReal) = numValidK lab := by
  unfold numValidR numValidK
  rw [card_filter_cast, Fintype.sum_prod_type]
  refine Finset.sum_congr rfl fun i _ => ?_
  have hmem : i ∈ Finset.univ.filter fun j => lab i = lab j := by simp
  have h1 : 1 ≤ (Finset.univ.filter fun j => lab i = lab j).card := Finset.card_pos.mpr ⟨i, hmem⟩
  have h2 : (Finset.univ.filter fun j => lab i = lab j).card ≤ 384 := by
    have h := Finset.card_le_univ (Finset.univ.filter fun j => lab i = lab j)
    rwa [Fintype.card_fin] at h
  rw [cntEq_eq_card, ← cast_pos_neg _ h1 h2, ← pair_card, card_filter_cast]

#print axioms eps_pos
#print axioms sumTl_eq
#print axioms numPos_eq
#print axioms numValid_eq

end Cert.Triplet

end
-- ==== Proof.lean ====
/-
  The certificate of the triplet-loss kernel against its reference.

  The kernel program is two pipelined calls and host operations: the first call writes the matrix of pairwise
  Euclidean distances of the 384 embeddings; the second sweeps the anchors in six tiles of 64 rows, two runs of
  three, adding per anchor the hinge sum and the count of its triples (positive j of the anchor's label, negative k of
  another label) into a block per run; the host adds the two runs, computes the number of valid triplets in closed
  form from the labels, and divides. The reference forms all 384³ masked hinge terms at once.

  Frames: both programs run to the end, fault nowhere and leave their arguments unchanged — the kernel's by the run
  of its four segments (Run for the idealized program, KRun for the word-level one), the reference's by its run.
  Values at the ideal instance: the kernel's results are the specification's nested sums (KernelValue), the
  reference's its flat sums and counts (RefValue), and the two arrangements agree (Bridge): a triple passes the full
  mask exactly when j is a positive of the anchor and k's label differs from j's, a clamped term is the term where
  it is positive, and the admitted pairs of an anchor are positives times negatives.
-/
import proofs.«410585_j13030930776533_3_alg».proof.Defs
import proofs.«410585_j13030930776533_3_alg».proof.Proof.Gen.Kernel
import proofs.«410585_j13030930776533_3_alg».proof.Proof.Gen.KernelIdeal
import proofs.«410585_j13030930776533_3_alg».proof.Proof.Gen.ReferenceIdeal
import proofs.«410585_j13030930776533_3_alg».proof.Proof.Gen.ReferenceIdeal.Run
import proofs.«410585_j13030930776533_3_alg».proof.Proof.Gen.ReferenceIdeal.Read
import proofs.«410585_j13030930776533_3_alg».proof.Proof.Gen.Pre_finite_inputs
import proofs.«410585_j13030930776533_3_alg».proof.Proof.Run
import proofs.«410585_j13030930776533_3_alg».proof.Proof.KRun
import proofs.«410585_j13030930776533_3_alg».proof.Proof.KernelValue
import proofs.«410585_j13030930776533_3_alg».proof.Proof.RefValue
import proofs.«410585_j13030930776533_3_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_p : Cert.frame_Kernel := fun m ρ _ => Cert.Kernel.Hand.frame (F := Bits) m ρ
/-- The idealized kernel program runs and leaves its arguments unchanged. -/
theorem frame_pi : Cert.frame_KernelIdeal := fun m ρ _ => Cert.KernelIdeal.Hand.frame (F := Ideal) m ρ
/-- The reference runs and leaves its arguments unchanged: its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

open Cert.KernelIdeal.Hand in
/-- From memories agreeing on the embeddings and the labels both programs end with the loss and the fraction of
    positive triplets of the specification: the kernel in the nested arrangement, the reference in the flat one. -/
theorem algebraic : Cert.algebraic_KernelIdeal_ReferenceIdeal := by
  intro m ρ m' ρ' _ hagree
  refine ⟨fun c => Cert.Triplet.ratio (Cert.Triplet.sumTlK (Cert.Triplet.dist (X0 m c)) (LAB0 m c))
      (Cert.Triplet.numPosK (Cert.Triplet.dist (X0 m c)) (LAB0 m c)),
    fun c => Cert.Triplet.ratio (Cert.Triplet.numPosK (Cert.Triplet.dist (X0 m c)) (LAB0 m c)) (Cert.Triplet.numValidK (LAB0 m c)), ?_, ?_⟩
  · exact (θ_run Cert.KernelIdeal.defs _ _).mono (fun r h c =>
      ⟨(h c _ (mem_uc Cert.KernelIdeal.main_v33 (by decide))).trans (kernel_v33 m c),
        (h c _ (mem_uc Cert.KernelIdeal.main_v31 (by decide))).trans (kernel_v31 m c),
        (h c _ (mem_uc Cert.KernelIdeal.main_arg0 (by decide))).trans (W4_main_arg0 m c),
        (h c _ (mem_uc Cert.KernelIdeal.main_arg1 (by decide))).trans (W4_main_arg1 m c)⟩) (run_all (F := Ideal) m ρ)
  · refine (θ_run Cert.ReferenceIdeal.defs _ _).mono (fun r h c => ⟨(h c).1.trans ?_, (h c).2.1.trans ?_, (h c).2.2.1, (h c).2.2.2⟩)
      (Cert.ReferenceIdeal.Value.run (F := Ideal) m' ρ')
    · rw [Cert.ReferenceIdeal.Read.val_main_v69_eq, Cert.ReferenceIdeal.RefValue.loss_eq, (hagree c).1, (hagree c).2,
        Cert.Triplet.sumTl_eq, Cert.Triplet.numPos_eq]
    · rw [Cert.ReferenceIdeal.Read.val_main_v66_eq, Cert.ReferenceIdeal.RefValue.frac_eq, (hagree c).1, (hagree c).2,
        Cert.Triplet.numPos_eq, Cert.Triplet.numValid_eq]

theorem claim : Cert.Claim :=
  ⟨Cert.Kernel.Gen.facts, Cert.KernelIdeal.Gen.facts, Cert.ReferenceIdeal.Gen.facts, Cert.Pre_finite_inputs.Gen.facts,
    frame_p, frame_pi, frame_ri, trivial, algebraic⟩

end Cert.Proof

end
